-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "inv_temp" .f32 0x41649249#32 ((134217728 / 9395241 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S8192 : Shape := ⟨1, ![8192]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel

variable [Facts]

def fn {F : FTy → Type} [FloatOps F] (main_arg0 : FVec F S8192x512 .f32) (main_arg1 : FVec F S8192x512 .f32) (main_arg2 : IVec S8192 32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  main_v8
-- ==== Kernel.lean ====
abbrev S8192x512 : Shape := ⟨2, ![8192, 512]⟩
abbrev S8192 : Shape := ⟨1, ![8192]⟩
abbrev S1024x512 : Shape := ⟨2, ![1024, 512]⟩
abbrev S1024 : Shape := ⟨1, ![1024]⟩
abbrev S1024x1 : Shape := ⟨2, ![1024, 1]⟩
abbrev S8192x1 : Shape := ⟨2, ![8192, 1]⟩
abbrev S1x8192 : Shape := ⟨2, ![1, 8192]⟩
abbrev S512x512 : Shape := ⟨2, ![512, 512]⟩
abbrev S512x1 : Shape := ⟨2, ![512, 1]⟩
abbrev S1x512 : Shape := ⟨2, ![1, 512]⟩
abbrev S512 : Shape := ⟨1, ![512]⟩
abbrev S_ : Shape := ⟨0, ![]⟩

abbrev nBuf : Space → Nat
  | .hbm => 37
  | .vmem => 26
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192, .i32⟩
  | .hbm, ⟨3, _⟩ => ⟨S8192x512, .bf16⟩
  | .hbm, ⟨4, _⟩ => ⟨S8192x512, .bf16⟩
  | .hbm, ⟨5, _⟩ => ⟨S8192x1, .i32⟩
  | .hbm, ⟨6, _⟩ => ⟨S1x8192, .i32⟩
  | .hbm, ⟨7, _⟩ => ⟨S8192x1, .f32⟩
  | .hbm, ⟨8, _⟩ => ⟨S8192x1, .f32⟩
  | .hbm, ⟨9, _⟩ => ⟨S1x8192, .f32⟩
  | .hbm, ⟨10, _⟩ => ⟨S1x8192, .f32⟩
  | .hbm, ⟨11, _⟩ => ⟨S8192, .f32⟩
  | .hbm, ⟨12, _⟩ => ⟨S8192, .f32⟩
  | .hbm, ⟨13, _⟩ => ⟨S_, .f32⟩
  | .hbm, ⟨14, _⟩ => ⟨S8192, .f32⟩
  | .hbm, ⟨15, _⟩ => ⟨S8192, .f32⟩
  | .hbm, ⟨16, _⟩ => ⟨S8192, .f32⟩
  | .hbm, ⟨17, _⟩ => ⟨S8192, .f32⟩
  | .hbm, ⟨18, _⟩ => ⟨S8192, .f32⟩
  | .hbm, ⟨19, _⟩ => ⟨S_, .f32⟩
  | .hbm, ⟨20, _⟩ => ⟨S8192, .f32⟩
  | .hbm, ⟨21, _⟩ => ⟨S8192, .f32⟩
  | .hbm, ⟨22, _⟩ => ⟨S8192, .f32⟩
  | .hbm, ⟨23, _⟩ => ⟨S_, .f32⟩
  | .hbm, ⟨24, _⟩ => ⟨S8192, .f32⟩
  | .hbm, ⟨25, _⟩ => ⟨S8192, .f32⟩
  | .hbm, ⟨26, _⟩ => ⟨S8192, .f32⟩
  | .hbm, ⟨27, _⟩ => ⟨S_, .f32⟩
  | .hbm, ⟨28, _⟩ => ⟨S8192, .f32⟩
  | .hbm, ⟨29, _⟩ => ⟨S8192, .f32⟩
  | .hbm, ⟨30, _⟩ => ⟨S8192, .f32⟩
  | .hbm, ⟨31, _⟩ => ⟨S8192, .f32⟩
  | .hbm, ⟨32, _⟩ => ⟨S8192, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x1, .i32⟩
  | .local _ .vmem, ⟨13, _⟩ => ⟨S512x1, .i32⟩
  | .local _ .vmem, ⟨14, _⟩ => ⟨S1x512, .i32⟩
  | .local _ .vmem, ⟨15, _⟩ => ⟨S1x512, .i32⟩
  | .local _ .vmem, ⟨16, _⟩ => ⟨S512x1, .f32⟩
  | .local _ .vmem, ⟨17, _⟩ => ⟨S512x1, .f32⟩
  | .local _ .vmem, ⟨18, _⟩ => ⟨S512x1, .f32⟩
  | .local _ .vmem, ⟨19, _⟩ => ⟨S512x1, .f32⟩
  | .local _ .vmem, ⟨20, _⟩ => ⟨S1x8192, .f32⟩
  | .local _ .vmem, ⟨21, _⟩ => ⟨S1x8192, .f32⟩
  | .local _ .vmem, ⟨22, _⟩ => ⟨S512x1, .f32⟩
  | .local _ .vmem, ⟨23, _⟩ => ⟨S512x1, .f32⟩
  | .local _ .vmem, ⟨24, _⟩ => ⟨S1x8192, .f32⟩
  | .local _ .vmem, ⟨25, _⟩ => ⟨S1x8192, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc1_stg6_0 : Ref sig .tc := ⟨.vmem, 20, rfl⟩
abbrev cc1_stg7_0 : Ref sig .tc := ⟨.vmem, 21, rfl⟩
abbrev cc1_scratch0 : Ref sig .tc := ⟨.vmem, 22, rfl⟩
abbrev cc1_scratch1 : Ref sig .tc := ⟨.vmem, 23, rfl⟩
abbrev cc1_scratch2 : Ref sig .tc := ⟨.vmem, 24, rfl⟩
abbrev cc1_scratch3 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17
abbrev cc1_sem5_0 : DmaSem sig := 18
abbrev cc1_sem5_1 : DmaSem sig := 19
abbrev cc1_sem6_0 : DmaSem sig := 20
abbrev cc1_sem7_0 : DmaSem sig := 21

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![16, 16], ![false, false]⟩

def k1_mult1 (i : grid1.Coords) : BitVec 32 :=
  let arg1 : BitVec 32 := BitVec.ofNat 32 (i 1).val
  let c512_i32 : BitVec 32 := 512#32
  let v43 : BitVec 32 := Scalar.muli arg1 c512_i32
  v43
def k1_off1 (i : grid1.Coords) : Fin 2 → Nat :=
  let c0_25 : Index := 0#32
  let arg1 : BitVec 32 := BitVec.ofNat 32 (i 1).val
  let c512_i32 : BitVec 32 := 512#32
  let v43 : BitVec 32 := Scalar.muli arg1 c512_i32
  let v44 : BitVec 32 := v43
  let v45 : Index := Scalar.indexCast v44
  ![0, v45.toNat]
def k1_cond3 (i : grid1.Coords) : BitVec 1 :=
  let arg0 : BitVec 32 := BitVec.ofNat 32 (i 0).val
  let c15_i32 : BitVec 32 := 15#32
  let v63 : BitVec 1 := Scalar.cmpi .eq arg0 c15_i32
  let arg1 : BitVec 32 := BitVec.ofNat 32 (i 1).val
  let c15_i32_37 : BitVec 32 := 15#32
  let v64 : BitVec 1 := Scalar.cmpi .eq arg1 c15_i32_37
  let v65 : BitVec 1 := Scalar.andi v63 v64
  let v66 : BitVec 32 := Scalar.extui v65
  let c0_i32_38 : BitVec 32 := 0#32
  let v67 : BitVec 1 := Scalar.cmpi .ne v66 c0_i32_38
  v67

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S512x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x1 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x512 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S512x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S512x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 1 → Memref sig .tc .vmem S1x8192 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S1x8192 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

class Facts₀ : Prop where
  inb_S1024x512_S1024x512_0_0 : ∀ a, (![0, 0] : Fin 2 → Nat) a + S1024x512.size a ≤ S1024x512.size a
  h_S1024x512 : 0 < S1024x512.numel
  reduces_S1024x512_S1024 : S1024x512.Reduces [1] S1024
  shapeCasts_S1024_S1024x1 : S1024.ShapeCasts S1024x1
  broadcasts_S1024x1_S1024x512 : S1024x1.Broadcasts S1024x512
  bitsLt_bf16_f32 : FTy.bits .bf16 < FTy.bits .f32
  packedbf16_S1024x512_S1024x512_0_0 : (Rect.unit (s := S1024x512) ![0, 0] S1024x512.size inb_S1024x512_S1024x512_0_0).PackedRows (EltTy.packing .bf16)
  shapeCasts_S8192_S8192x1 : S8192.ShapeCasts S8192x1
  shapeCasts_S8192_S1x8192 : S8192.ShapeCasts S1x8192
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S512x1_S512x512 : S512x1.Broadcasts S512x512
  broadcasts_S1x512_S512x512 : S1x512.Broadcasts S512x512
  reduces_S512x512_S512 : S512x512.Reduces [1] S512
  shapeCasts_S512_S512x1 : S512.ShapeCasts S512x1
  reduces_S512x512_S512_2 : S512x512.Reduces [0] S512
  shapeCasts_S512_S1x512 : S512.ShapeCasts S1x512
  shapeCasts_S8192x1_S8192 : S8192x1.ShapeCasts S8192
  bcast_S_S8192 : S_.BroadcastsInDim S8192 (![] : Fin 0 → Fin S8192.rank)
  shapeCasts_S1x8192_S8192 : S1x8192.ShapeCasts S8192
  reducesTo_S8192_S_d0 : S8192.ReducesTo [0] S_
  h_S_ : 0 < S_.numel
  dot_S512x512_S512x512_S512x512_1_1_0_0_n_n_wf : DotDims.WF S512x512 S512x512 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .f32 = 32 ∨ (Rect.block (s := S8192x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S8192x512.size a
  hwx0_1 : ∀ i : grid0.Coords, EltTy.bits .f32 = 32 ∨ (Rect.block (s := S8192x512) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S8192x512.size a
  hwx0_2 : ∀ i : grid0.Coords, EltTy.bits .bf16 = 32 ∨ (Rect.block (s := S8192x512) S1024x512.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S8192x512.size a
  hwx0_3 : ∀ i : grid0.Coords, EltTy.bits .bf16 = 32 ∨ (Rect.block (s := S8192x512) S1024x512.size (cc0_transform_3 i) (hinb0_3 i)).WholeWords (EltTy.packing .bf16)
  hrank1 : 0 < grid1.rank
  k1_mult1_dvd : ∀ i : grid1.Coords, 512 ∣ (k1_mult1 i).toNat
  k1_off1_inb : ∀ i : grid1.Coords, ∀ a, (k1_off1 i) a + S1x512.size a ≤ S1x8192.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x512.size a ≤ S8192x512.size a
  hwx1_0 : ∀ i : grid1.Coords, EltTy.bits .bf16 = 32 ∨ (Rect.block (s := S8192x512) S512x512.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x512.size a ≤ S8192x512.size a
  hwx1_1 : ∀ i : grid1.Coords, EltTy.bits .bf16 = 32 ∨ (Rect.block (s := S8192x512) S512x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x1.size a ≤ S8192x1.size a
  hwx1_2 : ∀ i : grid1.Coords, EltTy.bits .i32 = 32 ∨ (Rect.block (s := S8192x1) S512x1.size (cc1_transform_2 i) (hinb1_2 i)).WholeWords (EltTy.packing .i32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512.size a ≤ S1x8192.size a
  hwx1_3 : ∀ i : grid1.Coords, EltTy.bits .i32 = 32 ∨ (Rect.block (s := S1x8192) S1x512.size (cc1_transform_3 i) (hinb1_3 i)).WholeWords (EltTy.packing .i32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x1.size a ≤ S8192x1.size a
  hwx1_4 : ∀ i : grid1.Coords, EltTy.bits .f32 = 32 ∨ (Rect.block (s := S8192x1) S512x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S512x1.size a ≤ S8192x1.size a
  hwx1_5 : ∀ i : grid1.Coords, EltTy.bits .f32 = 32 ∨ (Rect.block (s := S8192x1) S512x1.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x8192.size a ≤ S1x8192.size a
  hwx1_6 : ∀ i : grid1.Coords, EltTy.bits .f32 = 32 ∨ (Rect.block (s := S1x8192) S1x8192.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x8192.size a ≤ S1x8192.size a
  hwx1_7 : ∀ i : grid1.Coords, EltTy.bits .f32 = 32 ∨ (Rect.block (s := S1x8192) S1x8192.size (cc1_transform_7 i) (hinb1_7 i)).WholeWords (EltTy.packing .f32)

variable [Facts₀]

def dot_S512x512_S512x512_S512x512_1_1_0_0_n_n : DotDims S512x512 S512x512 S512x512 where
  lhsContracting := [1]
  rhsContracting := [1]
  lhsNonContracting := [0]
  rhsNonContracting := [0]
  lhsBatch := []
  rhsBatch := []
  wf := dot_S512x512_S512x512_S512x512_1_1_0_0_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1024x512.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1024x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v0_1) S512x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_0) S512x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S512x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2) S1x512.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v3_0) S512x1.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v3_1) S512x1.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v3_2) S1x8192.size cc1_transform_6 reads1_6 true true 1 stage1_6 sem1_6
    hrank1 hreads1_6 hinb1_6 nbuf1_6 (Memref.isWhole_whole _) hwx1_6 hstage1_6

abbrev win1_7 : Pipeline.Window sig grid1 :=
  Pipeline.Window.ofSpec (Memref.whole main_v3_3) S1x8192.size cc1_transform_7 reads1_7 true true 1 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev idle1 : Fin 8 → grid1.Coords → Bool := fun | 0 => fun _ => false | 1 => fun _ => false | 2 => fun _ => false | 3 => fun _ => false | 4 => fun _ => false | 5 => fun _ => false | 6 => fun i => !(k1_cond3 i == 1#1) | 7 => fun i => !(k1_cond3 i == 1#1) | ⟨_ + 8, h⟩ => absurd h (Nat.not_lt.2 (Nat.le_add_left _ _))

class Facts : Prop extends Facts₀ where

variable [Facts]
-- ==== ReferenceIdeal.lean ====
abbrev S8192x512 : Shape := ⟨2, ![8192, 512]⟩
abbrev S8192 : Shape := ⟨1, ![8192]⟩
abbrev S_ : Shape := ⟨0, ![]⟩
abbrev S8192x1 : Shape := ⟨2, ![8192, 1]⟩
abbrev S1x8192 : Shape := ⟨2, ![1, 8192]⟩
abbrev S8192x8192 : Shape := ⟨2, ![8192, 8192]⟩

abbrev nBuf : Space → Nat
  | .hbm => 68
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192, .i32⟩
  | .hbm, ⟨3, _⟩ => ⟨S8192x512, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S8192x512, .f32⟩
  | .hbm, ⟨12, _⟩ => ⟨S8192x512, .f32⟩
  | .hbm, ⟨13, _⟩ => ⟨S8192x512, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x512, .f32⟩
  | .hbm, ⟨22, _⟩ => ⟨S8192x512, .f32⟩
  | .hbm, ⟨23, _⟩ => ⟨S8192x1, .i32⟩
  | .hbm, ⟨24, _⟩ => ⟨S1x8192, .i32⟩
  | .hbm, ⟨25, _⟩ => ⟨S8192x8192, .i32⟩
  | .hbm, ⟨26, _⟩ => ⟨S8192x8192, .i32⟩
  | .hbm, ⟨27, _⟩ => ⟨S8192x8192, .i1⟩
  | .hbm, ⟨28, _⟩ => ⟨S8192x8192, .f32⟩
  | .hbm, ⟨29, _⟩ => ⟨S8192x8192, .f32⟩
  | .hbm, ⟨30, _⟩ => ⟨S_, .f32⟩
  | .hbm, ⟨31, _⟩ => ⟨S8192x8192, .f32⟩
  | .hbm, ⟨32, _⟩ => ⟨S8192x8192, .f32⟩
  | .hbm, ⟨33, _⟩ => ⟨S8192x8192, .f32⟩
  | .hbm, ⟨34, _⟩ => ⟨S8192x8192, .f32⟩
  | .hbm, ⟨35, _⟩ => ⟨S8192x8192, .f32⟩
  | .hbm, ⟨36, _⟩ => ⟨S8192x8192, .f32⟩
  | .hbm, ⟨37, _⟩ => ⟨S_, .f32⟩
  | .hbm, ⟨38, _⟩ => ⟨S8192, .f32⟩
  | .hbm, ⟨39, _⟩ => ⟨S_, .f32⟩
  | .hbm, ⟨40, _⟩ => ⟨S8192, .f32⟩
  | .hbm, ⟨41, _⟩ => ⟨S_, .f32⟩
  | .hbm, ⟨42, _⟩ => ⟨S8192, .f32⟩
  | .hbm, ⟨43, _⟩ => ⟨S8192, .f32⟩
  | .hbm, ⟨44, _⟩ => ⟨S8192, .f32⟩
  | .hbm, ⟨45, _⟩ => ⟨S8192x8192, .f32⟩
  | .hbm, ⟨46, _⟩ => ⟨S_, .f32⟩
  | .hbm, ⟨47, _⟩ => ⟨S8192, .f32⟩
  | .hbm, ⟨48, _⟩ => ⟨S_, .f32⟩
  | .hbm, ⟨49, _⟩ => ⟨S8192, .f32⟩
  | .hbm, ⟨50, _⟩ => ⟨S_, .f32⟩
  | .hbm, ⟨51, _⟩ => ⟨S8192, .f32⟩
  | .hbm, ⟨52, _⟩ => ⟨S8192, .f32⟩
  | .hbm, ⟨53, _⟩ => ⟨S8192, .f32⟩
  | .hbm, ⟨54, _⟩ => ⟨S_, .f32⟩
  | .hbm, ⟨55, _⟩ => ⟨S8192, .f32⟩
  | .hbm, ⟨56, _⟩ => ⟨S8192, .f32⟩
  | .hbm, ⟨57, _⟩ => ⟨S8192, .f32⟩
  | .hbm, ⟨58, _⟩ => ⟨S_, .f32⟩
  | .hbm, ⟨59, _⟩ => ⟨S8192, .f32⟩
  | .hbm, ⟨60, _⟩ => ⟨S8192, .f32⟩
  | .hbm, ⟨61, _⟩ => ⟨S8192, .f32⟩
  | .hbm, ⟨62, _⟩ => ⟨S8192, .f32⟩
  | .hbm, ⟨63, _⟩ => ⟨S8192, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_3 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_4 : Ref sig .tc := ⟨.hbm, 37, rfl⟩
abbrev main_v29 : Ref sig .tc := ⟨.hbm, 38, rfl⟩
abbrev main_cst_5 : Ref sig .tc := ⟨.hbm, 39, rfl⟩
abbrev main_v30 : Ref sig .tc := ⟨.hbm, 40, rfl⟩
abbrev main_cst_6 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_7 : Ref sig .tc := ⟨.hbm, 46, rfl⟩
abbrev main_v35 : Ref sig .tc := ⟨.hbm, 47, rfl⟩
abbrev main_cst_8 : Ref sig .tc := ⟨.hbm, 48, rfl⟩
abbrev main_v36 : Ref sig .tc := ⟨.hbm, 49, rfl⟩
abbrev main_cst_9 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_10 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_11 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_12 : Ref sig .tc := ⟨.hbm, 64, rfl⟩
abbrev main_v48 : Ref sig .tc := ⟨.hbm, 65, rfl⟩
abbrev main_cst_13 : Ref sig .tc := ⟨.hbm, 66, rfl⟩
abbrev main_v49 : Ref sig .tc := ⟨.hbm, 67, rfl⟩

abbrev nD : Nat := 1
abbrev τ : Topo := Topo.v7x

variable {F : FTy → Type} [FloatOps F]

class Facts₀ : Prop where
  reducesTo_S8192x512_S8192_d1 : S8192x512.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x512_0_1 : S8192x1.BroadcastsInDim S8192x512 (![0, 1] : Fin 2 → Fin S8192x512.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  transposes_S8192x8192_S8192x8192_1_0 : S8192x8192.Transposes [1, 0] S8192x8192
  reducesTo_S8192x8192_S8192_d1 : S8192x8192.ReducesTo [1] S8192
  bcast_S_S8192 : S_.BroadcastsInDim S8192 (![] : Fin 0 → Fin S8192.rank)
  reducesTo_S8192_S_d0 : S8192.ReducesTo [0] S_
  dot_S8192x512_S8192x512_S8192x8192_1_1_0_0_n_n_wf : DotDims.WF S8192x512 S8192x512 S8192x8192 [1] [1] [0] [0] [] []

variable [Facts₀]

def dot_S8192x512_S8192x512_S8192x8192_1_1_0_0_n_n : DotDims S8192x512 S8192x512 S8192x8192 where
  lhsContracting := [1]
  rhsContracting := [1]
  lhsNonContracting := [0]
  rhsNonContracting := [0]
  lhsBatch := []
  rhsBatch := []
  wf := dot_S8192x512_S8192x512_S8192x8192_1_1_0_0_n_n_wf

class Facts : Prop extends Facts₀ where

variable [Facts]
-- ==== Proof.K.R0.lean ====
/-
  The first kernel region (the row normalisation, eight grid points of 1024 rows) at any buffer contents `V` found
  on entry: each input window's block at a point, what the body leaves in the two output windows' buffers — its one
  whole-block store into each, a function of the matching input block alone —, the body's triple, the pipeline's
  proof data with those contents, and the body obligation at every point.
-/
import proofs.«166571_j42013370090174_1_alg».proof.Proof.Gen.Kernel.Launch
import proofs.«166571_j42013370090174_1_alg».proof.Proof.Gen.Kernel.Skeleton
import proofs.«166571_j42013370090174_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, for any proof data whose array is the
    entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole 1024×512 block as a rectangle: the body's every access. -/
abbrev r0_0 : Rect S1024x512 := Rect.unit (s := S1024x512) ![0, 0] S1024x512.size inb_S1024x512_S1024x512_0_0

/-- The first output window's buffer after the body: the normalised audio block, one piece. -/
def out0_2 (x0 : Vec F S1024x512 .f32) : Vec F S1024x512 .bf16 :=
  View.canon [⟨r0_0, k0_pay1 (View.ld x0 r0_0)⟩]
/-- The second output window's buffer after the body: the normalised label block, one piece. -/
def out0_3 (x1 : Vec F S1024x512 .f32) : Vec F S1024x512 .bf16 :=
  View.canon [⟨r0_0, k0_pay2 (View.ld x1 r0_0)⟩]

/-- The one whole-block piece covers the buffer. -/
theorem cover0_o (p0 : Vec F S1024x512 .bf16) (y : S1024x512.Idx) :
    ∃ pc ∈ ([⟨r0_0, p0⟩] : List (View.Piece (Elt F) S1024x512 .bf16)), y ∈ pc.1.set :=
  View.cover_of_tiled [⟨r0_0, p0⟩] S1024x512.size (by rfl) y

set_option maxHeartbeats 1000000 in
/-- The body on whole staging memrefs, the inputs' at contents `x0`, `x1` and the outputs' at anything, runs to the
    continuation holding the inputs' as they were and each output's at its one piece. -/
theorem sound_kernel0 (c : Dev nD) (E : Set ℕ) (i : grid0.Coords) (arg1 : Memref sig .tc .vmem S1024x512 .f32) (harg1 : arg1.IsWhole) (arg2 : Memref sig .tc .vmem S1024x512 .f32) (harg2 : arg2.IsWhole)
    (arg3 : Memref sig .tc .vmem S1024x512 .bf16) (harg3 : arg3.IsWhole) (arg4 : Memref sig .tc .vmem S1024x512 .bf16) (harg4 : arg4.IsWhole)
    (x0 x1 : Vec F S1024x512 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1
            ∗ owns (c : Thread nD τ) arg3 fullShare (out0_2 x0) ∗ owns (c : Thread nD τ) arg4 fullShare (out0_3 x1)) -∗ K ⟨⟩))
      ⊢ wp frame (wpE (defs₀ (F := F)) Variants.none c none) E (cc0__normalize_kernel i arg1 harg1 arg2 harg2 arg3 harg3 arg4 harg4) K := by
  simp only [cc0__normalize_kernel_eq_skeleton]; unfold cc0__normalize_kernel_skel
  unfold owns
  iintro ⟨⟨%f0, %hf0, H0⟩, ⟨%f1, %hf1, H1⟩, ⟨%d2, %f2, -, H2⟩, ⟨%d3, %f3, -, H3⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover0_o _)
  iexists _; isplitr
  swap; · iexact H3
  ipureintro
  exact View.read_writes_eq_canon _ _ _ (cover0_o _)

/-- The proof data of pipeline 0 on core `c`: the arrays as found; after the body each input's buffer at its block and
    each output's at its piece of the matching input block; the class's invariant (scoped rest, generator register);
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t)
    | ⟨3, _⟩ => out0_3 (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) := by dsimp only [dat0]
theorem after0_3 (c : Dev nD) (t : Fin cfg0.N) : (dat0 V c).after 3 t = out0_3 (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the triple applies; the invariant and the core's
    dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Gen

end
-- ==== Proof.K.Base1.lean ====
/-
  What the second kernel region's (the pairwise tiles', a 16×16 grid) case runs are stated over: its three branch
  conditions in closed form over the grid (first point; first tile of a row of tiles; last point), where its last two
  output windows are idle (every point but the last), the staging and scratch memrefs by name, and the class's
  invariant with the four scratch buffers listed.
-/
import proofs.«166571_j42013370090174_1_alg».proof.Proof.Gen.Kernel.Launch
import proofs.«166571_j42013370090174_1_alg».proof.Proof.Gen.Kernel.Skeleton
import proofs.«166571_j42013370090174_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's first branch (reset of the column accumulators): both grid coordinates zero. -/
abbrev cond1_0 (i : grid1.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
theorem hcond1_0 : ∀ t : Fin cfg1.N, cond1_0 (grid1.coords t) ↔ t.val % 256 = 0 :=
  (by decide +kernel : ∀ t : Fin grid1.N, cond1_0 (grid1.coords t) ↔ t.val % 256 = 0)
/-- The second branch (reset of the row accumulators): the column coordinate zero. -/
abbrev cond1_1 (i : grid1.Coords) : Prop := (Scalar.cmpi .ne (Scalar.extui (Scalar.cmpi .eq (BitVec.ofNat 32 (i 1).val) 0#32)) 0#32) = 1#1
theorem hcond1_1 : ∀ t : Fin cfg1.N, cond1_1 (grid1.coords t) ↔ t.val % 16 = 0 :=
  (by decide +kernel : ∀ t : Fin grid1.N, cond1_1 (grid1.coords t) ↔ t.val % 16 = 0)
/-- The third branch (the column accumulators copied out): both coordinates at their last value. -/
abbrev cond1_2 (i : grid1.Coords) : Prop := k1_cond3 i = 1#1
theorem hcond1_2 : ∀ t : Fin cfg1.N, cond1_2 (grid1.coords t) ↔ t.val % 256 = 255 :=
  (by decide +kernel : ∀ t : Fin grid1.N, cond1_2 (grid1.coords t) ↔ t.val % 256 = 255)

/-- The inputs and the two row outputs are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
/-- The two column outputs are idle, and not written back, at every point but the last; live there. -/
theorem idleAt1_6 : ∀ t : Fin cfg1.N, ¬cond1_2 (grid1.coords t) → cfg1.idle 6 (grid1.coords t) = true := by decide +kernel
theorem noFlush1_6 : ∀ t : Fin cfg1.N, ¬cond1_2 (grid1.coords t) → (cfg1.win 6).flush t = false := by decide +kernel
theorem liveAt1_6 : ∀ t : Fin cfg1.N, cond1_2 (grid1.coords t) → cfg1.idle 6 (grid1.coords t) = false := by decide +kernel
theorem idleAt1_7 : ∀ t : Fin cfg1.N, ¬cond1_2 (grid1.coords t) → cfg1.idle 7 (grid1.coords t) = true := by decide +kernel
theorem noFlush1_7 : ∀ t : Fin cfg1.N, ¬cond1_2 (grid1.coords t) → (cfg1.win 7).flush t = false := by decide +kernel
theorem liveAt1_7 : ∀ t : Fin cfg1.N, cond1_2 (grid1.coords t) → cfg1.idle 7 (grid1.coords t) = false := by decide +kernel

/-- Each window's current staging memref at point `t`, spelled as the pipeline passes it, and its wholeness. -/
abbrev ms1_0 (t : Fin cfg1.N) : Memref sig .tc .vmem S512x512 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x1 .i32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512 .i32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S512x1 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S512x1 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x8192 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1x8192 .f32 := win1_7.stage (cfg1.slots t 7)
abbrev hs1_7 (t : Fin cfg1.N) : (ms1_7 t).IsWhole := hstage1_7 ((cfg1.slots t 7).cast nbuf1_7)
/-- The four scratch operands: whole scoped buffers of the kernel's own (row sums, masked row sums, column sums,
    masked column sums). -/
abbrev scM1_0 : Memref sig .tc .vmem S512x1 .f32 := Memref.whole cc1_scratch0
abbrev scM1_1 : Memref sig .tc .vmem S512x1 .f32 := Memref.whole cc1_scratch1
abbrev scM1_2 : Memref sig .tc .vmem S1x8192 .f32 := Memref.whole cc1_scratch2
abbrev scM1_3 : Memref sig .tc .vmem S1x8192 .f32 := Memref.whole cc1_scratch3

/-- The region's scoped rest with the four scratch buffers as memrefs owned at some contents, the other scoped
    buffers (the first region's staging buffers) kept as one rest `restS1`. -/
def restS1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f))

theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f)
          ∗ (∃ d, owns (c : Thread nD τ) scM1_0 fullShare d) ∗ (∃ d, owns (c : Thread nD τ) scM1_1 fullShare d)
          ∗ (∃ d, owns (c : Thread nD τ) scM1_2 fullShare d) ∗ (∃ d, owns (c : Thread nD τ) scM1_3 fullShare d)) ∗ (∃ r, prngReg c r)) := by
  unfold Pipeline.ΦA; rw [scopedRest1_eq]; simp only [scM1_0, scM1_1, scM1_2, scM1_3, owns_whole]; try rfl

end Cert.Kernel.Gen

end
-- ==== Proof.K.Run1A.lean ====
/-
  The pairwise kernel's body run whole at the grid's first point: every accumulator reset.  On whole staging memrefs — the four inputs' at their
  contents, the two row outputs' at anything, the two column outputs' at contents handed back untouched, the four accumulators at anything — it
  runs to the continuation holding the inputs' as they were and every buffer it stored into with its stores written,
  as pieces (last first); the pieces are the witness the run finds.
-/
import proofs.«166571_j42013370090174_1_alg».proof.Proof.K.Base1

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_A (c : Dev nD) (i : grid1.Coords) (arg2 : Memref sig .tc .vmem S512x512 .bf16) (harg2 : arg2.IsWhole) (arg3 : Memref sig .tc .vmem S512x512 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S1x8192 .f32) (harg8 : arg8.IsWhole) (arg9 : Memref sig .tc .vmem S1x8192 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S1x8192 .f32) (harg12 : arg12.IsWhole) (arg13 : Memref sig .tc .vmem S1x8192 .f32) (harg13 : arg13.IsWhole) (hc0 : cond1_0 i) (hc1 : cond1_1 i) (hc2 : ¬cond1_2 i)
    (x0 x1 : Vec F S512x512 .bf16) (x2 : Vec F S512x1 .i32) (x3 : Vec F S1x512 .i32) :
    Σ' (L4 : List (View.Piece (Elt F) S512x1 .f32)) (L5 : List (View.Piece (Elt F) S512x1 .f32)) (LS0 : List (View.Piece (Elt F) S512x1 .f32)) (LS1 : List (View.Piece (Elt F) S512x1 .f32)) (LS2 : List (View.Piece (Elt F) S1x8192 .f32)), { LS3 : List (View.Piece (Elt F) S1x8192 .f32) //
      ∀ (xi6 xi7 : Vec F S1x8192 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ (∃ d, owns (c : Thread nD τ) arg7 fullShare d) ∗ owns (c : Thread nD τ) arg8 fullShare xi6 ∗ owns (c : Thread nD τ) arg9 fullShare xi7
            ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ owns (c : Thread nD τ) arg8 fullShare xi6 ∗ owns (c : Thread nD τ) arg9 fullShare xi7
                ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LS2) ∗ (∃ f, arg13.view.loc (c : Thread nD τ) ↦[arg13.view.set]{fullShare} arg13.view.writes (Elt F) f LS3)) -∗ K ⟨⟩))
          ⊢ wp frame (wpE (defs₀ (F := F)) Variants.none c none) E (cc1__pairwise_kernel i arg2 harg2 arg3 harg3 arg4 harg4 arg5 harg5 arg6 harg6 arg7 harg7 arg8 harg8 arg9 harg9 arg10 harg10 arg11 harg11 arg12 harg12 arg13 harg13) K } := by
  refine ⟨?_, ?_, ?_, ?_, ?_, ?_, fun xi6 xi7 E K => ?run⟩
  case run =>
    simp only [cc1__pairwise_kernel_eq_skeleton]; unfold cc1__pairwise_kernel_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%f6, %hf6, H6⟩, ⟨%f7, %hf7, H7⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg8.eq_unread hf6; obtain rfl := harg9.eq_unread hf7
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [H6]
    · iexists _; isplitr; · ipureintro; exact harg8.read_unread _
      iexact H6
    isplitl [H7]
    · iexists _; isplitr; · ipureintro; exact harg9.read_unread _
      iexact H7
    isplitl [HS0]; · iexists _; iexact HS0
    isplitl [HS1]; · iexists _; iexact HS1
    isplitl [HS2]; · iexists _; iexact HS2
    iexists _; iexact HS3

end Cert.Kernel.Gen

end
-- ==== Proof.K.Run1B.lean ====
/-
  The pairwise kernel's body run whole at the first tile of a later row of tiles: the row accumulators reset.  On whole staging memrefs — the four inputs' at their
  contents, the two row outputs' at anything, the two column outputs' at contents handed back untouched, the four accumulators at the contents the point before left — it
  runs to the continuation holding the inputs' as they were and every buffer it stored into with its stores written,
  as pieces (last first) over the accumulators' given contents; the pieces are the witness the run finds.
-/
import proofs.«166571_j42013370090174_1_alg».proof.Proof.K.Run1A

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_B (c : Dev nD) (i : grid1.Coords) (arg2 : Memref sig .tc .vmem S512x512 .bf16) (harg2 : arg2.IsWhole) (arg3 : Memref sig .tc .vmem S512x512 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S1x8192 .f32) (harg8 : arg8.IsWhole) (arg9 : Memref sig .tc .vmem S1x8192 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S1x8192 .f32) (harg12 : arg12.IsWhole) (arg13 : Memref sig .tc .vmem S1x8192 .f32) (harg13 : arg13.IsWhole) (hc0 : ¬cond1_0 i) (hc1 : cond1_1 i) (hc2 : ¬cond1_2 i)
    (x0 x1 : Vec F S512x512 .bf16) (x2 : Vec F S512x1 .i32) (x3 : Vec F S1x512 .i32) (xs0 xs1 : Vec F S512x1 .f32) (xs2 xs3 : Vec F S1x8192 .f32) :
    Σ' (L4 : List (View.Piece (Elt F) S512x1 .f32)) (L5 : List (View.Piece (Elt F) S512x1 .f32)) (LS0 : List (View.Piece (Elt F) S512x1 .f32)) (LS1 : List (View.Piece (Elt F) S512x1 .f32)) (LS2 : List (View.Piece (Elt F) S1x8192 .f32)), { LS3 : List (View.Piece (Elt F) S1x8192 .f32) //
      ∀ (xi6 xi7 : Vec F S1x8192 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ (∃ d, owns (c : Thread nD τ) arg7 fullShare d) ∗ owns (c : Thread nD τ) arg8 fullShare xi6 ∗ owns (c : Thread nD τ) arg9 fullShare xi7
            ∗ owns (c : Thread nD τ) arg10 fullShare xs0 ∗ owns (c : Thread nD τ) arg11 fullShare xs1 ∗ owns (c : Thread nD τ) arg12 fullShare xs2 ∗ owns (c : Thread nD τ) arg13 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ owns (c : Thread nD τ) arg8 fullShare xi6 ∗ owns (c : Thread nD τ) arg9 fullShare xi7
                ∗ (arg10.view.loc (c : Thread nD τ) ↦[arg10.view.set]{fullShare} arg10.view.writes (Elt F) (harg10.unread xs0) LS0) ∗ (arg11.view.loc (c : Thread nD τ) ↦[arg11.view.set]{fullShare} arg11.view.writes (Elt F) (harg11.unread xs1) LS1) ∗ (arg12.view.loc (c : Thread nD τ) ↦[arg12.view.set]{fullShare} arg12.view.writes (Elt F) (harg12.unread xs2) LS2) ∗ (arg13.view.loc (c : Thread nD τ) ↦[arg13.view.set]{fullShare} arg13.view.writes (Elt F) (harg13.unread xs3) LS3)) -∗ K ⟨⟩))
          ⊢ wp frame (wpE (defs₀ (F := F)) Variants.none c none) E (cc1__pairwise_kernel i arg2 harg2 arg3 harg3 arg4 harg4 arg5 harg5 arg6 harg6 arg7 harg7 arg8 harg8 arg9 harg9 arg10 harg10 arg11 harg11 arg12 harg12 arg13 harg13) K } := by
  refine ⟨?_, ?_, ?_, ?_, ?_, ?_, fun xi6 xi7 E K => ?run⟩
  case run =>
    simp only [cc1__pairwise_kernel_eq_skeleton]; unfold cc1__pairwise_kernel_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%f6, %hf6, H6⟩, ⟨%f7, %hf7, H7⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg8.eq_unread hf6; obtain rfl := harg9.eq_unread hf7; obtain rfl := harg10.eq_unread hfs0; obtain rfl := harg11.eq_unread hfs1; obtain rfl := harg12.eq_unread hfs2; obtain rfl := harg13.eq_unread hfs3
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [H6]
    · iexists _; isplitr; · ipureintro; exact harg8.read_unread _
      iexact H6
    isplitl [H7]
    · iexists _; isplitr; · ipureintro; exact harg9.read_unread _
      iexact H7
    isplitl [HS0]; · iexact HS0
    isplitl [HS1]; · iexact HS1
    isplitl [HS2]; · iexact HS2
    iexact HS3

end Cert.Kernel.Gen

end
-- ==== Proof.K.Run1C.lean ====
/-
  The pairwise kernel's body run whole at a tile that is neither first in its row nor the last: nothing reset, nothing copied out.  On whole staging memrefs — the four inputs' at their
  contents, the two row outputs' at anything, the two column outputs' at contents handed back untouched, the four accumulators at the contents the point before left — it
  runs to the continuation holding the inputs' as they were and every buffer it stored into with its stores written,
  as pieces (last first) over the accumulators' given contents; the pieces are the witness the run finds.
-/
import proofs.«166571_j42013370090174_1_alg».proof.Proof.K.Run1B

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_C (c : Dev nD) (i : grid1.Coords) (arg2 : Memref sig .tc .vmem S512x512 .bf16) (harg2 : arg2.IsWhole) (arg3 : Memref sig .tc .vmem S512x512 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S1x8192 .f32) (harg8 : arg8.IsWhole) (arg9 : Memref sig .tc .vmem S1x8192 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S1x8192 .f32) (harg12 : arg12.IsWhole) (arg13 : Memref sig .tc .vmem S1x8192 .f32) (harg13 : arg13.IsWhole) (hc0 : ¬cond1_0 i) (hc1 : ¬cond1_1 i) (hc2 : ¬cond1_2 i)
    (x0 x1 : Vec F S512x512 .bf16) (x2 : Vec F S512x1 .i32) (x3 : Vec F S1x512 .i32) (xs0 xs1 : Vec F S512x1 .f32) (xs2 xs3 : Vec F S1x8192 .f32) :
    Σ' (L4 : List (View.Piece (Elt F) S512x1 .f32)) (L5 : List (View.Piece (Elt F) S512x1 .f32)) (LS0 : List (View.Piece (Elt F) S512x1 .f32)) (LS1 : List (View.Piece (Elt F) S512x1 .f32)) (LS2 : List (View.Piece (Elt F) S1x8192 .f32)), { LS3 : List (View.Piece (Elt F) S1x8192 .f32) //
      ∀ (xi6 xi7 : Vec F S1x8192 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ (∃ d, owns (c : Thread nD τ) arg7 fullShare d) ∗ owns (c : Thread nD τ) arg8 fullShare xi6 ∗ owns (c : Thread nD τ) arg9 fullShare xi7
            ∗ owns (c : Thread nD τ) arg10 fullShare xs0 ∗ owns (c : Thread nD τ) arg11 fullShare xs1 ∗ owns (c : Thread nD τ) arg12 fullShare xs2 ∗ owns (c : Thread nD τ) arg13 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ owns (c : Thread nD τ) arg8 fullShare xi6 ∗ owns (c : Thread nD τ) arg9 fullShare xi7
                ∗ (arg10.view.loc (c : Thread nD τ) ↦[arg10.view.set]{fullShare} arg10.view.writes (Elt F) (harg10.unread xs0) LS0) ∗ (arg11.view.loc (c : Thread nD τ) ↦[arg11.view.set]{fullShare} arg11.view.writes (Elt F) (harg11.unread xs1) LS1) ∗ (arg12.view.loc (c : Thread nD τ) ↦[arg12.view.set]{fullShare} arg12.view.writes (Elt F) (harg12.unread xs2) LS2) ∗ (arg13.view.loc (c : Thread nD τ) ↦[arg13.view.set]{fullShare} arg13.view.writes (Elt F) (harg13.unread xs3) LS3)) -∗ K ⟨⟩))
          ⊢ wp frame (wpE (defs₀ (F := F)) Variants.none c none) E (cc1__pairwise_kernel i arg2 harg2 arg3 harg3 arg4 harg4 arg5 harg5 arg6 harg6 arg7 harg7 arg8 harg8 arg9 harg9 arg10 harg10 arg11 harg11 arg12 harg12 arg13 harg13) K } := by
  refine ⟨?_, ?_, ?_, ?_, ?_, ?_, fun xi6 xi7 E K => ?run⟩
  case run =>
    simp only [cc1__pairwise_kernel_eq_skeleton]; unfold cc1__pairwise_kernel_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%f6, %hf6, H6⟩, ⟨%f7, %hf7, H7⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg8.eq_unread hf6; obtain rfl := harg9.eq_unread hf7; obtain rfl := harg10.eq_unread hfs0; obtain rfl := harg11.eq_unread hfs1; obtain rfl := harg12.eq_unread hfs2; obtain rfl := harg13.eq_unread hfs3
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [H6]
    · iexists _; isplitr; · ipureintro; exact harg8.read_unread _
      iexact H6
    isplitl [H7]
    · iexists _; isplitr; · ipureintro; exact harg9.read_unread _
      iexact H7
    isplitl [HS0]; · iexact HS0
    isplitl [HS1]; · iexact HS1
    isplitl [HS2]; · iexact HS2
    iexact HS3

end Cert.Kernel.Gen

end
-- ==== Proof.K.Run1D.lean ====
/-
  The pairwise kernel's body run whole at the last point: the column accumulators copied out.  On whole staging memrefs — the four inputs' at their
  contents, the two row outputs' at anything, the two column outputs' at anything, the four accumulators at the contents the point before left — it
  runs to the continuation holding the inputs' as they were and every buffer it stored into with its stores written,
  as pieces (last first) over the accumulators' given contents; the pieces are the witness the run finds.
-/
import proofs.«166571_j42013370090174_1_alg».proof.Proof.K.Run1C

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_D (c : Dev nD) (i : grid1.Coords) (arg2 : Memref sig .tc .vmem S512x512 .bf16) (harg2 : arg2.IsWhole) (arg3 : Memref sig .tc .vmem S512x512 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S1x8192 .f32) (harg8 : arg8.IsWhole) (arg9 : Memref sig .tc .vmem S1x8192 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S1x8192 .f32) (harg12 : arg12.IsWhole) (arg13 : Memref sig .tc .vmem S1x8192 .f32) (harg13 : arg13.IsWhole) (hc0 : ¬cond1_0 i) (hc1 : ¬cond1_1 i) (hc2 : cond1_2 i)
    (x0 x1 : Vec F S512x512 .bf16) (x2 : Vec F S512x1 .i32) (x3 : Vec F S1x512 .i32) (xs0 xs1 : Vec F S512x1 .f32) (xs2 xs3 : Vec F S1x8192 .f32) :
    Σ' (L4 : List (View.Piece (Elt F) S512x1 .f32)) (L5 : List (View.Piece (Elt F) S512x1 .f32)) (L6 : List (View.Piece (Elt F) S1x8192 .f32)) (L7 : List (View.Piece (Elt F) S1x8192 .f32)) (LS0 : List (View.Piece (Elt F) S512x1 .f32)) (LS1 : List (View.Piece (Elt F) S512x1 .f32)) (LS2 : List (View.Piece (Elt F) S1x8192 .f32)), { LS3 : List (View.Piece (Elt F) S1x8192 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ owns (c : Thread nD τ) arg10 fullShare xs0 ∗ owns (c : Thread nD τ) arg11 fullShare xs1 ∗ owns (c : Thread nD τ) arg12 fullShare xs2 ∗ owns (c : Thread nD τ) arg13 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7)
                ∗ (arg10.view.loc (c : Thread nD τ) ↦[arg10.view.set]{fullShare} arg10.view.writes (Elt F) (harg10.unread xs0) LS0) ∗ (arg11.view.loc (c : Thread nD τ) ↦[arg11.view.set]{fullShare} arg11.view.writes (Elt F) (harg11.unread xs1) LS1) ∗ (arg12.view.loc (c : Thread nD τ) ↦[arg12.view.set]{fullShare} arg12.view.writes (Elt F) (harg12.unread xs2) LS2) ∗ (arg13.view.loc (c : Thread nD τ) ↦[arg13.view.set]{fullShare} arg13.view.writes (Elt F) (harg13.unread xs3) LS3)) -∗ K ⟨⟩))
          ⊢ wp frame (wpE (defs₀ (F := F)) Variants.none c none) E (cc1__pairwise_kernel i arg2 harg2 arg3 harg3 arg4 harg4 arg5 harg5 arg6 harg6 arg7 harg7 arg8 harg8 arg9 harg9 arg10 harg10 arg11 harg11 arg12 harg12 arg13 harg13) K } := by
  refine ⟨?_, ?_, ?_, ?_, ?_, ?_, ?_, ?_, fun E K => ?run⟩
  case run =>
    simp only [cc1__pairwise_kernel_eq_skeleton]; unfold cc1__pairwise_kernel_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg10.eq_unread hfs0; obtain rfl := harg11.eq_unread hfs1; obtain rfl := harg12.eq_unread hfs2; obtain rfl := harg13.eq_unread hfs3
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [H6]; · iexists _; iexact H6
    isplitl [H7]; · iexists _; iexact H7
    isplitl [HS0]; · iexact HS0
    isplitl [HS1]; · iexact HS1
    isplitl [HS2]; · iexact HS2
    iexact HS3

end Cert.Kernel.Gen

end
-- ==== Proof.K.Acc1.lean ====
/-
  The second kernel region (the pairwise tiles) at any buffer contents `V` found on entry: what its four output
  windows' buffers and its four accumulators hold after each grid point, by recursion on the point — the first point
  resets everything, the first tile of each later row of tiles resets the row accumulators, the last point also copies
  the column accumulators out, every other point only adds its tile's sums in —; the region's invariant carrying the
  four accumulators at those contents from point to point; the pipeline's proof data; and the body obligation.
-/
import proofs.«166571_j42013370090174_1_alg».proof.Proof.K.Run1D

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem N_1' : cfg1.N = 256 := N_1

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- One staging buffer of each output window, and each accumulator, as the view its contents are stated through. -/
abbrev VO1_4 : View sig .tc .vmem S512x1 .f32 := (Memref.whole cc1_stg4_0 : Memref sig .tc .vmem S512x1 .f32).view
abbrev VO1_5 : View sig .tc .vmem S512x1 .f32 := (Memref.whole cc1_stg5_0 : Memref sig .tc .vmem S512x1 .f32).view
abbrev VO1_6 : View sig .tc .vmem S1x8192 .f32 := (Memref.whole cc1_stg6_0 : Memref sig .tc .vmem S1x8192 .f32).view
abbrev VO1_7 : View sig .tc .vmem S1x8192 .f32 := (Memref.whole cc1_stg7_0 : Memref sig .tc .vmem S1x8192 .f32).view
abbrev VS1_0 : View sig .tc .vmem S512x1 .f32 := scM1_0.view
abbrev VS1_1 : View sig .tc .vmem S512x1 .f32 := scM1_1.view
abbrev VS1_2 : View sig .tc .vmem S1x8192 .f32 := scM1_2.view
abbrev VS1_3 : View sig .tc .vmem S1x8192 .f32 := scM1_3.view
abbrev hsc1_0 : scM1_0.IsWhole := Memref.isWhole_whole _
abbrev hsc1_1 : scM1_1.IsWhole := Memref.isWhole_whole _
abbrev hsc1_2 : scM1_2.IsWhole := Memref.isWhole_whole _
abbrev hsc1_3 : scM1_3.IsWhole := Memref.isWhole_whole _

/-- What the four output windows' buffers (row sums, masked row sums, column sums, masked column sums) and the four
    accumulators hold after a point. -/
structure St1 (F : FTy → Type) where
  o4 : Vec F S512x1 .f32
  o5 : Vec F S512x1 .f32
  o6 : Vec F S1x8192 .f32
  o7 : Vec F S1x8192 .f32
  s0 : Vec F S512x1 .f32
  s1 : Vec F S512x1 .f32
  s2 : Vec F S1x8192 .f32
  s3 : Vec F S1x8192 .f32

/-- The body's run at point `t` in case A, at the point's memrefs and input blocks. -/
abbrev rA (c : Dev nD) (t : Fin cfg1.N) (h0 : cond1_0 (grid1.coords t)) (h1 : cond1_1 (grid1.coords t)) (h2 : ¬cond1_2 (grid1.coords t)) :=
  kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 hsc1_0 scM1_1 hsc1_1 scM1_2 hsc1_2 scM1_3 hsc1_3 h0 h1 h2 (iblk1 V c 0 t) (iblk1 V c 1 t) (iblk1 V c 2 t) (iblk1 V c 3 t)
/-- The body's run at point `t` in case B, at the point's memrefs and input blocks over the accumulators' previous contents. -/
abbrev rB (c : Dev nD) (t : Fin cfg1.N) (h0 : ¬cond1_0 (grid1.coords t)) (h1 : cond1_1 (grid1.coords t)) (h2 : ¬cond1_2 (grid1.coords t)) (p : St1 F) :=
  kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 hsc1_0 scM1_1 hsc1_1 scM1_2 hsc1_2 scM1_3 hsc1_3 h0 h1 h2 (iblk1 V c 0 t) (iblk1 V c 1 t) (iblk1 V c 2 t) (iblk1 V c 3 t) p.s0 p.s1 p.s2 p.s3
/-- The body's run at point `t` in case C, at the point's memrefs and input blocks over the accumulators' previous contents. -/
abbrev rC (c : Dev nD) (t : Fin cfg1.N) (h0 : ¬cond1_0 (grid1.coords t)) (h1 : ¬cond1_1 (grid1.coords t)) (h2 : ¬cond1_2 (grid1.coords t)) (p : St1 F) :=
  kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 hsc1_0 scM1_1 hsc1_1 scM1_2 hsc1_2 scM1_3 hsc1_3 h0 h1 h2 (iblk1 V c 0 t) (iblk1 V c 1 t) (iblk1 V c 2 t) (iblk1 V c 3 t) p.s0 p.s1 p.s2 p.s3
/-- The body's run at point `t` in case D, at the point's memrefs and input blocks over the accumulators' previous contents. -/
abbrev rD (c : Dev nD) (t : Fin cfg1.N) (h0 : ¬cond1_0 (grid1.coords t)) (h1 : ¬cond1_1 (grid1.coords t)) (h2 : cond1_2 (grid1.coords t)) (p : St1 F) :=
  kernelRun1_D c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 hsc1_0 scM1_1 hsc1_1 scM1_2 hsc1_2 scM1_3 hsc1_3 h0 h1 h2 (iblk1 V c 0 t) (iblk1 V c 1 t) (iblk1 V c 2 t) (iblk1 V c 3 t) p.s0 p.s1 p.s2 p.s3

/-- What case A leaves at point `t`: each buffer's pieces read back. -/
def stA (c : Dev nD) (t : Fin cfg1.N) (h0 : cond1_0 (grid1.coords t)) (h1 : cond1_1 (grid1.coords t)) (h2 : ¬cond1_2 (grid1.coords t)) : St1 F where
  o4 := VO1_4.read (Elt F) (VO1_4.writes (Elt F) VO1_4.junk (rA V c t h0 h1 h2).1)
  o5 := VO1_5.read (Elt F) (VO1_5.writes (Elt F) VO1_5.junk (rA V c t h0 h1 h2).2.1)
  o6 := View.canon []
  o7 := View.canon []
  s0 := VS1_0.read (Elt F) (VS1_0.writes (Elt F) VS1_0.junk (rA V c t h0 h1 h2).2.2.1)
  s1 := VS1_1.read (Elt F) (VS1_1.writes (Elt F) VS1_1.junk (rA V c t h0 h1 h2).2.2.2.1)
  s2 := VS1_2.read (Elt F) (VS1_2.writes (Elt F) VS1_2.junk (rA V c t h0 h1 h2).2.2.2.2.1)
  s3 := VS1_3.read (Elt F) (VS1_3.writes (Elt F) VS1_3.junk (rA V c t h0 h1 h2).2.2.2.2.2.1)

/-- What case B leaves at point `t`: each buffer's pieces read back. -/
def stB (c : Dev nD) (t : Fin cfg1.N) (h0 : ¬cond1_0 (grid1.coords t)) (h1 : cond1_1 (grid1.coords t)) (h2 : ¬cond1_2 (grid1.coords t)) (p : St1 F) : St1 F where
  o4 := VO1_4.read (Elt F) (VO1_4.writes (Elt F) VO1_4.junk (rB V c t h0 h1 h2 p).1)
  o5 := VO1_5.read (Elt F) (VO1_5.writes (Elt F) VO1_5.junk (rB V c t h0 h1 h2 p).2.1)
  o6 := View.canon []
  o7 := View.canon []
  s0 := VS1_0.read (Elt F) (VS1_0.writes (Elt F) (hsc1_0.unread p.s0) (rB V c t h0 h1 h2 p).2.2.1)
  s1 := VS1_1.read (Elt F) (VS1_1.writes (Elt F) (hsc1_1.unread p.s1) (rB V c t h0 h1 h2 p).2.2.2.1)
  s2 := VS1_2.read (Elt F) (VS1_2.writes (Elt F) (hsc1_2.unread p.s2) (rB V c t h0 h1 h2 p).2.2.2.2.1)
  s3 := VS1_3.read (Elt F) (VS1_3.writes (Elt F) (hsc1_3.unread p.s3) (rB V c t h0 h1 h2 p).2.2.2.2.2.1)

/-- What case C leaves at point `t`: each buffer's pieces read back. -/
def stC (c : Dev nD) (t : Fin cfg1.N) (h0 : ¬cond1_0 (grid1.coords t)) (h1 : ¬cond1_1 (grid1.coords t)) (h2 : ¬cond1_2 (grid1.coords t)) (p : St1 F) : St1 F where
  o4 := VO1_4.read (Elt F) (VO1_4.writes (Elt F) VO1_4.junk (rC V c t h0 h1 h2 p).1)
  o5 := VO1_5.read (Elt F) (VO1_5.writes (Elt F) VO1_5.junk (rC V c t h0 h1 h2 p).2.1)
  o6 := View.canon []
  o7 := View.canon []
  s0 := VS1_0.read (Elt F) (VS1_0.writes (Elt F) (hsc1_0.unread p.s0) (rC V c t h0 h1 h2 p).2.2.1)
  s1 := VS1_1.read (Elt F) (VS1_1.writes (Elt F) (hsc1_1.unread p.s1) (rC V c t h0 h1 h2 p).2.2.2.1)
  s2 := VS1_2.read (Elt F) (VS1_2.writes (Elt F) (hsc1_2.unread p.s2) (rC V c t h0 h1 h2 p).2.2.2.2.1)
  s3 := VS1_3.read (Elt F) (VS1_3.writes (Elt F) (hsc1_3.unread p.s3) (rC V c t h0 h1 h2 p).2.2.2.2.2.1)

/-- What case D leaves at point `t`: each buffer's pieces read back. -/
def stD (c : Dev nD) (t : Fin cfg1.N) (h0 : ¬cond1_0 (grid1.coords t)) (h1 : ¬cond1_1 (grid1.coords t)) (h2 : cond1_2 (grid1.coords t)) (p : St1 F) : St1 F where
  o4 := VO1_4.read (Elt F) (VO1_4.writes (Elt F) VO1_4.junk (rD V c t h0 h1 h2 p).1)
  o5 := VO1_5.read (Elt F) (VO1_5.writes (Elt F) VO1_5.junk (rD V c t h0 h1 h2 p).2.1)
  o6 := VO1_6.read (Elt F) (VO1_6.writes (Elt F) VO1_6.junk (rD V c t h0 h1 h2 p).2.2.1)
  o7 := VO1_7.read (Elt F) (VO1_7.writes (Elt F) VO1_7.junk (rD V c t h0 h1 h2 p).2.2.2.1)
  s0 := VS1_0.read (Elt F) (VS1_0.writes (Elt F) (hsc1_0.unread p.s0) (rD V c t h0 h1 h2 p).2.2.2.2.1)
  s1 := VS1_1.read (Elt F) (VS1_1.writes (Elt F) (hsc1_1.unread p.s1) (rD V c t h0 h1 h2 p).2.2.2.2.2.1)
  s2 := VS1_2.read (Elt F) (VS1_2.writes (Elt F) (hsc1_2.unread p.s2) (rD V c t h0 h1 h2 p).2.2.2.2.2.2.1)
  s3 := VS1_3.read (Elt F) (VS1_3.writes (Elt F) (hsc1_3.unread p.s3) (rD V c t h0 h1 h2 p).2.2.2.2.2.2.2.1)

theorem cover1_A_4 (c : Dev nD) (t : Fin cfg1.N) (h0 : cond1_0 (grid1.coords t)) (h1 : cond1_1 (grid1.coords t)) (h2 : ¬cond1_2 (grid1.coords t)) (y : S512x1.Idx) : ∃ pc ∈ (rA V c t h0 h1 h2).1, y ∈ pc.1.set :=
  View.cover_of_tiledL (rA V c t h0 h1 h2).1 S512x1.size (by sl_kernel_rfl) y
theorem cover1_A_5 (c : Dev nD) (t : Fin cfg1.N) (h0 : cond1_0 (grid1.coords t)) (h1 : cond1_1 (grid1.coords t)) (h2 : ¬cond1_2 (grid1.coords t)) (y : S512x1.Idx) : ∃ pc ∈ (rA V c t h0 h1 h2).2.1, y ∈ pc.1.set :=
  View.cover_of_tiledL (rA V c t h0 h1 h2).2.1 S512x1.size (by sl_kernel_rfl) y
theorem scover1_A_0 (c : Dev nD) (t : Fin cfg1.N) (h0 : cond1_0 (grid1.coords t)) (h1 : cond1_1 (grid1.coords t)) (h2 : ¬cond1_2 (grid1.coords t)) (y : S512x1.Idx) : ∃ pc ∈ (rA V c t h0 h1 h2).2.2.1, y ∈ pc.1.set :=
  View.cover_of_tiledL (rA V c t h0 h1 h2).2.2.1 S512x1.size (by sl_kernel_rfl) y
theorem scover1_A_1 (c : Dev nD) (t : Fin cfg1.N) (h0 : cond1_0 (grid1.coords t)) (h1 : cond1_1 (grid1.coords t)) (h2 : ¬cond1_2 (grid1.coords t)) (y : S512x1.Idx) : ∃ pc ∈ (rA V c t h0 h1 h2).2.2.2.1, y ∈ pc.1.set :=
  View.cover_of_tiledL (rA V c t h0 h1 h2).2.2.2.1 S512x1.size (by sl_kernel_rfl) y
/-- The column accumulators at the first point: the earlier of the two stores is the whole-buffer reset, which alone covers. -/
theorem scover1_A_2 (c : Dev nD) (t : Fin cfg1.N) (h0 : cond1_0 (grid1.coords t)) (h1 : cond1_1 (grid1.coords t)) (h2 : ¬cond1_2 (grid1.coords t)) (y : S1x8192.Idx) : ∃ pc ∈ (rA V c t h0 h1 h2).2.2.2.2.1, y ∈ pc.1.set := by
  unfold rA kernelRun1_A; dsimp only; sl_unfold_words
  obtain ⟨pc, hm, hy⟩ := View.cover_of_tiled [(⟨Rect.unit (s := S1x8192) ![0, 0] S1x8192.size inb_S1x8192_S1x8192_0_0, k1_pay1 (F := F)⟩ : View.Piece (Elt F) S1x8192 .f32)] S1x8192.size (by rfl) y
  exact ⟨pc, List.mem_cons_of_mem _ hm, hy⟩
theorem scover1_A_3 (c : Dev nD) (t : Fin cfg1.N) (h0 : cond1_0 (grid1.coords t)) (h1 : cond1_1 (grid1.coords t)) (h2 : ¬cond1_2 (grid1.coords t)) (y : S1x8192.Idx) : ∃ pc ∈ (rA V c t h0 h1 h2).2.2.2.2.2.1, y ∈ pc.1.set := by
  unfold rA kernelRun1_A; dsimp only; sl_unfold_words
  obtain ⟨pc, hm, hy⟩ := View.cover_of_tiled [(⟨Rect.unit (s := S1x8192) ![0, 0] S1x8192.size inb_S1x8192_S1x8192_0_0, k1_pay2 (F := F)⟩ : View.Piece (Elt F) S1x8192 .f32)] S1x8192.size (by rfl) y
  exact ⟨pc, List.mem_cons_of_mem _ hm, hy⟩
theorem cover1_B_4 (c : Dev nD) (t : Fin cfg1.N) (h0 : ¬cond1_0 (grid1.coords t)) (h1 : cond1_1 (grid1.coords t)) (h2 : ¬cond1_2 (grid1.coords t)) (p : St1 F) (y : S512x1.Idx) : ∃ pc ∈ (rB V c t h0 h1 h2 p).1, y ∈ pc.1.set :=
  View.cover_of_tiledL (rB V c t h0 h1 h2 p).1 S512x1.size (by sl_kernel_rfl) y
theorem cover1_B_5 (c : Dev nD) (t : Fin cfg1.N) (h0 : ¬cond1_0 (grid1.coords t)) (h1 : cond1_1 (grid1.coords t)) (h2 : ¬cond1_2 (grid1.coords t)) (p : St1 F) (y : S512x1.Idx) : ∃ pc ∈ (rB V c t h0 h1 h2 p).2.1, y ∈ pc.1.set :=
  View.cover_of_tiledL (rB V c t h0 h1 h2 p).2.1 S512x1.size (by sl_kernel_rfl) y
theorem cover1_C_4 (c : Dev nD) (t : Fin cfg1.N) (h0 : ¬cond1_0 (grid1.coords t)) (h1 : ¬cond1_1 (grid1.coords t)) (h2 : ¬cond1_2 (grid1.coords t)) (p : St1 F) (y : S512x1.Idx) : ∃ pc ∈ (rC V c t h0 h1 h2 p).1, y ∈ pc.1.set :=
  View.cover_of_tiledL (rC V c t h0 h1 h2 p).1 S512x1.size (by sl_kernel_rfl) y
theorem cover1_C_5 (c : Dev nD) (t : Fin cfg1.N) (h0 : ¬cond1_0 (grid1.coords t)) (h1 : ¬cond1_1 (grid1.coords t)) (h2 : ¬cond1_2 (grid1.coords t)) (p : St1 F) (y : S512x1.Idx) : ∃ pc ∈ (rC V c t h0 h1 h2 p).2.1, y ∈ pc.1.set :=
  View.cover_of_tiledL (rC V c t h0 h1 h2 p).2.1 S512x1.size (by sl_kernel_rfl) y
theorem cover1_D_4 (c : Dev nD) (t : Fin cfg1.N) (h0 : ¬cond1_0 (grid1.coords t)) (h1 : ¬cond1_1 (grid1.coords t)) (h2 : cond1_2 (grid1.coords t)) (p : St1 F) (y : S512x1.Idx) : ∃ pc ∈ (rD V c t h0 h1 h2 p).1, y ∈ pc.1.set :=
  View.cover_of_tiledL (rD V c t h0 h1 h2 p).1 S512x1.size (by sl_kernel_rfl) y
theorem cover1_D_5 (c : Dev nD) (t : Fin cfg1.N) (h0 : ¬cond1_0 (grid1.coords t)) (h1 : ¬cond1_1 (grid1.coords t)) (h2 : cond1_2 (grid1.coords t)) (p : St1 F) (y : S512x1.Idx) : ∃ pc ∈ (rD V c t h0 h1 h2 p).2.1, y ∈ pc.1.set :=
  View.cover_of_tiledL (rD V c t h0 h1 h2 p).2.1 S512x1.size (by sl_kernel_rfl) y
theorem cover1_D_6 (c : Dev nD) (t : Fin cfg1.N) (h0 : ¬cond1_0 (grid1.coords t)) (h1 : ¬cond1_1 (grid1.coords t)) (h2 : cond1_2 (grid1.coords t)) (p : St1 F) (y : S1x8192.Idx) : ∃ pc ∈ (rD V c t h0 h1 h2 p).2.2.1, y ∈ pc.1.set :=
  View.cover_of_tiledL (rD V c t h0 h1 h2 p).2.2.1 S1x8192.size (by sl_kernel_rfl) y
theorem cover1_D_7 (c : Dev nD) (t : Fin cfg1.N) (h0 : ¬cond1_0 (grid1.coords t)) (h1 : ¬cond1_1 (grid1.coords t)) (h2 : cond1_2 (grid1.coords t)) (p : St1 F) (y : S1x8192.Idx) : ∃ pc ∈ (rD V c t h0 h1 h2 p).2.2.2.1, y ∈ pc.1.set :=
  View.cover_of_tiledL (rD V c t h0 h1 h2 p).2.2.2.1 S1x8192.size (by sl_kernel_rfl) y

/-! ## The branch conditions at a point, from the closed forms -/
theorem cA0 (t : Fin cfg1.N) (hz : t.val % 256 = 0) : cond1_0 (grid1.coords t) := (hcond1_0 t).mpr hz
theorem cA1 (t : Fin cfg1.N) (hz : t.val % 256 = 0) : cond1_1 (grid1.coords t) := (hcond1_1 t).mpr (by omega)
theorem cA2 (t : Fin cfg1.N) (hz : t.val % 256 = 0) : ¬cond1_2 (grid1.coords t) := fun h => by have := (hcond1_2 t).mp h; omega
theorem cB0 (t : Fin cfg1.N) (hz : ¬t.val % 256 = 0) : ¬cond1_0 (grid1.coords t) := fun h => hz ((hcond1_0 t).mp h)
theorem cB1 (t : Fin cfg1.N) (h16 : t.val % 16 = 0) : cond1_1 (grid1.coords t) := (hcond1_1 t).mpr h16
theorem cB2 (t : Fin cfg1.N) (h16 : t.val % 16 = 0) : ¬cond1_2 (grid1.coords t) := fun h => by have := (hcond1_2 t).mp h; omega
theorem cC0 (t : Fin cfg1.N) (h16 : ¬t.val % 16 = 0) : ¬cond1_0 (grid1.coords t) := fun h => by have := (hcond1_0 t).mp h; omega
theorem cC1 (t : Fin cfg1.N) (h16 : ¬t.val % 16 = 0) : ¬cond1_1 (grid1.coords t) := fun h => h16 ((hcond1_1 t).mp h)
theorem cC2 (t : Fin cfg1.N) (hl : ¬t.val % 256 = 255) : ¬cond1_2 (grid1.coords t) := fun h => hl ((hcond1_2 t).mp h)
theorem cD0 (t : Fin cfg1.N) (hl : t.val % 256 = 255) : ¬cond1_0 (grid1.coords t) := fun h => by have := (hcond1_0 t).mp h; omega
theorem cD1 (t : Fin cfg1.N) (h16 : ¬t.val % 16 = 0) : ¬cond1_1 (grid1.coords t) := fun h => h16 ((hcond1_1 t).mp h)
theorem cD2 (t : Fin cfg1.N) (hl : t.val % 256 = 255) : cond1_2 (grid1.coords t) := (hcond1_2 t).mpr hl

/-- THE ACCUMULATION: what the outputs' buffers and the accumulators hold after the body at position `n`. -/
def outsAt1 (c : Dev nD) : (n : ℕ) → n < cfg1.N → St1 F
  | 0, hn => stA V c ⟨0, hn⟩ (cA0 ⟨0, hn⟩ (Nat.zero_mod _)) (cA1 ⟨0, hn⟩ (Nat.zero_mod _)) (cA2 ⟨0, hn⟩ (Nat.zero_mod _))
  | n + 1, hn =>
    if h16 : (n + 1) % 16 = 0 then
      stB V c ⟨n + 1, hn⟩ (cB0 ⟨n + 1, hn⟩ (by have hN : n + 1 < 256 := lt_of_lt_of_eq hn N_1'; show ¬(n + 1) % 256 = 0; omega)) (cB1 ⟨n + 1, hn⟩ h16) (cB2 ⟨n + 1, hn⟩ h16) (outsAt1 c n (Nat.lt_of_succ_lt hn))
    else if hl : (n + 1) % 256 = 255 then
      stD V c ⟨n + 1, hn⟩ (cD0 ⟨n + 1, hn⟩ hl) (cD1 ⟨n + 1, hn⟩ h16) (cD2 ⟨n + 1, hn⟩ hl) (outsAt1 c n (Nat.lt_of_succ_lt hn))
    else
      stC V c ⟨n + 1, hn⟩ (cC0 ⟨n + 1, hn⟩ h16) (cC1 ⟨n + 1, hn⟩ h16) (cC2 ⟨n + 1, hn⟩ hl) (outsAt1 c n (Nat.lt_of_succ_lt hn))

theorem outsAt1_A (c : Dev nD) (t : Fin cfg1.N) (hz : t.val % 256 = 0) :
    outsAt1 V c t.val t.isLt = stA V c t (cA0 t hz) (cA1 t hz) (cA2 t hz) := by
  obtain ⟨n, hn⟩ := t
  cases n with
  | zero => exact rfl
  | succ n => exact (by exfalso; have hN : n + 1 < 256 := lt_of_lt_of_eq hn N_1'; (try dsimp only at hz); omega)
theorem outsAt1_B (c : Dev nD) (t : Fin cfg1.N) (hz : ¬t.val % 256 = 0) (h16 : t.val % 16 = 0) :
    outsAt1 V c t.val t.isLt = stB V c t (cB0 t hz) (cB1 t h16) (cB2 t h16) (outsAt1 V c (t.val - 1) (Nat.lt_of_le_of_lt (Nat.sub_le _ _) t.isLt)) := by
  obtain ⟨n, hn⟩ := t
  cases n with
  | zero => exact (by exfalso; (try dsimp only at hz); exact absurd (Nat.zero_mod _) hz)
  | succ n => exact (dif_pos h16).trans rfl
theorem outsAt1_D (c : Dev nD) (t : Fin cfg1.N) (h16 : ¬t.val % 16 = 0) (hl : t.val % 256 = 255) :
    outsAt1 V c t.val t.isLt = stD V c t (cD0 t hl) (cD1 t h16) (cD2 t hl) (outsAt1 V c (t.val - 1) (Nat.lt_of_le_of_lt (Nat.sub_le _ _) t.isLt)) := by
  obtain ⟨n, hn⟩ := t
  cases n with
  | zero => exact (by exfalso; (try dsimp only at h16); exact absurd (Nat.zero_mod _) h16)
  | succ n => exact (dif_neg h16).trans ((dif_pos hl).trans rfl)
theorem outsAt1_C (c : Dev nD) (t : Fin cfg1.N) (h16 : ¬t.val % 16 = 0) (hl : ¬t.val % 256 = 255) :
    outsAt1 V c t.val t.isLt = stC V c t (cC0 t h16) (cC1 t h16) (cC2 t hl) (outsAt1 V c (t.val - 1) (Nat.lt_of_le_of_lt (Nat.sub_le _ _) t.isLt)) := by
  obtain ⟨n, hn⟩ := t
  cases n with
  | zero => exact (by exfalso; (try dsimp only at h16); exact absurd (Nat.zero_mod _) h16)
  | succ n => exact (dif_neg h16).trans ((dif_neg hl).trans rfl)

/-! ## The region's invariant -/

/-- The scoped rest with the four accumulators at given assertions, and the generator register at some state. -/
def chain1 (c : Dev nD) (S0 S1 S2 S3 : sProp 𝕄) : sProp 𝕄 :=
  iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f)
      ∗ S0 ∗ S1 ∗ S2 ∗ S3) ∗ (∃ r, prngReg c r))
/-- The scoped buffers that are none of this region's: the first region's staging buffers, at anything. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f))

theorem chain1_out (c : Dev nD) (S0 S1 S2 S3 : sProp 𝕄) :
    chain1 c S0 S1 S2 S3 ⊢ iprop(rest1 c ∗ (∃ r, prngReg c r) ∗ S0 ∗ S1 ∗ S2 ∗ S3) := by
  unfold chain1 rest1
  iintro ⟨⟨A1, A2, A3, A4, A5, A6, A7, A8, H0, H1, H2, H3⟩, Hg⟩
  isplitl [A1 A2 A3 A4 A5 A6 A7 A8]
  · isplitl [A1]; · iexact A1
    isplitl [A2]; · iexact A2
    isplitl [A3]; · iexact A3
    isplitl [A4]; · iexact A4
    isplitl [A5]; · iexact A5
    isplitl [A6]; · iexact A6
    isplitl [A7]; · iexact A7
    iexact A8
  isplitl [Hg]; · iexact Hg
  isplitl [H0]; · iexact H0
  isplitl [H1]; · iexact H1
  isplitl [H2]; · iexact H2
  iexact H3
theorem chain1_in (c : Dev nD) (S0 S1 S2 S3 : sProp 𝕄) :
    iprop(rest1 c ∗ (∃ r, prngReg c r) ∗ S0 ∗ S1 ∗ S2 ∗ S3) ⊢ chain1 c S0 S1 S2 S3 := by
  unfold chain1 rest1
  iintro ⟨⟨A1, A2, A3, A4, A5, A6, A7, A8⟩, Hg, H0, H1, H2, H3⟩
  isplitr [Hg]
  · isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [H0]; · iexact H0
    isplitl [H1]; · iexact H1
    isplitl [H2]; · iexact H2
    iexact H3
  iexact Hg

theorem PhiA1_chain (c : Dev nD) :
    (Pipeline.ΦA spec1 c : sProp 𝕄) = chain1 c iprop(∃ d, owns (c : Thread nD τ) scM1_0 fullShare d) iprop(∃ d, owns (c : Thread nD τ) scM1_1 fullShare d)
      iprop(∃ d, owns (c : Thread nD τ) scM1_2 fullShare d) iprop(∃ d, owns (c : Thread nD τ) scM1_3 fullShare d) := by
  rw [PhiA1_eq]; rfl

/-- The region invariant before position `n`: before the first point the class's (every accumulator at anything);
    afterwards each accumulator at what the point before left in it. -/
def PhiS (c : Dev nD) : (n : ℕ) → n ≤ cfg1.N → sProp 𝕄
  | 0, _ => Pipeline.ΦA spec1 c
  | n + 1, hn => chain1 c (owns (c : Thread nD τ) scM1_0 fullShare (outsAt1 V c n hn).s0) (owns (c : Thread nD τ) scM1_1 fullShare (outsAt1 V c n hn).s1)
      (owns (c : Thread nD τ) scM1_2 fullShare (outsAt1 V c n hn).s2) (owns (c : Thread nD τ) scM1_3 fullShare (outsAt1 V c n hn).s3)

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = chain1 c (owns (c : Thread nD τ) scM1_0 fullShare (outsAt1 V c n hn).s0) (owns (c : Thread nD τ) scM1_1 fullShare (outsAt1 V c n hn).s1)
      (owns (c : Thread nD τ) scM1_2 fullShare (outsAt1 V c n hn).s2) (owns (c : Thread nD τ) scM1_3 fullShare (outsAt1 V c n hn).s3) := rfl
theorem PhiS_pos (c : Dev nD) (n : ℕ) (h : n ≤ cfg1.N) (hz : n ≠ 0) :
    PhiS V c n h = chain1 c (owns (c : Thread nD τ) scM1_0 fullShare (outsAt1 V c (n - 1) (by omega)).s0) (owns (c : Thread nD τ) scM1_1 fullShare (outsAt1 V c (n - 1) (by omega)).s1)
      (owns (c : Thread nD τ) scM1_2 fullShare (outsAt1 V c (n - 1) (by omega)).s2) (owns (c : Thread nD τ) scM1_3 fullShare (outsAt1 V c (n - 1) (by omega)).s3) := by
  cases n with
  | zero => exact absurd rfl hz
  | succ n => rfl

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).o4
    | ⟨5, _⟩ => (outsAt1 V c t.val t.isLt).o5
    | ⟨6, _⟩ => (outsAt1 V c t.val t.isLt).o6
    | ⟨7, _⟩ => (outsAt1 V c t.val t.isLt).o7
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).o4 := by dsimp only [dat1]
theorem after1_5 (c : Dev nD) (t : Fin cfg1.N) : (dat1 V c).after 5 t = (outsAt1 V c t.val t.isLt).o5 := by dsimp only [dat1]
theorem after1_6 (c : Dev nD) (t : Fin cfg1.N) : (dat1 V c).after 6 t = (outsAt1 V c t.val t.isLt).o6 := by dsimp only [dat1]
theorem after1_7 (c : Dev nD) (t : Fin cfg1.N) : (dat1 V c).after 7 t = (outsAt1 V c t.val t.isLt).o7 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t)

set_option maxHeartbeats 4000000 in
/-- The body at the first point: every accumulator found at anything. -/
theorem sound_body1_A (c : Dev nD) (t : Fin cfg1.N) (hz : t.val % 256 = 0) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS V c (t.val + 1) t.isLt from rfl, PhiS_succ]
  have hN : t.val < 256 := lt_of_lt_of_eq t.isLt N_1'
  rw [PhiS_castSucc V c t, PhiS_zero V c _ _ (by omega), PhiA1_chain]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  rw [Dat.leavesExact_idle (dat1 V c) 6 t (idleAt1_6 t (cA2 t hz)) (noFlush1_6 t (cA2 t hz))]
  rw [Dat.leavesExact_idle (dat1 V c) 7 t (idleAt1_7 t (cA2 t hz)) (noFlush1_7 t (cA2 t hz))]
  rw [outsAt1_A V c t hz]
  unfold stA; (try dsimp only)
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  ihave HΦ' := chain1_out c _ _ _ _ $$ HΦ
  icases HΦ' with ⟨HR, Hg, HS0, HS1, HS2, HS3⟩
  iapply ((rA V c t (cA0 t hz) (cA1 t hz) (cA2 t hz)).2.2.2.2.2.2 _ _ Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexact H6
  isplitl [H7]; · iexact H7
  isplitl [HS0]; · iexact HS0
  isplitl [HS1]; · iexact HS1
  isplitl [HS2]; · iexact HS2
  isplitl [HS3]; · iexact HS3
  iintro ⟨H0, H1, H2, H3, ⟨%e4, H4⟩, ⟨%e5, H5⟩, H6, H7, ⟨%es0, HS0⟩, ⟨%es1, HS1⟩, ⟨%es2, HS2⟩, ⟨%es3, HS3⟩⟩
  isplitl [HR Hg HS0 HS1 HS2 HS3]
  · iapply (chain1_in c _ _ _ _)
    isplitl [HR]; · iexact HR
    isplitl [Hg]; · iexact Hg
    isplitl [HS0]
    · unfold owns; iexists _; isplitr
      swap; · iexact HS0
      ipureintro; exact View.read_writes_of_cover _ _ _ _ _ (scover1_A_0 V c t _ _ _)
    isplitl [HS1]
    · unfold owns; iexists _; isplitr
      swap; · iexact HS1
      ipureintro; exact View.read_writes_of_cover _ _ _ _ _ (scover1_A_1 V c t _ _ _)
    isplitl [HS2]
    · unfold owns; iexists _; isplitr
      swap; · iexact HS2
      ipureintro; exact View.read_writes_of_cover _ _ _ _ _ (scover1_A_2 V c t _ _ _)
    · unfold owns; iexists _; isplitr
      swap; · iexact HS3
      ipureintro; exact View.read_writes_of_cover _ _ _ _ _ (scover1_A_3 V c t _ _ _)
  isplitl [Ho]; · iexact Ho
  isplitl [H0]; · iexact H0
  isplitl [H1]; · iexact H1
  isplitl [H2]; · iexact H2
  isplitl [H3]; · iexact H3
  isplitl [H4]
  · unfold owns; iexists _; isplitr
    swap; · iexact H4
    ipureintro; exact View.read_writes_of_cover _ _ _ _ _ (cover1_A_4 V c t _ _ _)
  isplitl [H5]
  · unfold owns; iexists _; isplitr
    swap; · iexact H5
    ipureintro; exact View.read_writes_of_cover _ _ _ _ _ (cover1_A_5 V c t _ _ _)
  isplitl [H6]; · iexists _; iexact H6
  iexists _; iexact H7

set_option maxHeartbeats 4000000 in
/-- The body at the first tile of a later row of tiles. -/
theorem sound_body1_B (c : Dev nD) (t : Fin cfg1.N) (hz : ¬t.val % 256 = 0) (h16 : t.val % 16 = 0) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS V c (t.val + 1) t.isLt from rfl, PhiS_succ]
  have hN : t.val < 256 := lt_of_lt_of_eq t.isLt N_1'
  rw [PhiS_castSucc V c t, PhiS_pos V c _ _ (by omega)]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  rw [Dat.leavesExact_idle (dat1 V c) 6 t (idleAt1_6 t (cB2 t h16)) (noFlush1_6 t (cB2 t h16))]
  rw [Dat.leavesExact_idle (dat1 V c) 7 t (idleAt1_7 t (cB2 t h16)) (noFlush1_7 t (cB2 t h16))]
  rw [outsAt1_B V c t hz h16]
  unfold stB; (try dsimp only)
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  ihave HΦ' := chain1_out c _ _ _ _ $$ HΦ
  icases HΦ' with ⟨HR, Hg, HS0, HS1, HS2, HS3⟩
  iapply ((rB V c t (cB0 t hz) (cB1 t h16) (cB2 t h16) (outsAt1 V c (t.val - 1) (Nat.lt_of_le_of_lt (Nat.sub_le _ _) t.isLt))).2.2.2.2.2.2 _ _ Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexact H6
  isplitl [H7]; · iexact H7
  isplitl [HS0]; · iexact HS0
  isplitl [HS1]; · iexact HS1
  isplitl [HS2]; · iexact HS2
  isplitl [HS3]; · iexact HS3
  iintro ⟨H0, H1, H2, H3, ⟨%e4, H4⟩, ⟨%e5, H5⟩, H6, H7, HS0, HS1, HS2, HS3⟩
  isplitl [HR Hg HS0 HS1 HS2 HS3]
  · iapply (chain1_in c _ _ _ _)
    isplitl [HR]; · iexact HR
    isplitl [Hg]; · iexact Hg
    isplitl [HS0]
    · unfold owns; iexists _; isplitr
      swap; · iexact HS0
      ipureintro; rfl
    isplitl [HS1]
    · unfold owns; iexists _; isplitr
      swap; · iexact HS1
      ipureintro; rfl
    isplitl [HS2]
    · unfold owns; iexists _; isplitr
      swap; · iexact HS2
      ipureintro; rfl
    · unfold owns; iexists _; isplitr
      swap; · iexact HS3
      ipureintro; rfl
  isplitl [Ho]; · iexact Ho
  isplitl [H0]; · iexact H0
  isplitl [H1]; · iexact H1
  isplitl [H2]; · iexact H2
  isplitl [H3]; · iexact H3
  isplitl [H4]
  · unfold owns; iexists _; isplitr
    swap; · iexact H4
    ipureintro; exact View.read_writes_of_cover _ _ _ _ _ (cover1_B_4 V c t _ _ _ _)
  isplitl [H5]
  · unfold owns; iexists _; isplitr
    swap; · iexact H5
    ipureintro; exact View.read_writes_of_cover _ _ _ _ _ (cover1_B_5 V c t _ _ _ _)
  isplitl [H6]; · iexists _; iexact H6
  iexists _; iexact H7

set_option maxHeartbeats 4000000 in
/-- The body at the last point: the column outputs stored. -/
theorem sound_body1_D (c : Dev nD) (t : Fin cfg1.N) (h16 : ¬t.val % 16 = 0) (hl : t.val % 256 = 255) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS V c (t.val + 1) t.isLt from rfl, PhiS_succ]
  have hN : t.val < 256 := lt_of_lt_of_eq t.isLt N_1'
  rw [PhiS_castSucc V c t, PhiS_pos V c _ _ (by omega)]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  rw [show (dat1 V c).leavesExact 6 t = owns (c : Thread nD τ) (ms1_6 t) fullShare ((dat1 V c).after 6 t) from by
    unfold Dat.leavesExact; rw [liveAt1_6 t (cD2 t hl)], after1_6]
  rw [show (dat1 V c).leavesExact 7 t = owns (c : Thread nD τ) (ms1_7 t) fullShare ((dat1 V c).after 7 t) from by
    unfold Dat.leavesExact; rw [liveAt1_7 t (cD2 t hl)], after1_7]
  rw [outsAt1_D V c t h16 hl]
  unfold stD; (try dsimp only)
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  ihave HΦ' := chain1_out c _ _ _ _ $$ HΦ
  icases HΦ' with ⟨HR, Hg, HS0, HS1, HS2, HS3⟩
  iapply ((rD V c t (cD0 t hl) (cD1 t h16) (cD2 t hl) (outsAt1 V c (t.val - 1) (Nat.lt_of_le_of_lt (Nat.sub_le _ _) t.isLt))).2.2.2.2.2.2.2.2 Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [H7]; · iexists _; iexact H7
  isplitl [HS0]; · iexact HS0
  isplitl [HS1]; · iexact HS1
  isplitl [HS2]; · iexact HS2
  isplitl [HS3]; · iexact HS3
  iintro ⟨H0, H1, H2, H3, ⟨%e4, H4⟩, ⟨%e5, H5⟩, ⟨%e6, H6⟩, ⟨%e7, H7⟩, HS0, HS1, HS2, HS3⟩
  isplitl [HR Hg HS0 HS1 HS2 HS3]
  · iapply (chain1_in c _ _ _ _)
    isplitl [HR]; · iexact HR
    isplitl [Hg]; · iexact Hg
    isplitl [HS0]
    · unfold owns; iexists _; isplitr
      swap; · iexact HS0
      ipureintro; rfl
    isplitl [HS1]
    · unfold owns; iexists _; isplitr
      swap; · iexact HS1
      ipureintro; rfl
    isplitl [HS2]
    · unfold owns; iexists _; isplitr
      swap; · iexact HS2
      ipureintro; rfl
    · unfold owns; iexists _; isplitr
      swap; · iexact HS3
      ipureintro; rfl
  isplitl [Ho]; · iexact Ho
  isplitl [H0]; · iexact H0
  isplitl [H1]; · iexact H1
  isplitl [H2]; · iexact H2
  isplitl [H3]; · iexact H3
  isplitl [H4]
  · unfold owns; iexists _; isplitr
    swap; · iexact H4
    ipureintro; exact View.read_writes_of_cover _ _ _ _ _ (cover1_D_4 V c t _ _ _ _)
  isplitl [H5]
  · unfold owns; iexists _; isplitr
    swap; · iexact H5
    ipureintro; exact View.read_writes_of_cover _ _ _ _ _ (cover1_D_5 V c t _ _ _ _)
  isplitl [H6]
  · unfold owns; iexists _; isplitr
    swap; · iexact H6
    ipureintro; exact View.read_writes_of_cover _ _ _ _ _ (cover1_D_6 V c t _ _ _ _)

  · unfold owns; iexists _; isplitr
    swap; · iexact H7
    ipureintro; exact View.read_writes_of_cover _ _ _ _ _ (cover1_D_7 V c t _ _ _ _)

set_option maxHeartbeats 4000000 in
/-- The body at every other point. -/
theorem sound_body1_C (c : Dev nD) (t : Fin cfg1.N) (h16 : ¬t.val % 16 = 0) (hl : ¬t.val % 256 = 255) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS V c (t.val + 1) t.isLt from rfl, PhiS_succ]
  have hN : t.val < 256 := lt_of_lt_of_eq t.isLt N_1'
  rw [PhiS_castSucc V c t, PhiS_pos V c _ _ (by omega)]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  rw [Dat.leavesExact_idle (dat1 V c) 6 t (idleAt1_6 t (cC2 t hl)) (noFlush1_6 t (cC2 t hl))]
  rw [Dat.leavesExact_idle (dat1 V c) 7 t (idleAt1_7 t (cC2 t hl)) (noFlush1_7 t (cC2 t hl))]
  rw [outsAt1_C V c t h16 hl]
  unfold stC; (try dsimp only)
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  ihave HΦ' := chain1_out c _ _ _ _ $$ HΦ
  icases HΦ' with ⟨HR, Hg, HS0, HS1, HS2, HS3⟩
  iapply ((rC V c t (cC0 t h16) (cC1 t h16) (cC2 t hl) (outsAt1 V c (t.val - 1) (Nat.lt_of_le_of_lt (Nat.sub_le _ _) t.isLt))).2.2.2.2.2.2 _ _ Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexact H6
  isplitl [H7]; · iexact H7
  isplitl [HS0]; · iexact HS0
  isplitl [HS1]; · iexact HS1
  isplitl [HS2]; · iexact HS2
  isplitl [HS3]; · iexact HS3
  iintro ⟨H0, H1, H2, H3, ⟨%e4, H4⟩, ⟨%e5, H5⟩, H6, H7, HS0, HS1, HS2, HS3⟩
  isplitl [HR Hg HS0 HS1 HS2 HS3]
  · iapply (chain1_in c _ _ _ _)
    isplitl [HR]; · iexact HR
    isplitl [Hg]; · iexact Hg
    isplitl [HS0]
    · unfold owns; iexists _; isplitr
      swap; · iexact HS0
      ipureintro; rfl
    isplitl [HS1]
    · unfold owns; iexists _; isplitr
      swap; · iexact HS1
      ipureintro; rfl
    isplitl [HS2]
    · unfold owns; iexists _; isplitr
      swap; · iexact HS2
      ipureintro; rfl
    · unfold owns; iexists _; isplitr
      swap; · iexact HS3
      ipureintro; rfl
  isplitl [Ho]; · iexact Ho
  isplitl [H0]; · iexact H0
  isplitl [H1]; · iexact H1
  isplitl [H2]; · iexact H2
  isplitl [H3]; · iexact H3
  isplitl [H4]
  · unfold owns; iexists _; isplitr
    swap; · iexact H4
    ipureintro; exact View.read_writes_of_cover _ _ _ _ _ (cover1_C_4 V c t _ _ _ _)
  isplitl [H5]
  · unfold owns; iexists _; isplitr
    swap; · iexact H5
    ipureintro; exact View.read_writes_of_cover _ _ _ _ _ (cover1_C_5 V c t _ _ _ _)
  isplitl [H6]; · iexists _; iexact H6
  iexists _; iexact H7

/-- The body at any point: the inputs' memrefs hold their blocks; the closed forms say which case the point is in; the
    invariant hands the body the accumulators at what the point before left (at anything at the first point) and takes them
    back at this point's contents; the two column outputs are handed back untouched except at the last point. -/
theorem sound_body1 (c : Dev nD) (t : Fin cfg1.N) :
    bodyPre1 V c t ⊢ wp frame (wpE (defs₀ (F := F)) Variants.none c none) Set.univ (bodyAt1 t) (fun _ => bodyPost1 V c t) := by
  by_cases hz : t.val % 256 = 0
  · exact sound_body1_A V c t hz
  by_cases h16 : t.val % 16 = 0
  · exact sound_body1_B V c t hz h16
  by_cases hl : t.val % 256 = 255
  · exact sound_body1_D V c t h16 hl
  · exact sound_body1_C V c t h16 hl

theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the class's back: the accumulators' named contents are forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 256 := N_1; omega), PhiA1_chain]
  iintro H
  ihave H' := chain1_out c _ _ _ _ $$ H
  icases H' with ⟨HR, Hg, HS0, HS1, HS2, HS3⟩
  iapply (chain1_in c _ _ _ _)
  isplitl [HR]; · iexact HR
  isplitl [Hg]; · iexact Hg
  isplitl [HS0]; · iexists _; iexact HS0
  isplitl [HS1]; · iexists _; iexact HS1
  isplitl [HS2]; · iexists _; iexact HS2
  iexists _; iexact HS3

end Cert.Kernel.Gen

end
-- ==== Proof.K.Run.lean ====
/-
  The whole program's run: @main is the first kernel region, two reshapes of the labels, the second kernel region, and
  the host tail that turns the four sums into the loss.  The buffer contents at each boundary are a fold from the launch
  memory (a region's arrays at what its write-backs leave, a host stretch by its operations); each region is a segment
  over the thread state "every unscoped buffer at the boundary's contents, the generator register at some state, nothing
  owed"; the launch over the four segments ends with every unscoped buffer at the last boundary's contents `W4`.
  From that: the frame (the three arguments are read back through the fold to the launch memory).
-/
import proofs.«166571_j42013370090174_1_alg».proof.Proof.K.R0
import proofs.«166571_j42013370090174_1_alg».proof.Proof.K.Acc1

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch (the first region's entry). -/
abbrev W0 : Dev nD → Valuation τ sig (Elt F) := fun c b => (s₀ m ρ).mem ((c : Dev nD), b)
abbrev U0 : (c : Dev nD) → (b : Ref sig .tc) → Buf (Elt F) ((c : Thread nD τ).loc b) := fun c b => W0 m ρ c b
/-- At the first region's exit: its arrays at what the pipeline leaves, every other buffer as entered. -/
def W1 (c : Dev nD) : Valuation τ sig (Elt F) :=
  Pipeline.withArrays spec0 c (W0 m ρ c) fun w => (dat0 (U0 m ρ) c).arrAt w cfg0.N
theorem W1_arr (c : Dev nD) (w : Fin cfg0.W) :
    W1 m ρ c (Proc.devRef .tc (Pipeline.arrRef spec0 w)) = (dat0 (U0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev U1 : (c : Dev nD) → (b : Ref sig .tc) → Buf (Elt F) ((c : Thread nD τ).loc b) := fun c b => W1 m ρ c b
theorem hF0 (c : Dev nD) (w : Fin cfg0.W) : (dat0 (U0 m ρ) c).arrAt w cfg0.N = U1 m ρ c (Pipeline.arrRef spec0 w) :=
  (W1_arr m ρ c w).symm
theorem hrest0 (c : Dev nD) : ∀ b, b ∉ Finset.univ.image (Pipeline.arrRef spec0) → U1 m ρ c b = U0 m ρ c b :=
  fun b hb => W1_of_ne m ρ c b fun w e => hb (Finset.mem_image.mpr ⟨w, Finset.mem_univ _, e⟩)

/-- After the two reshapes of the labels (the second region's entry). -/
abbrev W2 : Dev nD → Valuation τ sig (Elt F) := fun c => StableHlo.after hostOps1 (W1 m ρ c)
abbrev U2 : (c : Dev nD) → (b : Ref sig .tc) → Buf (Elt F) ((c : Thread nD τ).loc b) := fun c b => W2 m ρ c b
/-- At the second region's exit. -/
def W3 (c : Dev nD) : Valuation τ sig (Elt F) :=
  Pipeline.withArrays spec1 c (W2 m ρ c) fun w => (dat1 (U2 m ρ) c).arrAt w cfg1.N
theorem W3_arr (c : Dev nD) (w : Fin cfg1.W) :
    W3 m ρ c (Proc.devRef .tc (Pipeline.arrRef spec1 w)) = (dat1 (U2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev U3 : (c : Dev nD) → (b : Ref sig .tc) → Buf (Elt F) ((c : Thread nD τ).loc b) := fun c b => W3 m ρ c b
theorem hF1 (c : Dev nD) (w : Fin cfg1.W) : (dat1 (U2 m ρ) c).arrAt w cfg1.N = U3 m ρ c (Pipeline.arrRef spec1 w) :=
  (W3_arr m ρ c w).symm
theorem hrest1 (c : Dev nD) : ∀ b, b ∉ Finset.univ.image (Pipeline.arrRef spec1) → U3 m ρ c b = U2 m ρ c b :=
  fun b hb => W3_of_ne m ρ c b fun w e => hb (Finset.mem_image.mpr ⟨w, Finset.mem_univ _, e⟩)
/-- After the host tail: the contents the program ends with. -/
abbrev W4 : Dev nD → Valuation τ sig (Elt F) := fun c => StableHlo.after hostOps2 (W3 m ρ c)

/-- No host operation writes an argument. -/
theorem hostOps1_keeps (b : Ref sig .tc) (hb : b ∉ ([main_v1, main_v2] : List (Ref sig .tc))) (W : Valuation τ sig (Elt F)) :
    StableHlo.after hostOps1 W (Proc.devRef .tc b) = W (Proc.devRef .tc b) :=
  StableHlo.after_of_forall_not_mem (b := Proc.devRef .tc b) _ _ (List.forall_iff_forall_mem.mp (by
    simp only [hostOps1, List.Forall, StableHlo.nullary_writes, StableHlo.unary_writes, StableHlo.binary_writes, StableHlo.reshape_writes, Finset.mem_singleton]
    refine ⟨StableHlo.devRef_ne_of_ne (fun e => hb (e ▸ by simp)), StableHlo.devRef_ne_of_ne (fun e => hb (e ▸ by simp))⟩))

theorem W4_arg (b : Ref sig .tc) (hb : b = main_arg0 ∨ b = main_arg1 ∨ b = main_arg2) (c : Dev nD) :
    W4 m ρ c (Proc.devRef .tc b) = W3 m ρ c (Proc.devRef .tc b) :=
  StableHlo.after_of_forall_not_mem (b := Proc.devRef .tc b) _ _ (List.forall_iff_forall_mem.mp (by
    rcases hb with rfl | rfl | rfl <;>
    · simp only [hostOps2, List.Forall, StableHlo.nullary_writes, StableHlo.unary_writes, StableHlo.binary_writes, StableHlo.reshape_writes, Finset.mem_singleton]
      repeat' apply And.intro
      all_goals exact StableHlo.devRef_ne_of_ne (by decide)))

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_arg m ρ main_arg0 (.inl rfl) c
    _ = W2 m ρ c (Proc.devRef .tc main_arg0) := W3_of_ne m ρ c main_arg0 (by decide)
    _ = W1 m ρ c (Proc.devRef .tc main_arg0) := hostOps1_keeps main_arg0 (by decide) _
    _ = W0 m ρ c (Proc.devRef .tc main_arg0) := (W1_arr m ρ c 0).trans (((dat0 (U0 m ρ) c).arrAt_in 0 rfl _).trans (A_eq0 (U0 m ρ) c 0))
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_arg m ρ main_arg1 (.inr (.inl rfl)) c
    _ = W2 m ρ c (Proc.devRef .tc main_arg1) := W3_of_ne m ρ c main_arg1 (by decide)
    _ = W1 m ρ c (Proc.devRef .tc main_arg1) := hostOps1_keeps main_arg1 (by decide) _
    _ = W0 m ρ c (Proc.devRef .tc main_arg1) := (W1_arr m ρ c 1).trans (((dat0 (U0 m ρ) c).arrAt_in 1 rfl _).trans (A_eq0 (U0 m ρ) c 1))
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_arg m ρ main_arg2 (.inr (.inr rfl)) c
    _ = W2 m ρ c (Proc.devRef .tc main_arg2) := W3_of_ne m ρ c main_arg2 (by decide)
    _ = W1 m ρ c (Proc.devRef .tc main_arg2) := hostOps1_keeps main_arg2 (by decide) _
    _ = W0 m ρ c (Proc.devRef .tc main_arg2) := W1_of_ne m ρ c main_arg2 (by decide)
    _ = m ((c : Thread nD τ).loc main_arg2) := rfl

/-- No pipeline has a prefetched table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (U0 m ρ) c
  | ⟨1, _⟩ => fun c => dat1 (U2 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core's dues, at nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps1_fresh' : (hostOps1 : List (HloOp τ sig (Elt F))).Forall fun op => op.fresh = ∅ := by
  simp only [List.Forall]; repeat' constructor
theorem hostOps2_fresh' : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tₙ (c : Dev nD) : sProp 𝕄 := iprop(StableHlo.held (c : Thread nD τ) (Pipeline.ucRefs τ sig) (W4 m ρ c) ∗ ∃ r, prngReg c r)

set_option backward.isDefEq.respectTransparency.types false in
/-- The first region over the thread state: entered from the launch contents, left at `W1`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (U0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (U0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (U0 m ρ c) (U1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region over the thread state: entered from `W2`, left at `W3`.  Its invariant starts as the class's
    (the scratch buffers at anything) and gives that back after the last point, the accumulators' contents forgotten. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (U2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (U2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (U2 m ρ) c)
    unfold Pipeline.ΦA
    iintro ⟨Hp, -, Hr⟩
    isplitl [Hr]; · iexact Hr
    iexact Hp
  hout c := by
    rw [Pipeline.ownSems0_none]
    refine .trans (hout1 (U2 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (U2 m ρ c) (U3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- @main's four segments in order. -/
abbrev segs : List (Pipeline.Seg (pcfgs (F := F)) adm (pdats m ρ) () defs₀ 𝒱₀ L lv) :=
  [ .region (reg0 m ρ),
    .host (hseg hostOps1 hostOps1_sub hostOps1_fresh' (W1 m ρ)),
    .region (reg1 m ρ),
    .host (hseg hostOps2 hostOps2_sub hostOps2_fresh' (W3 m ρ)) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and
    every final state holds every unscoped buffer at the last boundary's contents `W4`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show iprop(StableHlo.held (c : Thread nD τ) (Pipeline.ucRefs τ sig) (W4 m ρ c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- THE FRAME: the three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c)⟩) (run_main m ρ)

end Cert.Kernel.Gen

end
-- ==== Proof.KI.R0.lean ====
/-
  The first kernel region (the row normalisation, eight grid points of 1024 rows) at any buffer contents `V` found
  on entry: each input window's block at a point, what the body leaves in the two output windows' buffers — its one
  whole-block store into each, a function of the matching input block alone —, the body's triple, the pipeline's
  proof data with those contents, and the body obligation at every point.
-/
import proofs.«166571_j42013370090174_1_alg».proof.Proof.Gen.KernelIdeal.Launch
import proofs.«166571_j42013370090174_1_alg».proof.Proof.Gen.KernelIdeal.Skeleton
import proofs.«166571_j42013370090174_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, for any proof data whose array is the
    entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole 1024×512 block as a rectangle: the body's every access. -/
abbrev r0_0 : Rect S1024x512 := Rect.unit (s := S1024x512) ![0, 0] S1024x512.size inb_S1024x512_S1024x512_0_0

/-- The first output window's buffer after the body: the normalised audio block, one piece. -/
def out0_2 (x0 : Vec F S1024x512 .f32) : Vec F S1024x512 .bf16 :=
  View.canon [⟨r0_0, k0_pay1 (View.ld x0 r0_0)⟩]
/-- The second output window's buffer after the body: the normalised label block, one piece. -/
def out0_3 (x1 : Vec F S1024x512 .f32) : Vec F S1024x512 .bf16 :=
  View.canon [⟨r0_0, k0_pay2 (View.ld x1 r0_0)⟩]

/-- The one whole-block piece covers the buffer. -/
theorem cover0_o (p0 : Vec F S1024x512 .bf16) (y : S1024x512.Idx) :
    ∃ pc ∈ ([⟨r0_0, p0⟩] : List (View.Piece (Elt F) S1024x512 .bf16)), y ∈ pc.1.set :=
  View.cover_of_tiled [⟨r0_0, p0⟩] S1024x512.size (by rfl) y

set_option maxHeartbeats 1000000 in
/-- The body on whole staging memrefs, the inputs' at contents `x0`, `x1` and the outputs' at anything, runs to the
    continuation holding the inputs' as they were and each output's at its one piece. -/
theorem sound_kernel0 (c : Dev nD) (E : Set ℕ) (i : grid0.Coords) (arg1 : Memref sig .tc .vmem S1024x512 .f32) (harg1 : arg1.IsWhole) (arg2 : Memref sig .tc .vmem S1024x512 .f32) (harg2 : arg2.IsWhole)
    (arg3 : Memref sig .tc .vmem S1024x512 .bf16) (harg3 : arg3.IsWhole) (arg4 : Memref sig .tc .vmem S1024x512 .bf16) (harg4 : arg4.IsWhole)
    (x0 x1 : Vec F S1024x512 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1
            ∗ owns (c : Thread nD τ) arg3 fullShare (out0_2 x0) ∗ owns (c : Thread nD τ) arg4 fullShare (out0_3 x1)) -∗ K ⟨⟩))
      ⊢ wp frame (wpE (defs₀ (F := F)) Variants.none c none) E (cc0__normalize_kernel i arg1 harg1 arg2 harg2 arg3 harg3 arg4 harg4) K := by
  simp only [cc0__normalize_kernel_eq_skeleton]; unfold cc0__normalize_kernel_skel
  unfold owns
  iintro ⟨⟨%f0, %hf0, H0⟩, ⟨%f1, %hf1, H1⟩, ⟨%d2, %f2, -, H2⟩, ⟨%d3, %f3, -, H3⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover0_o _)
  iexists _; isplitr
  swap; · iexact H3
  ipureintro
  exact View.read_writes_eq_canon _ _ _ (cover0_o _)

/-- The proof data of pipeline 0 on core `c`: the arrays as found; after the body each input's buffer at its block and
    each output's at its piece of the matching input block; the class's invariant (scoped rest, generator register);
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t)
    | ⟨3, _⟩ => out0_3 (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) := by dsimp only [dat0]
theorem after0_3 (c : Dev nD) (t : Fin cfg0.N) : (dat0 V c).after 3 t = out0_3 (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the triple applies; the invariant and the core's
    dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Gen

end
-- ==== Proof.KI.Base1.lean ====
/-
  What the second kernel region's (the pairwise tiles', a 16×16 grid) case runs are stated over: its three branch
  conditions in closed form over the grid (first point; first tile of a row of tiles; last point), where its last two
  output windows are idle (every point but the last), the staging and scratch memrefs by name, and the class's
  invariant with the four scratch buffers listed.
-/
import proofs.«166571_j42013370090174_1_alg».proof.Proof.Gen.KernelIdeal.Launch
import proofs.«166571_j42013370090174_1_alg».proof.Proof.Gen.KernelIdeal.Skeleton
import proofs.«166571_j42013370090174_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The body's first branch (reset of the column accumulators): both grid coordinates zero. -/
abbrev cond1_0 (i : grid1.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
theorem hcond1_0 : ∀ t : Fin cfg1.N, cond1_0 (grid1.coords t) ↔ t.val % 256 = 0 :=
  (by decide +kernel : ∀ t : Fin grid1.N, cond1_0 (grid1.coords t) ↔ t.val % 256 = 0)
/-- The second branch (reset of the row accumulators): the column coordinate zero. -/
abbrev cond1_1 (i : grid1.Coords) : Prop := (Scalar.cmpi .ne (Scalar.extui (Scalar.cmpi .eq (BitVec.ofNat 32 (i 1).val) 0#32)) 0#32) = 1#1
theorem hcond1_1 : ∀ t : Fin cfg1.N, cond1_1 (grid1.coords t) ↔ t.val % 16 = 0 :=
  (by decide +kernel : ∀ t : Fin grid1.N, cond1_1 (grid1.coords t) ↔ t.val % 16 = 0)
/-- The third branch (the column accumulators copied out): both coordinates at their last value. -/
abbrev cond1_2 (i : grid1.Coords) : Prop := k1_cond3 i = 1#1
theorem hcond1_2 : ∀ t : Fin cfg1.N, cond1_2 (grid1.coords t) ↔ t.val % 256 = 255 :=
  (by decide +kernel : ∀ t : Fin grid1.N, cond1_2 (grid1.coords t) ↔ t.val % 256 = 255)

/-- The inputs and the two row outputs are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
/-- The two column outputs are idle, and not written back, at every point but the last; live there. -/
theorem idleAt1_6 : ∀ t : Fin cfg1.N, ¬cond1_2 (grid1.coords t) → cfg1.idle 6 (grid1.coords t) = true := by decide +kernel
theorem noFlush1_6 : ∀ t : Fin cfg1.N, ¬cond1_2 (grid1.coords t) → (cfg1.win 6).flush t = false := by decide +kernel
theorem liveAt1_6 : ∀ t : Fin cfg1.N, cond1_2 (grid1.coords t) → cfg1.idle 6 (grid1.coords t) = false := by decide +kernel
theorem idleAt1_7 : ∀ t : Fin cfg1.N, ¬cond1_2 (grid1.coords t) → cfg1.idle 7 (grid1.coords t) = true := by decide +kernel
theorem noFlush1_7 : ∀ t : Fin cfg1.N, ¬cond1_2 (grid1.coords t) → (cfg1.win 7).flush t = false := by decide +kernel
theorem liveAt1_7 : ∀ t : Fin cfg1.N, cond1_2 (grid1.coords t) → cfg1.idle 7 (grid1.coords t) = false := by decide +kernel

/-- Each window's current staging memref at point `t`, spelled as the pipeline passes it, and its wholeness. -/
abbrev ms1_0 (t : Fin cfg1.N) : Memref sig .tc .vmem S512x512 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x1 .i32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512 .i32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S512x1 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S512x1 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x8192 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1x8192 .f32 := win1_7.stage (cfg1.slots t 7)
abbrev hs1_7 (t : Fin cfg1.N) : (ms1_7 t).IsWhole := hstage1_7 ((cfg1.slots t 7).cast nbuf1_7)
/-- The four scratch operands: whole scoped buffers of the kernel's own (row sums, masked row sums, column sums,
    masked column sums). -/
abbrev scM1_0 : Memref sig .tc .vmem S512x1 .f32 := Memref.whole cc1_scratch0
abbrev scM1_1 : Memref sig .tc .vmem S512x1 .f32 := Memref.whole cc1_scratch1
abbrev scM1_2 : Memref sig .tc .vmem S1x8192 .f32 := Memref.whole cc1_scratch2
abbrev scM1_3 : Memref sig .tc .vmem S1x8192 .f32 := Memref.whole cc1_scratch3

/-- The region's scoped rest with the four scratch buffers as memrefs owned at some contents, the other scoped
    buffers (the first region's staging buffers) kept as one rest `restS1`. -/
def restS1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f))

theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f)
          ∗ (∃ d, owns (c : Thread nD τ) scM1_0 fullShare d) ∗ (∃ d, owns (c : Thread nD τ) scM1_1 fullShare d)
          ∗ (∃ d, owns (c : Thread nD τ) scM1_2 fullShare d) ∗ (∃ d, owns (c : Thread nD τ) scM1_3 fullShare d)) ∗ (∃ r, prngReg c r)) := by
  unfold Pipeline.ΦA; rw [scopedRest1_eq]; simp only [scM1_0, scM1_1, scM1_2, scM1_3, owns_whole]; try rfl

end Cert.KernelIdeal.Gen

end
-- ==== Proof.KI.Run1A.lean ====
/-
  The pairwise kernel's body run whole at the grid's first point: every accumulator reset.  On whole staging memrefs — the four inputs' at their
  contents, the two row outputs' at anything, the two column outputs' at contents handed back untouched, the four accumulators at anything — it
  runs to the continuation holding the inputs' as they were and every buffer it stored into with its stores written,
  as pieces (last first); the pieces are the witness the run finds.
-/
import proofs.«166571_j42013370090174_1_alg».proof.Proof.KI.Base1

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
noncomputable def kernelRun1_A (c : Dev nD) (i : grid1.Coords) (arg2 : Memref sig .tc .vmem S512x512 .bf16) (harg2 : arg2.IsWhole) (arg3 : Memref sig .tc .vmem S512x512 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S1x8192 .f32) (harg8 : arg8.IsWhole) (arg9 : Memref sig .tc .vmem S1x8192 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S1x8192 .f32) (harg12 : arg12.IsWhole) (arg13 : Memref sig .tc .vmem S1x8192 .f32) (harg13 : arg13.IsWhole) (hc0 : cond1_0 i) (hc1 : cond1_1 i) (hc2 : ¬cond1_2 i)
    (x0 x1 : Vec F S512x512 .bf16) (x2 : Vec F S512x1 .i32) (x3 : Vec F S1x512 .i32) :
    Σ' (L4 : List (View.Piece (Elt F) S512x1 .f32)) (L5 : List (View.Piece (Elt F) S512x1 .f32)) (LS0 : List (View.Piece (Elt F) S512x1 .f32)) (LS1 : List (View.Piece (Elt F) S512x1 .f32)) (LS2 : List (View.Piece (Elt F) S1x8192 .f32)), { LS3 : List (View.Piece (Elt F) S1x8192 .f32) //
      ∀ (xi6 xi7 : Vec F S1x8192 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ (∃ d, owns (c : Thread nD τ) arg7 fullShare d) ∗ owns (c : Thread nD τ) arg8 fullShare xi6 ∗ owns (c : Thread nD τ) arg9 fullShare xi7
            ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ owns (c : Thread nD τ) arg8 fullShare xi6 ∗ owns (c : Thread nD τ) arg9 fullShare xi7
                ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LS2) ∗ (∃ f, arg13.view.loc (c : Thread nD τ) ↦[arg13.view.set]{fullShare} arg13.view.writes (Elt F) f LS3)) -∗ K ⟨⟩))
          ⊢ wp frame (wpE (defs₀ (F := F)) Variants.none c none) E (cc1__pairwise_kernel i arg2 harg2 arg3 harg3 arg4 harg4 arg5 harg5 arg6 harg6 arg7 harg7 arg8 harg8 arg9 harg9 arg10 harg10 arg11 harg11 arg12 harg12 arg13 harg13) K } := by
  refine ⟨?_, ?_, ?_, ?_, ?_, ?_, fun xi6 xi7 E K => ?run⟩
  case run =>
    simp only [cc1__pairwise_kernel_eq_skeleton]; unfold cc1__pairwise_kernel_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%f6, %hf6, H6⟩, ⟨%f7, %hf7, H7⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg8.eq_unread hf6; obtain rfl := harg9.eq_unread hf7
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [H6]
    · iexists _; isplitr; · ipureintro; exact harg8.read_unread _
      iexact H6
    isplitl [H7]
    · iexists _; isplitr; · ipureintro; exact harg9.read_unread _
      iexact H7
    isplitl [HS0]; · iexists _; iexact HS0
    isplitl [HS1]; · iexists _; iexact HS1
    isplitl [HS2]; · iexists _; iexact HS2
    iexists _; iexact HS3

end Cert.KernelIdeal.Gen

end
-- ==== Proof.KI.Run1B.lean ====
/-
  The pairwise kernel's body run whole at the first tile of a later row of tiles: the row accumulators reset.  On whole staging memrefs — the four inputs' at their
  contents, the two row outputs' at anything, the two column outputs' at contents handed back untouched, the four accumulators at the contents the point before left — it
  runs to the continuation holding the inputs' as they were and every buffer it stored into with its stores written,
  as pieces (last first) over the accumulators' given contents; the pieces are the witness the run finds.
-/
import proofs.«166571_j42013370090174_1_alg».proof.Proof.KI.Run1A

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
noncomputable def kernelRun1_B (c : Dev nD) (i : grid1.Coords) (arg2 : Memref sig .tc .vmem S512x512 .bf16) (harg2 : arg2.IsWhole) (arg3 : Memref sig .tc .vmem S512x512 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S1x8192 .f32) (harg8 : arg8.IsWhole) (arg9 : Memref sig .tc .vmem S1x8192 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S1x8192 .f32) (harg12 : arg12.IsWhole) (arg13 : Memref sig .tc .vmem S1x8192 .f32) (harg13 : arg13.IsWhole) (hc0 : ¬cond1_0 i) (hc1 : cond1_1 i) (hc2 : ¬cond1_2 i)
    (x0 x1 : Vec F S512x512 .bf16) (x2 : Vec F S512x1 .i32) (x3 : Vec F S1x512 .i32) (xs0 xs1 : Vec F S512x1 .f32) (xs2 xs3 : Vec F S1x8192 .f32) :
    Σ' (L4 : List (View.Piece (Elt F) S512x1 .f32)) (L5 : List (View.Piece (Elt F) S512x1 .f32)) (LS0 : List (View.Piece (Elt F) S512x1 .f32)) (LS1 : List (View.Piece (Elt F) S512x1 .f32)) (LS2 : List (View.Piece (Elt F) S1x8192 .f32)), { LS3 : List (View.Piece (Elt F) S1x8192 .f32) //
      ∀ (xi6 xi7 : Vec F S1x8192 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ (∃ d, owns (c : Thread nD τ) arg7 fullShare d) ∗ owns (c : Thread nD τ) arg8 fullShare xi6 ∗ owns (c : Thread nD τ) arg9 fullShare xi7
            ∗ owns (c : Thread nD τ) arg10 fullShare xs0 ∗ owns (c : Thread nD τ) arg11 fullShare xs1 ∗ owns (c : Thread nD τ) arg12 fullShare xs2 ∗ owns (c : Thread nD τ) arg13 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ owns (c : Thread nD τ) arg8 fullShare xi6 ∗ owns (c : Thread nD τ) arg9 fullShare xi7
                ∗ (arg10.view.loc (c : Thread nD τ) ↦[arg10.view.set]{fullShare} arg10.view.writes (Elt F) (harg10.unread xs0) LS0) ∗ (arg11.view.loc (c : Thread nD τ) ↦[arg11.view.set]{fullShare} arg11.view.writes (Elt F) (harg11.unread xs1) LS1) ∗ (arg12.view.loc (c : Thread nD τ) ↦[arg12.view.set]{fullShare} arg12.view.writes (Elt F) (harg12.unread xs2) LS2) ∗ (arg13.view.loc (c : Thread nD τ) ↦[arg13.view.set]{fullShare} arg13.view.writes (Elt F) (harg13.unread xs3) LS3)) -∗ K ⟨⟩))
          ⊢ wp frame (wpE (defs₀ (F := F)) Variants.none c none) E (cc1__pairwise_kernel i arg2 harg2 arg3 harg3 arg4 harg4 arg5 harg5 arg6 harg6 arg7 harg7 arg8 harg8 arg9 harg9 arg10 harg10 arg11 harg11 arg12 harg12 arg13 harg13) K } := by
  refine ⟨?_, ?_, ?_, ?_, ?_, ?_, fun xi6 xi7 E K => ?run⟩
  case run =>
    simp only [cc1__pairwise_kernel_eq_skeleton]; unfold cc1__pairwise_kernel_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%f6, %hf6, H6⟩, ⟨%f7, %hf7, H7⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg8.eq_unread hf6; obtain rfl := harg9.eq_unread hf7; obtain rfl := harg10.eq_unread hfs0; obtain rfl := harg11.eq_unread hfs1; obtain rfl := harg12.eq_unread hfs2; obtain rfl := harg13.eq_unread hfs3
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [H6]
    · iexists _; isplitr; · ipureintro; exact harg8.read_unread _
      iexact H6
    isplitl [H7]
    · iexists _; isplitr; · ipureintro; exact harg9.read_unread _
      iexact H7
    isplitl [HS0]; · iexact HS0
    isplitl [HS1]; · iexact HS1
    isplitl [HS2]; · iexact HS2
    iexact HS3

end Cert.KernelIdeal.Gen

end
-- ==== Proof.KI.Run1C.lean ====
/-
  The pairwise kernel's body run whole at a tile that is neither first in its row nor the last: nothing reset, nothing copied out.  On whole staging memrefs — the four inputs' at their
  contents, the two row outputs' at anything, the two column outputs' at contents handed back untouched, the four accumulators at the contents the point before left — it
  runs to the continuation holding the inputs' as they were and every buffer it stored into with its stores written,
  as pieces (last first) over the accumulators' given contents; the pieces are the witness the run finds.
-/
import proofs.«166571_j42013370090174_1_alg».proof.Proof.KI.Run1B

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
noncomputable def kernelRun1_C (c : Dev nD) (i : grid1.Coords) (arg2 : Memref sig .tc .vmem S512x512 .bf16) (harg2 : arg2.IsWhole) (arg3 : Memref sig .tc .vmem S512x512 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S1x8192 .f32) (harg8 : arg8.IsWhole) (arg9 : Memref sig .tc .vmem S1x8192 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S1x8192 .f32) (harg12 : arg12.IsWhole) (arg13 : Memref sig .tc .vmem S1x8192 .f32) (harg13 : arg13.IsWhole) (hc0 : ¬cond1_0 i) (hc1 : ¬cond1_1 i) (hc2 : ¬cond1_2 i)
    (x0 x1 : Vec F S512x512 .bf16) (x2 : Vec F S512x1 .i32) (x3 : Vec F S1x512 .i32) (xs0 xs1 : Vec F S512x1 .f32) (xs2 xs3 : Vec F S1x8192 .f32) :
    Σ' (L4 : List (View.Piece (Elt F) S512x1 .f32)) (L5 : List (View.Piece (Elt F) S512x1 .f32)) (LS0 : List (View.Piece (Elt F) S512x1 .f32)) (LS1 : List (View.Piece (Elt F) S512x1 .f32)) (LS2 : List (View.Piece (Elt F) S1x8192 .f32)), { LS3 : List (View.Piece (Elt F) S1x8192 .f32) //
      ∀ (xi6 xi7 : Vec F S1x8192 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ (∃ d, owns (c : Thread nD τ) arg7 fullShare d) ∗ owns (c : Thread nD τ) arg8 fullShare xi6 ∗ owns (c : Thread nD τ) arg9 fullShare xi7
            ∗ owns (c : Thread nD τ) arg10 fullShare xs0 ∗ owns (c : Thread nD τ) arg11 fullShare xs1 ∗ owns (c : Thread nD τ) arg12 fullShare xs2 ∗ owns (c : Thread nD τ) arg13 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ owns (c : Thread nD τ) arg8 fullShare xi6 ∗ owns (c : Thread nD τ) arg9 fullShare xi7
                ∗ (arg10.view.loc (c : Thread nD τ) ↦[arg10.view.set]{fullShare} arg10.view.writes (Elt F) (harg10.unread xs0) LS0) ∗ (arg11.view.loc (c : Thread nD τ) ↦[arg11.view.set]{fullShare} arg11.view.writes (Elt F) (harg11.unread xs1) LS1) ∗ (arg12.view.loc (c : Thread nD τ) ↦[arg12.view.set]{fullShare} arg12.view.writes (Elt F) (harg12.unread xs2) LS2) ∗ (arg13.view.loc (c : Thread nD τ) ↦[arg13.view.set]{fullShare} arg13.view.writes (Elt F) (harg13.unread xs3) LS3)) -∗ K ⟨⟩))
          ⊢ wp frame (wpE (defs₀ (F := F)) Variants.none c none) E (cc1__pairwise_kernel i arg2 harg2 arg3 harg3 arg4 harg4 arg5 harg5 arg6 harg6 arg7 harg7 arg8 harg8 arg9 harg9 arg10 harg10 arg11 harg11 arg12 harg12 arg13 harg13) K } := by
  refine ⟨?_, ?_, ?_, ?_, ?_, ?_, fun xi6 xi7 E K => ?run⟩
  case run =>
    simp only [cc1__pairwise_kernel_eq_skeleton]; unfold cc1__pairwise_kernel_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%f6, %hf6, H6⟩, ⟨%f7, %hf7, H7⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg8.eq_unread hf6; obtain rfl := harg9.eq_unread hf7; obtain rfl := harg10.eq_unread hfs0; obtain rfl := harg11.eq_unread hfs1; obtain rfl := harg12.eq_unread hfs2; obtain rfl := harg13.eq_unread hfs3
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [H6]
    · iexists _; isplitr; · ipureintro; exact harg8.read_unread _
      iexact H6
    isplitl [H7]
    · iexists _; isplitr; · ipureintro; exact harg9.read_unread _
      iexact H7
    isplitl [HS0]; · iexact HS0
    isplitl [HS1]; · iexact HS1
    isplitl [HS2]; · iexact HS2
    iexact HS3

end Cert.KernelIdeal.Gen

end
-- ==== Proof.KI.Run1D.lean ====
/-
  The pairwise kernel's body run whole at the last point: the column accumulators copied out.  On whole staging memrefs — the four inputs' at their
  contents, the two row outputs' at anything, the two column outputs' at anything, the four accumulators at the contents the point before left — it
  runs to the continuation holding the inputs' as they were and every buffer it stored into with its stores written,
  as pieces (last first) over the accumulators' given contents; the pieces are the witness the run finds.
-/
import proofs.«166571_j42013370090174_1_alg».proof.Proof.KI.Run1C

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
noncomputable def kernelRun1_D (c : Dev nD) (i : grid1.Coords) (arg2 : Memref sig .tc .vmem S512x512 .bf16) (harg2 : arg2.IsWhole) (arg3 : Memref sig .tc .vmem S512x512 .bf16) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S1x8192 .f32) (harg8 : arg8.IsWhole) (arg9 : Memref sig .tc .vmem S1x8192 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S1x8192 .f32) (harg12 : arg12.IsWhole) (arg13 : Memref sig .tc .vmem S1x8192 .f32) (harg13 : arg13.IsWhole) (hc0 : ¬cond1_0 i) (hc1 : ¬cond1_1 i) (hc2 : cond1_2 i)
    (x0 x1 : Vec F S512x512 .bf16) (x2 : Vec F S512x1 .i32) (x3 : Vec F S1x512 .i32) (xs0 xs1 : Vec F S512x1 .f32) (xs2 xs3 : Vec F S1x8192 .f32) :
    Σ' (L4 : List (View.Piece (Elt F) S512x1 .f32)) (L5 : List (View.Piece (Elt F) S512x1 .f32)) (L6 : List (View.Piece (Elt F) S1x8192 .f32)) (L7 : List (View.Piece (Elt F) S1x8192 .f32)) (LS0 : List (View.Piece (Elt F) S512x1 .f32)) (LS1 : List (View.Piece (Elt F) S512x1 .f32)) (LS2 : List (View.Piece (Elt F) S1x8192 .f32)), { LS3 : List (View.Piece (Elt F) S1x8192 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ owns (c : Thread nD τ) arg10 fullShare xs0 ∗ owns (c : Thread nD τ) arg11 fullShare xs1 ∗ owns (c : Thread nD τ) arg12 fullShare xs2 ∗ owns (c : Thread nD τ) arg13 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7)
                ∗ (arg10.view.loc (c : Thread nD τ) ↦[arg10.view.set]{fullShare} arg10.view.writes (Elt F) (harg10.unread xs0) LS0) ∗ (arg11.view.loc (c : Thread nD τ) ↦[arg11.view.set]{fullShare} arg11.view.writes (Elt F) (harg11.unread xs1) LS1) ∗ (arg12.view.loc (c : Thread nD τ) ↦[arg12.view.set]{fullShare} arg12.view.writes (Elt F) (harg12.unread xs2) LS2) ∗ (arg13.view.loc (c : Thread nD τ) ↦[arg13.view.set]{fullShare} arg13.view.writes (Elt F) (harg13.unread xs3) LS3)) -∗ K ⟨⟩))
          ⊢ wp frame (wpE (defs₀ (F := F)) Variants.none c none) E (cc1__pairwise_kernel i arg2 harg2 arg3 harg3 arg4 harg4 arg5 harg5 arg6 harg6 arg7 harg7 arg8 harg8 arg9 harg9 arg10 harg10 arg11 harg11 arg12 harg12 arg13 harg13) K } := by
  refine ⟨?_, ?_, ?_, ?_, ?_, ?_, ?_, ?_, fun E K => ?run⟩
  case run =>
    simp only [cc1__pairwise_kernel_eq_skeleton]; unfold cc1__pairwise_kernel_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg10.eq_unread hfs0; obtain rfl := harg11.eq_unread hfs1; obtain rfl := harg12.eq_unread hfs2; obtain rfl := harg13.eq_unread hfs3
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [H6]; · iexists _; iexact H6
    isplitl [H7]; · iexists _; iexact H7
    isplitl [HS0]; · iexact HS0
    isplitl [HS1]; · iexact HS1
    isplitl [HS2]; · iexact HS2
    iexact HS3

end Cert.KernelIdeal.Gen

end
-- ==== Proof.KI.Acc1.lean ====
/-
  The second kernel region (the pairwise tiles) at any buffer contents `V` found on entry: what its four output
  windows' buffers and its four accumulators hold after each grid point, by recursion on the point — the first point
  resets everything, the first tile of each later row of tiles resets the row accumulators, the last point also copies
  the column accumulators out, every other point only adds its tile's sums in —; the region's invariant carrying the
  four accumulators at those contents from point to point; the pipeline's proof data; and the body obligation.
-/
import proofs.«166571_j42013370090174_1_alg».proof.Proof.KI.Run1D

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

theorem N_1' : cfg1.N = 256 := N_1

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- One staging buffer of each output window, and each accumulator, as the view its contents are stated through. -/
abbrev VO1_4 : View sig .tc .vmem S512x1 .f32 := (Memref.whole cc1_stg4_0 : Memref sig .tc .vmem S512x1 .f32).view
abbrev VO1_5 : View sig .tc .vmem S512x1 .f32 := (Memref.whole cc1_stg5_0 : Memref sig .tc .vmem S512x1 .f32).view
abbrev VO1_6 : View sig .tc .vmem S1x8192 .f32 := (Memref.whole cc1_stg6_0 : Memref sig .tc .vmem S1x8192 .f32).view
abbrev VO1_7 : View sig .tc .vmem S1x8192 .f32 := (Memref.whole cc1_stg7_0 : Memref sig .tc .vmem S1x8192 .f32).view
abbrev VS1_0 : View sig .tc .vmem S512x1 .f32 := scM1_0.view
abbrev VS1_1 : View sig .tc .vmem S512x1 .f32 := scM1_1.view
abbrev VS1_2 : View sig .tc .vmem S1x8192 .f32 := scM1_2.view
abbrev VS1_3 : View sig .tc .vmem S1x8192 .f32 := scM1_3.view
abbrev hsc1_0 : scM1_0.IsWhole := Memref.isWhole_whole _
abbrev hsc1_1 : scM1_1.IsWhole := Memref.isWhole_whole _
abbrev hsc1_2 : scM1_2.IsWhole := Memref.isWhole_whole _
abbrev hsc1_3 : scM1_3.IsWhole := Memref.isWhole_whole _

/-- What the four output windows' buffers (row sums, masked row sums, column sums, masked column sums) and the four
    accumulators hold after a point. -/
structure St1 (F : FTy → Type) where
  o4 : Vec F S512x1 .f32
  o5 : Vec F S512x1 .f32
  o6 : Vec F S1x8192 .f32
  o7 : Vec F S1x8192 .f32
  s0 : Vec F S512x1 .f32
  s1 : Vec F S512x1 .f32
  s2 : Vec F S1x8192 .f32
  s3 : Vec F S1x8192 .f32

/-- The body's run at point `t` in case A, at the point's memrefs and input blocks. -/
abbrev rA (c : Dev nD) (t : Fin cfg1.N) (h0 : cond1_0 (grid1.coords t)) (h1 : cond1_1 (grid1.coords t)) (h2 : ¬cond1_2 (grid1.coords t)) :=
  kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 hsc1_0 scM1_1 hsc1_1 scM1_2 hsc1_2 scM1_3 hsc1_3 h0 h1 h2 (iblk1 V c 0 t) (iblk1 V c 1 t) (iblk1 V c 2 t) (iblk1 V c 3 t)
/-- The body's run at point `t` in case B, at the point's memrefs and input blocks over the accumulators' previous contents. -/
abbrev rB (c : Dev nD) (t : Fin cfg1.N) (h0 : ¬cond1_0 (grid1.coords t)) (h1 : cond1_1 (grid1.coords t)) (h2 : ¬cond1_2 (grid1.coords t)) (p : St1 F) :=
  kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 hsc1_0 scM1_1 hsc1_1 scM1_2 hsc1_2 scM1_3 hsc1_3 h0 h1 h2 (iblk1 V c 0 t) (iblk1 V c 1 t) (iblk1 V c 2 t) (iblk1 V c 3 t) p.s0 p.s1 p.s2 p.s3
/-- The body's run at point `t` in case C, at the point's memrefs and input blocks over the accumulators' previous contents. -/
abbrev rC (c : Dev nD) (t : Fin cfg1.N) (h0 : ¬cond1_0 (grid1.coords t)) (h1 : ¬cond1_1 (grid1.coords t)) (h2 : ¬cond1_2 (grid1.coords t)) (p : St1 F) :=
  kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 hsc1_0 scM1_1 hsc1_1 scM1_2 hsc1_2 scM1_3 hsc1_3 h0 h1 h2 (iblk1 V c 0 t) (iblk1 V c 1 t) (iblk1 V c 2 t) (iblk1 V c 3 t) p.s0 p.s1 p.s2 p.s3
/-- The body's run at point `t` in case D, at the point's memrefs and input blocks over the accumulators' previous contents. -/
abbrev rD (c : Dev nD) (t : Fin cfg1.N) (h0 : ¬cond1_0 (grid1.coords t)) (h1 : ¬cond1_1 (grid1.coords t)) (h2 : cond1_2 (grid1.coords t)) (p : St1 F) :=
  kernelRun1_D c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 hsc1_0 scM1_1 hsc1_1 scM1_2 hsc1_2 scM1_3 hsc1_3 h0 h1 h2 (iblk1 V c 0 t) (iblk1 V c 1 t) (iblk1 V c 2 t) (iblk1 V c 3 t) p.s0 p.s1 p.s2 p.s3

/-- What case A leaves at point `t`: each buffer's pieces read back. -/
def stA (c : Dev nD) (t : Fin cfg1.N) (h0 : cond1_0 (grid1.coords t)) (h1 : cond1_1 (grid1.coords t)) (h2 : ¬cond1_2 (grid1.coords t)) : St1 F where
  o4 := VO1_4.read (Elt F) (VO1_4.writes (Elt F) VO1_4.junk (rA V c t h0 h1 h2).1)
  o5 := VO1_5.read (Elt F) (VO1_5.writes (Elt F) VO1_5.junk (rA V c t h0 h1 h2).2.1)
  o6 := View.canon []
  o7 := View.canon []
  s0 := VS1_0.read (Elt F) (VS1_0.writes (Elt F) VS1_0.junk (rA V c t h0 h1 h2).2.2.1)
  s1 := VS1_1.read (Elt F) (VS1_1.writes (Elt F) VS1_1.junk (rA V c t h0 h1 h2).2.2.2.1)
  s2 := VS1_2.read (Elt F) (VS1_2.writes (Elt F) VS1_2.junk (rA V c t h0 h1 h2).2.2.2.2.1)
  s3 := VS1_3.read (Elt F) (VS1_3.writes (Elt F) VS1_3.junk (rA V c t h0 h1 h2).2.2.2.2.2.1)

/-- What case B leaves at point `t`: each buffer's pieces read back. -/
def stB (c : Dev nD) (t : Fin cfg1.N) (h0 : ¬cond1_0 (grid1.coords t)) (h1 : cond1_1 (grid1.coords t)) (h2 : ¬cond1_2 (grid1.coords t)) (p : St1 F) : St1 F where
  o4 := VO1_4.read (Elt F) (VO1_4.writes (Elt F) VO1_4.junk (rB V c t h0 h1 h2 p).1)
  o5 := VO1_5.read (Elt F) (VO1_5.writes (Elt F) VO1_5.junk (rB V c t h0 h1 h2 p).2.1)
  o6 := View.canon []
  o7 := View.canon []
  s0 := VS1_0.read (Elt F) (VS1_0.writes (Elt F) (hsc1_0.unread p.s0) (rB V c t h0 h1 h2 p).2.2.1)
  s1 := VS1_1.read (Elt F) (VS1_1.writes (Elt F) (hsc1_1.unread p.s1) (rB V c t h0 h1 h2 p).2.2.2.1)
  s2 := VS1_2.read (Elt F) (VS1_2.writes (Elt F) (hsc1_2.unread p.s2) (rB V c t h0 h1 h2 p).2.2.2.2.1)
  s3 := VS1_3.read (Elt F) (VS1_3.writes (Elt F) (hsc1_3.unread p.s3) (rB V c t h0 h1 h2 p).2.2.2.2.2.1)

/-- What case C leaves at point `t`: each buffer's pieces read back. -/
def stC (c : Dev nD) (t : Fin cfg1.N) (h0 : ¬cond1_0 (grid1.coords t)) (h1 : ¬cond1_1 (grid1.coords t)) (h2 : ¬cond1_2 (grid1.coords t)) (p : St1 F) : St1 F where
  o4 := VO1_4.read (Elt F) (VO1_4.writes (Elt F) VO1_4.junk (rC V c t h0 h1 h2 p).1)
  o5 := VO1_5.read (Elt F) (VO1_5.writes (Elt F) VO1_5.junk (rC V c t h0 h1 h2 p).2.1)
  o6 := View.canon []
  o7 := View.canon []
  s0 := VS1_0.read (Elt F) (VS1_0.writes (Elt F) (hsc1_0.unread p.s0) (rC V c t h0 h1 h2 p).2.2.1)
  s1 := VS1_1.read (Elt F) (VS1_1.writes (Elt F) (hsc1_1.unread p.s1) (rC V c t h0 h1 h2 p).2.2.2.1)
  s2 := VS1_2.read (Elt F) (VS1_2.writes (Elt F) (hsc1_2.unread p.s2) (rC V c t h0 h1 h2 p).2.2.2.2.1)
  s3 := VS1_3.read (Elt F) (VS1_3.writes (Elt F) (hsc1_3.unread p.s3) (rC V c t h0 h1 h2 p).2.2.2.2.2.1)

/-- What case D leaves at point `t`: each buffer's pieces read back. -/
def stD (c : Dev nD) (t : Fin cfg1.N) (h0 : ¬cond1_0 (grid1.coords t)) (h1 : ¬cond1_1 (grid1.coords t)) (h2 : cond1_2 (grid1.coords t)) (p : St1 F) : St1 F where
  o4 := VO1_4.read (Elt F) (VO1_4.writes (Elt F) VO1_4.junk (rD V c t h0 h1 h2 p).1)
  o5 := VO1_5.read (Elt F) (VO1_5.writes (Elt F) VO1_5.junk (rD V c t h0 h1 h2 p).2.1)
  o6 := VO1_6.read (Elt F) (VO1_6.writes (Elt F) VO1_6.junk (rD V c t h0 h1 h2 p).2.2.1)
  o7 := VO1_7.read (Elt F) (VO1_7.writes (Elt F) VO1_7.junk (rD V c t h0 h1 h2 p).2.2.2.1)
  s0 := VS1_0.read (Elt F) (VS1_0.writes (Elt F) (hsc1_0.unread p.s0) (rD V c t h0 h1 h2 p).2.2.2.2.1)
  s1 := VS1_1.read (Elt F) (VS1_1.writes (Elt F) (hsc1_1.unread p.s1) (rD V c t h0 h1 h2 p).2.2.2.2.2.1)
  s2 := VS1_2.read (Elt F) (VS1_2.writes (Elt F) (hsc1_2.unread p.s2) (rD V c t h0 h1 h2 p).2.2.2.2.2.2.1)
  s3 := VS1_3.read (Elt F) (VS1_3.writes (Elt F) (hsc1_3.unread p.s3) (rD V c t h0 h1 h2 p).2.2.2.2.2.2.2.1)

theorem cover1_A_4 (c : Dev nD) (t : Fin cfg1.N) (h0 : cond1_0 (grid1.coords t)) (h1 : cond1_1 (grid1.coords t)) (h2 : ¬cond1_2 (grid1.coords t)) (y : S512x1.Idx) : ∃ pc ∈ (rA V c t h0 h1 h2).1, y ∈ pc.1.set :=
  View.cover_of_tiledL (rA V c t h0 h1 h2).1 S512x1.size (by sl_kernel_rfl) y
theorem cover1_A_5 (c : Dev nD) (t : Fin cfg1.N) (h0 : cond1_0 (grid1.coords t)) (h1 : cond1_1 (grid1.coords t)) (h2 : ¬cond1_2 (grid1.coords t)) (y : S512x1.Idx) : ∃ pc ∈ (rA V c t h0 h1 h2).2.1, y ∈ pc.1.set :=
  View.cover_of_tiledL (rA V c t h0 h1 h2).2.1 S512x1.size (by sl_kernel_rfl) y
theorem scover1_A_0 (c : Dev nD) (t : Fin cfg1.N) (h0 : cond1_0 (grid1.coords t)) (h1 : cond1_1 (grid1.coords t)) (h2 : ¬cond1_2 (grid1.coords t)) (y : S512x1.Idx) : ∃ pc ∈ (rA V c t h0 h1 h2).2.2.1, y ∈ pc.1.set :=
  View.cover_of_tiledL (rA V c t h0 h1 h2).2.2.1 S512x1.size (by sl_kernel_rfl) y
theorem scover1_A_1 (c : Dev nD) (t : Fin cfg1.N) (h0 : cond1_0 (grid1.coords t)) (h1 : cond1_1 (grid1.coords t)) (h2 : ¬cond1_2 (grid1.coords t)) (y : S512x1.Idx) : ∃ pc ∈ (rA V c t h0 h1 h2).2.2.2.1, y ∈ pc.1.set :=
  View.cover_of_tiledL (rA V c t h0 h1 h2).2.2.2.1 S512x1.size (by sl_kernel_rfl) y
/-- The column accumulators at the first point: the earlier of the two stores is the whole-buffer reset, which alone covers. -/
theorem scover1_A_2 (c : Dev nD) (t : Fin cfg1.N) (h0 : cond1_0 (grid1.coords t)) (h1 : cond1_1 (grid1.coords t)) (h2 : ¬cond1_2 (grid1.coords t)) (y : S1x8192.Idx) : ∃ pc ∈ (rA V c t h0 h1 h2).2.2.2.2.1, y ∈ pc.1.set := by
  unfold rA kernelRun1_A; dsimp only; sl_unfold_words
  obtain ⟨pc, hm, hy⟩ := View.cover_of_tiled [(⟨Rect.unit (s := S1x8192) ![0, 0] S1x8192.size inb_S1x8192_S1x8192_0_0, k1_pay1 (F := F)⟩ : View.Piece (Elt F) S1x8192 .f32)] S1x8192.size (by rfl) y
  exact ⟨pc, List.mem_cons_of_mem _ hm, hy⟩
theorem scover1_A_3 (c : Dev nD) (t : Fin cfg1.N) (h0 : cond1_0 (grid1.coords t)) (h1 : cond1_1 (grid1.coords t)) (h2 : ¬cond1_2 (grid1.coords t)) (y : S1x8192.Idx) : ∃ pc ∈ (rA V c t h0 h1 h2).2.2.2.2.2.1, y ∈ pc.1.set := by
  unfold rA kernelRun1_A; dsimp only; sl_unfold_words
  obtain ⟨pc, hm, hy⟩ := View.cover_of_tiled [(⟨Rect.unit (s := S1x8192) ![0, 0] S1x8192.size inb_S1x8192_S1x8192_0_0, k1_pay2 (F := F)⟩ : View.Piece (Elt F) S1x8192 .f32)] S1x8192.size (by rfl) y
  exact ⟨pc, List.mem_cons_of_mem _ hm, hy⟩
theorem cover1_B_4 (c : Dev nD) (t : Fin cfg1.N) (h0 : ¬cond1_0 (grid1.coords t)) (h1 : cond1_1 (grid1.coords t)) (h2 : ¬cond1_2 (grid1.coords t)) (p : St1 F) (y : S512x1.Idx) : ∃ pc ∈ (rB V c t h0 h1 h2 p).1, y ∈ pc.1.set :=
  View.cover_of_tiledL (rB V c t h0 h1 h2 p).1 S512x1.size (by sl_kernel_rfl) y
theorem cover1_B_5 (c : Dev nD) (t : Fin cfg1.N) (h0 : ¬cond1_0 (grid1.coords t)) (h1 : cond1_1 (grid1.coords t)) (h2 : ¬cond1_2 (grid1.coords t)) (p : St1 F) (y : S512x1.Idx) : ∃ pc ∈ (rB V c t h0 h1 h2 p).2.1, y ∈ pc.1.set :=
  View.cover_of_tiledL (rB V c t h0 h1 h2 p).2.1 S512x1.size (by sl_kernel_rfl) y
theorem cover1_C_4 (c : Dev nD) (t : Fin cfg1.N) (h0 : ¬cond1_0 (grid1.coords t)) (h1 : ¬cond1_1 (grid1.coords t)) (h2 : ¬cond1_2 (grid1.coords t)) (p : St1 F) (y : S512x1.Idx) : ∃ pc ∈ (rC V c t h0 h1 h2 p).1, y ∈ pc.1.set :=
  View.cover_of_tiledL (rC V c t h0 h1 h2 p).1 S512x1.size (by sl_kernel_rfl) y
theorem cover1_C_5 (c : Dev nD) (t : Fin cfg1.N) (h0 : ¬cond1_0 (grid1.coords t)) (h1 : ¬cond1_1 (grid1.coords t)) (h2 : ¬cond1_2 (grid1.coords t)) (p : St1 F) (y : S512x1.Idx) : ∃ pc ∈ (rC V c t h0 h1 h2 p).2.1, y ∈ pc.1.set :=
  View.cover_of_tiledL (rC V c t h0 h1 h2 p).2.1 S512x1.size (by sl_kernel_rfl) y
theorem cover1_D_4 (c : Dev nD) (t : Fin cfg1.N) (h0 : ¬cond1_0 (grid1.coords t)) (h1 : ¬cond1_1 (grid1.coords t)) (h2 : cond1_2 (grid1.coords t)) (p : St1 F) (y : S512x1.Idx) : ∃ pc ∈ (rD V c t h0 h1 h2 p).1, y ∈ pc.1.set :=
  View.cover_of_tiledL (rD V c t h0 h1 h2 p).1 S512x1.size (by sl_kernel_rfl) y
theorem cover1_D_5 (c : Dev nD) (t : Fin cfg1.N) (h0 : ¬cond1_0 (grid1.coords t)) (h1 : ¬cond1_1 (grid1.coords t)) (h2 : cond1_2 (grid1.coords t)) (p : St1 F) (y : S512x1.Idx) : ∃ pc ∈ (rD V c t h0 h1 h2 p).2.1, y ∈ pc.1.set :=
  View.cover_of_tiledL (rD V c t h0 h1 h2 p).2.1 S512x1.size (by sl_kernel_rfl) y
theorem cover1_D_6 (c : Dev nD) (t : Fin cfg1.N) (h0 : ¬cond1_0 (grid1.coords t)) (h1 : ¬cond1_1 (grid1.coords t)) (h2 : cond1_2 (grid1.coords t)) (p : St1 F) (y : S1x8192.Idx) : ∃ pc ∈ (rD V c t h0 h1 h2 p).2.2.1, y ∈ pc.1.set :=
  View.cover_of_tiledL (rD V c t h0 h1 h2 p).2.2.1 S1x8192.size (by sl_kernel_rfl) y
theorem cover1_D_7 (c : Dev nD) (t : Fin cfg1.N) (h0 : ¬cond1_0 (grid1.coords t)) (h1 : ¬cond1_1 (grid1.coords t)) (h2 : cond1_2 (grid1.coords t)) (p : St1 F) (y : S1x8192.Idx) : ∃ pc ∈ (rD V c t h0 h1 h2 p).2.2.2.1, y ∈ pc.1.set :=
  View.cover_of_tiledL (rD V c t h0 h1 h2 p).2.2.2.1 S1x8192.size (by sl_kernel_rfl) y

/-! ## The branch conditions at a point, from the closed forms -/
theorem cA0 (t : Fin cfg1.N) (hz : t.val % 256 = 0) : cond1_0 (grid1.coords t) := (hcond1_0 t).mpr hz
theorem cA1 (t : Fin cfg1.N) (hz : t.val % 256 = 0) : cond1_1 (grid1.coords t) := (hcond1_1 t).mpr (by omega)
theorem cA2 (t : Fin cfg1.N) (hz : t.val % 256 = 0) : ¬cond1_2 (grid1.coords t) := fun h => by have := (hcond1_2 t).mp h; omega
theorem cB0 (t : Fin cfg1.N) (hz : ¬t.val % 256 = 0) : ¬cond1_0 (grid1.coords t) := fun h => hz ((hcond1_0 t).mp h)
theorem cB1 (t : Fin cfg1.N) (h16 : t.val % 16 = 0) : cond1_1 (grid1.coords t) := (hcond1_1 t).mpr h16
theorem cB2 (t : Fin cfg1.N) (h16 : t.val % 16 = 0) : ¬cond1_2 (grid1.coords t) := fun h => by have := (hcond1_2 t).mp h; omega
theorem cC0 (t : Fin cfg1.N) (h16 : ¬t.val % 16 = 0) : ¬cond1_0 (grid1.coords t) := fun h => by have := (hcond1_0 t).mp h; omega
theorem cC1 (t : Fin cfg1.N) (h16 : ¬t.val % 16 = 0) : ¬cond1_1 (grid1.coords t) := fun h => h16 ((hcond1_1 t).mp h)
theorem cC2 (t : Fin cfg1.N) (hl : ¬t.val % 256 = 255) : ¬cond1_2 (grid1.coords t) := fun h => hl ((hcond1_2 t).mp h)
theorem cD0 (t : Fin cfg1.N) (hl : t.val % 256 = 255) : ¬cond1_0 (grid1.coords t) := fun h => by have := (hcond1_0 t).mp h; omega
theorem cD1 (t : Fin cfg1.N) (h16 : ¬t.val % 16 = 0) : ¬cond1_1 (grid1.coords t) := fun h => h16 ((hcond1_1 t).mp h)
theorem cD2 (t : Fin cfg1.N) (hl : t.val % 256 = 255) : cond1_2 (grid1.coords t) := (hcond1_2 t).mpr hl

/-- THE ACCUMULATION: what the outputs' buffers and the accumulators hold after the body at position `n`. -/
def outsAt1 (c : Dev nD) : (n : ℕ) → n < cfg1.N → St1 F
  | 0, hn => stA V c ⟨0, hn⟩ (cA0 ⟨0, hn⟩ (Nat.zero_mod _)) (cA1 ⟨0, hn⟩ (Nat.zero_mod _)) (cA2 ⟨0, hn⟩ (Nat.zero_mod _))
  | n + 1, hn =>
    if h16 : (n + 1) % 16 = 0 then
      stB V c ⟨n + 1, hn⟩ (cB0 ⟨n + 1, hn⟩ (by have hN : n + 1 < 256 := lt_of_lt_of_eq hn N_1'; show ¬(n + 1) % 256 = 0; omega)) (cB1 ⟨n + 1, hn⟩ h16) (cB2 ⟨n + 1, hn⟩ h16) (outsAt1 c n (Nat.lt_of_succ_lt hn))
    else if hl : (n + 1) % 256 = 255 then
      stD V c ⟨n + 1, hn⟩ (cD0 ⟨n + 1, hn⟩ hl) (cD1 ⟨n + 1, hn⟩ h16) (cD2 ⟨n + 1, hn⟩ hl) (outsAt1 c n (Nat.lt_of_succ_lt hn))
    else
      stC V c ⟨n + 1, hn⟩ (cC0 ⟨n + 1, hn⟩ h16) (cC1 ⟨n + 1, hn⟩ h16) (cC2 ⟨n + 1, hn⟩ hl) (outsAt1 c n (Nat.lt_of_succ_lt hn))

theorem outsAt1_A (c : Dev nD) (t : Fin cfg1.N) (hz : t.val % 256 = 0) :
    outsAt1 V c t.val t.isLt = stA V c t (cA0 t hz) (cA1 t hz) (cA2 t hz) := by
  obtain ⟨n, hn⟩ := t
  cases n with
  | zero => exact rfl
  | succ n => exact (by exfalso; have hN : n + 1 < 256 := lt_of_lt_of_eq hn N_1'; (try dsimp only at hz); omega)
theorem outsAt1_B (c : Dev nD) (t : Fin cfg1.N) (hz : ¬t.val % 256 = 0) (h16 : t.val % 16 = 0) :
    outsAt1 V c t.val t.isLt = stB V c t (cB0 t hz) (cB1 t h16) (cB2 t h16) (outsAt1 V c (t.val - 1) (Nat.lt_of_le_of_lt (Nat.sub_le _ _) t.isLt)) := by
  obtain ⟨n, hn⟩ := t
  cases n with
  | zero => exact (by exfalso; (try dsimp only at hz); exact absurd (Nat.zero_mod _) hz)
  | succ n => exact (dif_pos h16).trans rfl
theorem outsAt1_D (c : Dev nD) (t : Fin cfg1.N) (h16 : ¬t.val % 16 = 0) (hl : t.val % 256 = 255) :
    outsAt1 V c t.val t.isLt = stD V c t (cD0 t hl) (cD1 t h16) (cD2 t hl) (outsAt1 V c (t.val - 1) (Nat.lt_of_le_of_lt (Nat.sub_le _ _) t.isLt)) := by
  obtain ⟨n, hn⟩ := t
  cases n with
  | zero => exact (by exfalso; (try dsimp only at h16); exact absurd (Nat.zero_mod _) h16)
  | succ n => exact (dif_neg h16).trans ((dif_pos hl).trans rfl)
theorem outsAt1_C (c : Dev nD) (t : Fin cfg1.N) (h16 : ¬t.val % 16 = 0) (hl : ¬t.val % 256 = 255) :
    outsAt1 V c t.val t.isLt = stC V c t (cC0 t h16) (cC1 t h16) (cC2 t hl) (outsAt1 V c (t.val - 1) (Nat.lt_of_le_of_lt (Nat.sub_le _ _) t.isLt)) := by
  obtain ⟨n, hn⟩ := t
  cases n with
  | zero => exact (by exfalso; (try dsimp only at h16); exact absurd (Nat.zero_mod _) h16)
  | succ n => exact (dif_neg h16).trans ((dif_neg hl).trans rfl)

/-! ## The region's invariant -/

/-- The scoped rest with the four accumulators at given assertions, and the generator register at some state. -/
def chain1 (c : Dev nD) (S0 S1 S2 S3 : sProp 𝕄) : sProp 𝕄 :=
  iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f)
      ∗ S0 ∗ S1 ∗ S2 ∗ S3) ∗ (∃ r, prngReg c r))
/-- The scoped buffers that are none of this region's: the first region's staging buffers, at anything. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f))

theorem chain1_out (c : Dev nD) (S0 S1 S2 S3 : sProp 𝕄) :
    chain1 c S0 S1 S2 S3 ⊢ iprop(rest1 c ∗ (∃ r, prngReg c r) ∗ S0 ∗ S1 ∗ S2 ∗ S3) := by
  unfold chain1 rest1
  iintro ⟨⟨A1, A2, A3, A4, A5, A6, A7, A8, H0, H1, H2, H3⟩, Hg⟩
  isplitl [A1 A2 A3 A4 A5 A6 A7 A8]
  · isplitl [A1]; · iexact A1
    isplitl [A2]; · iexact A2
    isplitl [A3]; · iexact A3
    isplitl [A4]; · iexact A4
    isplitl [A5]; · iexact A5
    isplitl [A6]; · iexact A6
    isplitl [A7]; · iexact A7
    iexact A8
  isplitl [Hg]; · iexact Hg
  isplitl [H0]; · iexact H0
  isplitl [H1]; · iexact H1
  isplitl [H2]; · iexact H2
  iexact H3
theorem chain1_in (c : Dev nD) (S0 S1 S2 S3 : sProp 𝕄) :
    iprop(rest1 c ∗ (∃ r, prngReg c r) ∗ S0 ∗ S1 ∗ S2 ∗ S3) ⊢ chain1 c S0 S1 S2 S3 := by
  unfold chain1 rest1
  iintro ⟨⟨A1, A2, A3, A4, A5, A6, A7, A8⟩, Hg, H0, H1, H2, H3⟩
  isplitr [Hg]
  · isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [H0]; · iexact H0
    isplitl [H1]; · iexact H1
    isplitl [H2]; · iexact H2
    iexact H3
  iexact Hg

theorem PhiA1_chain (c : Dev nD) :
    (Pipeline.ΦA spec1 c : sProp 𝕄) = chain1 c iprop(∃ d, owns (c : Thread nD τ) scM1_0 fullShare d) iprop(∃ d, owns (c : Thread nD τ) scM1_1 fullShare d)
      iprop(∃ d, owns (c : Thread nD τ) scM1_2 fullShare d) iprop(∃ d, owns (c : Thread nD τ) scM1_3 fullShare d) := by
  rw [PhiA1_eq]; rfl

/-- The region invariant before position `n`: before the first point the class's (every accumulator at anything);
    afterwards each accumulator at what the point before left in it. -/
def PhiS (c : Dev nD) : (n : ℕ) → n ≤ cfg1.N → sProp 𝕄
  | 0, _ => Pipeline.ΦA spec1 c
  | n + 1, hn => chain1 c (owns (c : Thread nD τ) scM1_0 fullShare (outsAt1 V c n hn).s0) (owns (c : Thread nD τ) scM1_1 fullShare (outsAt1 V c n hn).s1)
      (owns (c : Thread nD τ) scM1_2 fullShare (outsAt1 V c n hn).s2) (owns (c : Thread nD τ) scM1_3 fullShare (outsAt1 V c n hn).s3)

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = chain1 c (owns (c : Thread nD τ) scM1_0 fullShare (outsAt1 V c n hn).s0) (owns (c : Thread nD τ) scM1_1 fullShare (outsAt1 V c n hn).s1)
      (owns (c : Thread nD τ) scM1_2 fullShare (outsAt1 V c n hn).s2) (owns (c : Thread nD τ) scM1_3 fullShare (outsAt1 V c n hn).s3) := rfl
theorem PhiS_pos (c : Dev nD) (n : ℕ) (h : n ≤ cfg1.N) (hz : n ≠ 0) :
    PhiS V c n h = chain1 c (owns (c : Thread nD τ) scM1_0 fullShare (outsAt1 V c (n - 1) (by omega)).s0) (owns (c : Thread nD τ) scM1_1 fullShare (outsAt1 V c (n - 1) (by omega)).s1)
      (owns (c : Thread nD τ) scM1_2 fullShare (outsAt1 V c (n - 1) (by omega)).s2) (owns (c : Thread nD τ) scM1_3 fullShare (outsAt1 V c (n - 1) (by omega)).s3) := by
  cases n with
  | zero => exact absurd rfl hz
  | succ n => rfl

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).o4
    | ⟨5, _⟩ => (outsAt1 V c t.val t.isLt).o5
    | ⟨6, _⟩ => (outsAt1 V c t.val t.isLt).o6
    | ⟨7, _⟩ => (outsAt1 V c t.val t.isLt).o7
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).o4 := by dsimp only [dat1]
theorem after1_5 (c : Dev nD) (t : Fin cfg1.N) : (dat1 V c).after 5 t = (outsAt1 V c t.val t.isLt).o5 := by dsimp only [dat1]
theorem after1_6 (c : Dev nD) (t : Fin cfg1.N) : (dat1 V c).after 6 t = (outsAt1 V c t.val t.isLt).o6 := by dsimp only [dat1]
theorem after1_7 (c : Dev nD) (t : Fin cfg1.N) : (dat1 V c).after 7 t = (outsAt1 V c t.val t.isLt).o7 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t)

set_option maxHeartbeats 4000000 in
/-- The body at the first point: every accumulator found at anything. -/
theorem sound_body1_A (c : Dev nD) (t : Fin cfg1.N) (hz : t.val % 256 = 0) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS V c (t.val + 1) t.isLt from rfl, PhiS_succ]
  have hN : t.val < 256 := lt_of_lt_of_eq t.isLt N_1'
  rw [PhiS_castSucc V c t, PhiS_zero V c _ _ (by omega), PhiA1_chain]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  rw [Dat.leavesExact_idle (dat1 V c) 6 t (idleAt1_6 t (cA2 t hz)) (noFlush1_6 t (cA2 t hz))]
  rw [Dat.leavesExact_idle (dat1 V c) 7 t (idleAt1_7 t (cA2 t hz)) (noFlush1_7 t (cA2 t hz))]
  rw [outsAt1_A V c t hz]
  unfold stA; (try dsimp only)
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  ihave HΦ' := chain1_out c _ _ _ _ $$ HΦ
  icases HΦ' with ⟨HR, Hg, HS0, HS1, HS2, HS3⟩
  iapply ((rA V c t (cA0 t hz) (cA1 t hz) (cA2 t hz)).2.2.2.2.2.2 _ _ Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexact H6
  isplitl [H7]; · iexact H7
  isplitl [HS0]; · iexact HS0
  isplitl [HS1]; · iexact HS1
  isplitl [HS2]; · iexact HS2
  isplitl [HS3]; · iexact HS3
  iintro ⟨H0, H1, H2, H3, ⟨%e4, H4⟩, ⟨%e5, H5⟩, H6, H7, ⟨%es0, HS0⟩, ⟨%es1, HS1⟩, ⟨%es2, HS2⟩, ⟨%es3, HS3⟩⟩
  isplitl [HR Hg HS0 HS1 HS2 HS3]
  · iapply (chain1_in c _ _ _ _)
    isplitl [HR]; · iexact HR
    isplitl [Hg]; · iexact Hg
    isplitl [HS0]
    · unfold owns; iexists _; isplitr
      swap; · iexact HS0
      ipureintro; exact View.read_writes_of_cover _ _ _ _ _ (scover1_A_0 V c t _ _ _)
    isplitl [HS1]
    · unfold owns; iexists _; isplitr
      swap; · iexact HS1
      ipureintro; exact View.read_writes_of_cover _ _ _ _ _ (scover1_A_1 V c t _ _ _)
    isplitl [HS2]
    · unfold owns; iexists _; isplitr
      swap; · iexact HS2
      ipureintro; exact View.read_writes_of_cover _ _ _ _ _ (scover1_A_2 V c t _ _ _)
    · unfold owns; iexists _; isplitr
      swap; · iexact HS3
      ipureintro; exact View.read_writes_of_cover _ _ _ _ _ (scover1_A_3 V c t _ _ _)
  isplitl [Ho]; · iexact Ho
  isplitl [H0]; · iexact H0
  isplitl [H1]; · iexact H1
  isplitl [H2]; · iexact H2
  isplitl [H3]; · iexact H3
  isplitl [H4]
  · unfold owns; iexists _; isplitr
    swap; · iexact H4
    ipureintro; exact View.read_writes_of_cover _ _ _ _ _ (cover1_A_4 V c t _ _ _)
  isplitl [H5]
  · unfold owns; iexists _; isplitr
    swap; · iexact H5
    ipureintro; exact View.read_writes_of_cover _ _ _ _ _ (cover1_A_5 V c t _ _ _)
  isplitl [H6]; · iexists _; iexact H6
  iexists _; iexact H7

set_option maxHeartbeats 4000000 in
/-- The body at the first tile of a later row of tiles. -/
theorem sound_body1_B (c : Dev nD) (t : Fin cfg1.N) (hz : ¬t.val % 256 = 0) (h16 : t.val % 16 = 0) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS V c (t.val + 1) t.isLt from rfl, PhiS_succ]
  have hN : t.val < 256 := lt_of_lt_of_eq t.isLt N_1'
  rw [PhiS_castSucc V c t, PhiS_pos V c _ _ (by omega)]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  rw [Dat.leavesExact_idle (dat1 V c) 6 t (idleAt1_6 t (cB2 t h16)) (noFlush1_6 t (cB2 t h16))]
  rw [Dat.leavesExact_idle (dat1 V c) 7 t (idleAt1_7 t (cB2 t h16)) (noFlush1_7 t (cB2 t h16))]
  rw [outsAt1_B V c t hz h16]
  unfold stB; (try dsimp only)
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  ihave HΦ' := chain1_out c _ _ _ _ $$ HΦ
  icases HΦ' with ⟨HR, Hg, HS0, HS1, HS2, HS3⟩
  iapply ((rB V c t (cB0 t hz) (cB1 t h16) (cB2 t h16) (outsAt1 V c (t.val - 1) (Nat.lt_of_le_of_lt (Nat.sub_le _ _) t.isLt))).2.2.2.2.2.2 _ _ Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexact H6
  isplitl [H7]; · iexact H7
  isplitl [HS0]; · iexact HS0
  isplitl [HS1]; · iexact HS1
  isplitl [HS2]; · iexact HS2
  isplitl [HS3]; · iexact HS3
  iintro ⟨H0, H1, H2, H3, ⟨%e4, H4⟩, ⟨%e5, H5⟩, H6, H7, HS0, HS1, HS2, HS3⟩
  isplitl [HR Hg HS0 HS1 HS2 HS3]
  · iapply (chain1_in c _ _ _ _)
    isplitl [HR]; · iexact HR
    isplitl [Hg]; · iexact Hg
    isplitl [HS0]
    · unfold owns; iexists _; isplitr
      swap; · iexact HS0
      ipureintro; rfl
    isplitl [HS1]
    · unfold owns; iexists _; isplitr
      swap; · iexact HS1
      ipureintro; rfl
    isplitl [HS2]
    · unfold owns; iexists _; isplitr
      swap; · iexact HS2
      ipureintro; rfl
    · unfold owns; iexists _; isplitr
      swap; · iexact HS3
      ipureintro; rfl
  isplitl [Ho]; · iexact Ho
  isplitl [H0]; · iexact H0
  isplitl [H1]; · iexact H1
  isplitl [H2]; · iexact H2
  isplitl [H3]; · iexact H3
  isplitl [H4]
  · unfold owns; iexists _; isplitr
    swap; · iexact H4
    ipureintro; exact View.read_writes_of_cover _ _ _ _ _ (cover1_B_4 V c t _ _ _ _)
  isplitl [H5]
  · unfold owns; iexists _; isplitr
    swap; · iexact H5
    ipureintro; exact View.read_writes_of_cover _ _ _ _ _ (cover1_B_5 V c t _ _ _ _)
  isplitl [H6]; · iexists _; iexact H6
  iexists _; iexact H7

set_option maxHeartbeats 4000000 in
/-- The body at the last point: the column outputs stored. -/
theorem sound_body1_D (c : Dev nD) (t : Fin cfg1.N) (h16 : ¬t.val % 16 = 0) (hl : t.val % 256 = 255) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS V c (t.val + 1) t.isLt from rfl, PhiS_succ]
  have hN : t.val < 256 := lt_of_lt_of_eq t.isLt N_1'
  rw [PhiS_castSucc V c t, PhiS_pos V c _ _ (by omega)]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  rw [show (dat1 V c).leavesExact 6 t = owns (c : Thread nD τ) (ms1_6 t) fullShare ((dat1 V c).after 6 t) from by
    unfold Dat.leavesExact; rw [liveAt1_6 t (cD2 t hl)], after1_6]
  rw [show (dat1 V c).leavesExact 7 t = owns (c : Thread nD τ) (ms1_7 t) fullShare ((dat1 V c).after 7 t) from by
    unfold Dat.leavesExact; rw [liveAt1_7 t (cD2 t hl)], after1_7]
  rw [outsAt1_D V c t h16 hl]
  unfold stD; (try dsimp only)
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  ihave HΦ' := chain1_out c _ _ _ _ $$ HΦ
  icases HΦ' with ⟨HR, Hg, HS0, HS1, HS2, HS3⟩
  iapply ((rD V c t (cD0 t hl) (cD1 t h16) (cD2 t hl) (outsAt1 V c (t.val - 1) (Nat.lt_of_le_of_lt (Nat.sub_le _ _) t.isLt))).2.2.2.2.2.2.2.2 Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [H7]; · iexists _; iexact H7
  isplitl [HS0]; · iexact HS0
  isplitl [HS1]; · iexact HS1
  isplitl [HS2]; · iexact HS2
  isplitl [HS3]; · iexact HS3
  iintro ⟨H0, H1, H2, H3, ⟨%e4, H4⟩, ⟨%e5, H5⟩, ⟨%e6, H6⟩, ⟨%e7, H7⟩, HS0, HS1, HS2, HS3⟩
  isplitl [HR Hg HS0 HS1 HS2 HS3]
  · iapply (chain1_in c _ _ _ _)
    isplitl [HR]; · iexact HR
    isplitl [Hg]; · iexact Hg
    isplitl [HS0]
    · unfold owns; iexists _; isplitr
      swap; · iexact HS0
      ipureintro; rfl
    isplitl [HS1]
    · unfold owns; iexists _; isplitr
      swap; · iexact HS1
      ipureintro; rfl
    isplitl [HS2]
    · unfold owns; iexists _; isplitr
      swap; · iexact HS2
      ipureintro; rfl
    · unfold owns; iexists _; isplitr
      swap; · iexact HS3
      ipureintro; rfl
  isplitl [Ho]; · iexact Ho
  isplitl [H0]; · iexact H0
  isplitl [H1]; · iexact H1
  isplitl [H2]; · iexact H2
  isplitl [H3]; · iexact H3
  isplitl [H4]
  · unfold owns; iexists _; isplitr
    swap; · iexact H4
    ipureintro; exact View.read_writes_of_cover _ _ _ _ _ (cover1_D_4 V c t _ _ _ _)
  isplitl [H5]
  · unfold owns; iexists _; isplitr
    swap; · iexact H5
    ipureintro; exact View.read_writes_of_cover _ _ _ _ _ (cover1_D_5 V c t _ _ _ _)
  isplitl [H6]
  · unfold owns; iexists _; isplitr
    swap; · iexact H6
    ipureintro; exact View.read_writes_of_cover _ _ _ _ _ (cover1_D_6 V c t _ _ _ _)

  · unfold owns; iexists _; isplitr
    swap; · iexact H7
    ipureintro; exact View.read_writes_of_cover _ _ _ _ _ (cover1_D_7 V c t _ _ _ _)

set_option maxHeartbeats 4000000 in
/-- The body at every other point. -/
theorem sound_body1_C (c : Dev nD) (t : Fin cfg1.N) (h16 : ¬t.val % 16 = 0) (hl : ¬t.val % 256 = 255) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS V c (t.val + 1) t.isLt from rfl, PhiS_succ]
  have hN : t.val < 256 := lt_of_lt_of_eq t.isLt N_1'
  rw [PhiS_castSucc V c t, PhiS_pos V c _ _ (by omega)]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  rw [Dat.leavesExact_idle (dat1 V c) 6 t (idleAt1_6 t (cC2 t hl)) (noFlush1_6 t (cC2 t hl))]
  rw [Dat.leavesExact_idle (dat1 V c) 7 t (idleAt1_7 t (cC2 t hl)) (noFlush1_7 t (cC2 t hl))]
  rw [outsAt1_C V c t h16 hl]
  unfold stC; (try dsimp only)
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  ihave HΦ' := chain1_out c _ _ _ _ $$ HΦ
  icases HΦ' with ⟨HR, Hg, HS0, HS1, HS2, HS3⟩
  iapply ((rC V c t (cC0 t h16) (cC1 t h16) (cC2 t hl) (outsAt1 V c (t.val - 1) (Nat.lt_of_le_of_lt (Nat.sub_le _ _) t.isLt))).2.2.2.2.2.2 _ _ Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexact H6
  isplitl [H7]; · iexact H7
  isplitl [HS0]; · iexact HS0
  isplitl [HS1]; · iexact HS1
  isplitl [HS2]; · iexact HS2
  isplitl [HS3]; · iexact HS3
  iintro ⟨H0, H1, H2, H3, ⟨%e4, H4⟩, ⟨%e5, H5⟩, H6, H7, HS0, HS1, HS2, HS3⟩
  isplitl [HR Hg HS0 HS1 HS2 HS3]
  · iapply (chain1_in c _ _ _ _)
    isplitl [HR]; · iexact HR
    isplitl [Hg]; · iexact Hg
    isplitl [HS0]
    · unfold owns; iexists _; isplitr
      swap; · iexact HS0
      ipureintro; rfl
    isplitl [HS1]
    · unfold owns; iexists _; isplitr
      swap; · iexact HS1
      ipureintro; rfl
    isplitl [HS2]
    · unfold owns; iexists _; isplitr
      swap; · iexact HS2
      ipureintro; rfl
    · unfold owns; iexists _; isplitr
      swap; · iexact HS3
      ipureintro; rfl
  isplitl [Ho]; · iexact Ho
  isplitl [H0]; · iexact H0
  isplitl [H1]; · iexact H1
  isplitl [H2]; · iexact H2
  isplitl [H3]; · iexact H3
  isplitl [H4]
  · unfold owns; iexists _; isplitr
    swap; · iexact H4
    ipureintro; exact View.read_writes_of_cover _ _ _ _ _ (cover1_C_4 V c t _ _ _ _)
  isplitl [H5]
  · unfold owns; iexists _; isplitr
    swap; · iexact H5
    ipureintro; exact View.read_writes_of_cover _ _ _ _ _ (cover1_C_5 V c t _ _ _ _)
  isplitl [H6]; · iexists _; iexact H6
  iexists _; iexact H7

/-- The body at any point: the inputs' memrefs hold their blocks; the closed forms say which case the point is in; the
    invariant hands the body the accumulators at what the point before left (at anything at the first point) and takes them
    back at this point's contents; the two column outputs are handed back untouched except at the last point. -/
theorem sound_body1 (c : Dev nD) (t : Fin cfg1.N) :
    bodyPre1 V c t ⊢ wp frame (wpE (defs₀ (F := F)) Variants.none c none) Set.univ (bodyAt1 t) (fun _ => bodyPost1 V c t) := by
  by_cases hz : t.val % 256 = 0
  · exact sound_body1_A V c t hz
  by_cases h16 : t.val % 16 = 0
  · exact sound_body1_B V c t hz h16
  by_cases hl : t.val % 256 = 255
  · exact sound_body1_D V c t h16 hl
  · exact sound_body1_C V c t h16 hl

theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the class's back: the accumulators' named contents are forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 256 := N_1; omega), PhiA1_chain]
  iintro H
  ihave H' := chain1_out c _ _ _ _ $$ H
  icases H' with ⟨HR, Hg, HS0, HS1, HS2, HS3⟩
  iapply (chain1_in c _ _ _ _)
  isplitl [HR]; · iexact HR
  isplitl [Hg]; · iexact Hg
  isplitl [HS0]; · iexists _; iexact HS0
  isplitl [HS1]; · iexists _; iexact HS1
  isplitl [HS2]; · iexists _; iexact HS2
  iexists _; iexact HS3

end Cert.KernelIdeal.Gen

end
-- ==== Proof.KI.Run.lean ====
/-
  The whole program's run: @main is the first kernel region, two reshapes of the labels, the second kernel region, and
  the host tail that turns the four sums into the loss.  The buffer contents at each boundary are a fold from the launch
  memory (a region's arrays at what its write-backs leave, a host stretch by its operations); each region is a segment
  over the thread state "every unscoped buffer at the boundary's contents, the generator register at some state, nothing
  owed"; the launch over the four segments ends with every unscoped buffer at the last boundary's contents `W4`.
  From that: the frame (the three arguments are read back through the fold to the launch memory).
-/
import proofs.«166571_j42013370090174_1_alg».proof.Proof.KI.R0
import proofs.«166571_j42013370090174_1_alg».proof.Proof.KI.Acc1

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- Core `c`'s buffers at launch (the first region's entry). -/
abbrev W0 : Dev nD → Valuation τ sig (Elt F) := fun c b => (s₀ m ρ).mem ((c : Dev nD), b)
abbrev U0 : (c : Dev nD) → (b : Ref sig .tc) → Buf (Elt F) ((c : Thread nD τ).loc b) := fun c b => W0 m ρ c b
/-- At the first region's exit: its arrays at what the pipeline leaves, every other buffer as entered. -/
def W1 (c : Dev nD) : Valuation τ sig (Elt F) :=
  Pipeline.withArrays spec0 c (W0 m ρ c) fun w => (dat0 (U0 m ρ) c).arrAt w cfg0.N
theorem W1_arr (c : Dev nD) (w : Fin cfg0.W) :
    W1 m ρ c (Proc.devRef .tc (Pipeline.arrRef spec0 w)) = (dat0 (U0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev U1 : (c : Dev nD) → (b : Ref sig .tc) → Buf (Elt F) ((c : Thread nD τ).loc b) := fun c b => W1 m ρ c b
theorem hF0 (c : Dev nD) (w : Fin cfg0.W) : (dat0 (U0 m ρ) c).arrAt w cfg0.N = U1 m ρ c (Pipeline.arrRef spec0 w) :=
  (W1_arr m ρ c w).symm
theorem hrest0 (c : Dev nD) : ∀ b, b ∉ Finset.univ.image (Pipeline.arrRef spec0) → U1 m ρ c b = U0 m ρ c b :=
  fun b hb => W1_of_ne m ρ c b fun w e => hb (Finset.mem_image.mpr ⟨w, Finset.mem_univ _, e⟩)

/-- After the two reshapes of the labels (the second region's entry). -/
abbrev W2 : Dev nD → Valuation τ sig (Elt F) := fun c => StableHlo.after hostOps1 (W1 m ρ c)
abbrev U2 : (c : Dev nD) → (b : Ref sig .tc) → Buf (Elt F) ((c : Thread nD τ).loc b) := fun c b => W2 m ρ c b
/-- At the second region's exit. -/
def W3 (c : Dev nD) : Valuation τ sig (Elt F) :=
  Pipeline.withArrays spec1 c (W2 m ρ c) fun w => (dat1 (U2 m ρ) c).arrAt w cfg1.N
theorem W3_arr (c : Dev nD) (w : Fin cfg1.W) :
    W3 m ρ c (Proc.devRef .tc (Pipeline.arrRef spec1 w)) = (dat1 (U2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev U3 : (c : Dev nD) → (b : Ref sig .tc) → Buf (Elt F) ((c : Thread nD τ).loc b) := fun c b => W3 m ρ c b
theorem hF1 (c : Dev nD) (w : Fin cfg1.W) : (dat1 (U2 m ρ) c).arrAt w cfg1.N = U3 m ρ c (Pipeline.arrRef spec1 w) :=
  (W3_arr m ρ c w).symm
theorem hrest1 (c : Dev nD) : ∀ b, b ∉ Finset.univ.image (Pipeline.arrRef spec1) → U3 m ρ c b = U2 m ρ c b :=
  fun b hb => W3_of_ne m ρ c b fun w e => hb (Finset.mem_image.mpr ⟨w, Finset.mem_univ _, e⟩)
/-- After the host tail: the contents the program ends with. -/
abbrev W4 : Dev nD → Valuation τ sig (Elt F) := fun c => StableHlo.after hostOps2 (W3 m ρ c)

/-- No host operation writes an argument. -/
theorem hostOps1_keeps (b : Ref sig .tc) (hb : b ∉ ([main_v1, main_v2] : List (Ref sig .tc))) (W : Valuation τ sig (Elt F)) :
    StableHlo.after hostOps1 W (Proc.devRef .tc b) = W (Proc.devRef .tc b) :=
  StableHlo.after_of_forall_not_mem (b := Proc.devRef .tc b) _ _ (List.forall_iff_forall_mem.mp (by
    simp only [hostOps1, List.Forall, StableHlo.nullary_writes, StableHlo.unary_writes, StableHlo.binary_writes, StableHlo.reshape_writes, Finset.mem_singleton]
    refine ⟨StableHlo.devRef_ne_of_ne (fun e => hb (e ▸ by simp)), StableHlo.devRef_ne_of_ne (fun e => hb (e ▸ by simp))⟩))

theorem W4_arg (b : Ref sig .tc) (hb : b = main_arg0 ∨ b = main_arg1 ∨ b = main_arg2) (c : Dev nD) :
    W4 m ρ c (Proc.devRef .tc b) = W3 m ρ c (Proc.devRef .tc b) :=
  StableHlo.after_of_forall_not_mem (b := Proc.devRef .tc b) _ _ (List.forall_iff_forall_mem.mp (by
    rcases hb with rfl | rfl | rfl <;>
    · simp only [hostOps2, List.Forall, StableHlo.nullary_writes, StableHlo.unary_writes, StableHlo.binary_writes, StableHlo.reshape_writes, Finset.mem_singleton]
      repeat' apply And.intro
      all_goals exact StableHlo.devRef_ne_of_ne (by decide)))

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_arg m ρ main_arg0 (.inl rfl) c
    _ = W2 m ρ c (Proc.devRef .tc main_arg0) := W3_of_ne m ρ c main_arg0 (by decide)
    _ = W1 m ρ c (Proc.devRef .tc main_arg0) := hostOps1_keeps main_arg0 (by decide) _
    _ = W0 m ρ c (Proc.devRef .tc main_arg0) := (W1_arr m ρ c 0).trans (((dat0 (U0 m ρ) c).arrAt_in 0 rfl _).trans (A_eq0 (U0 m ρ) c 0))
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_arg m ρ main_arg1 (.inr (.inl rfl)) c
    _ = W2 m ρ c (Proc.devRef .tc main_arg1) := W3_of_ne m ρ c main_arg1 (by decide)
    _ = W1 m ρ c (Proc.devRef .tc main_arg1) := hostOps1_keeps main_arg1 (by decide) _
    _ = W0 m ρ c (Proc.devRef .tc main_arg1) := (W1_arr m ρ c 1).trans (((dat0 (U0 m ρ) c).arrAt_in 1 rfl _).trans (A_eq0 (U0 m ρ) c 1))
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_arg m ρ main_arg2 (.inr (.inr rfl)) c
    _ = W2 m ρ c (Proc.devRef .tc main_arg2) := W3_of_ne m ρ c main_arg2 (by decide)
    _ = W1 m ρ c (Proc.devRef .tc main_arg2) := hostOps1_keeps main_arg2 (by decide) _
    _ = W0 m ρ c (Proc.devRef .tc main_arg2) := W1_of_ne m ρ c main_arg2 (by decide)
    _ = m ((c : Thread nD τ).loc main_arg2) := rfl

/-- No pipeline has a prefetched table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (U0 m ρ) c
  | ⟨1, _⟩ => fun c => dat1 (U2 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core's dues, at nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps1_fresh' : (hostOps1 : List (HloOp τ sig (Elt F))).Forall fun op => op.fresh = ∅ := by
  simp only [List.Forall]; repeat' constructor
theorem hostOps2_fresh' : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tₙ (c : Dev nD) : sProp 𝕄 := iprop(StableHlo.held (c : Thread nD τ) (Pipeline.ucRefs τ sig) (W4 m ρ c) ∗ ∃ r, prngReg c r)

set_option backward.isDefEq.respectTransparency.types false in
/-- The first region over the thread state: entered from the launch contents, left at `W1`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (U0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (U0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (U0 m ρ c) (U1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region over the thread state: entered from `W2`, left at `W3`.  Its invariant starts as the class's
    (the scratch buffers at anything) and gives that back after the last point, the accumulators' contents forgotten. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (U2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (U2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (U2 m ρ) c)
    unfold Pipeline.ΦA
    iintro ⟨Hp, -, Hr⟩
    isplitl [Hr]; · iexact Hr
    iexact Hp
  hout c := by
    rw [Pipeline.ownSems0_none]
    refine .trans (hout1 (U2 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (U2 m ρ c) (U3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- @main's four segments in order. -/
abbrev segs : List (Pipeline.Seg (pcfgs (F := F)) adm (pdats m ρ) () defs₀ 𝒱₀ L lv) :=
  [ .region (reg0 m ρ),
    .host (hseg hostOps1 hostOps1_sub hostOps1_fresh' (W1 m ρ)),
    .region (reg1 m ρ),
    .host (hseg hostOps2 hostOps2_sub hostOps2_fresh' (W3 m ρ)) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and
    every final state holds every unscoped buffer at the last boundary's contents `W4`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show iprop(StableHlo.held (c : Thread nD τ) (Pipeline.ucRefs τ sig) (W4 m ρ c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- THE FRAME: the three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c)⟩) (run_main m ρ)

end Cert.KernelIdeal.Gen

end
-- ==== Proof.Spec.lean ====
/-
  The contrastive (InfoNCE) loss as ONE function of the three argument arrays, over the extended reals.

  Rows of the two feature matrices are scaled to unit length (divided by `max ‖x‖ ε`); the logit of a pair
  `(b, c)` is the inner product of label row `b` with audio row `c`, times the inverse temperature `κ`; `E` is its
  exponential.  Four sums of `E` are taken — over a row, over a row restricted to the pairs with equal class
  labels, over a column, over a column so restricted — and the loss is the mean over `b` of
  `-(log (rowPos b / (row b + ε) + ε) + log (colPos b / (col b + ε) + ε))`.
-/
import Idealize.ShloMosaic.PureOps.Ideal

noncomputable section

namespace Cert.Spec

open Idealize.ShloMosaic

/-- A feature matrix: 8192 rows of 512 extended reals. -/
abbrev Mat : Type := Fin 8192 → Fin 512 → EReal
/-- The class labels, one word per row. -/
abbrev Lab : Type := Fin 8192 → BitVec 32

/-- The guard under the norm: the f32 word of `1e-12`. -/
def epsNorm : EReal := Ideal.ofBits .f32 0x2B8CBCCC#32
/-- The guard in the quotients and under the logarithms: the f32 word of `1e-8`. -/
def epsProb : EReal := Ideal.ofBits .f32 0x322BCC77#32
/-- The inverse temperature: the reciprocal of the f32 word of `0.07`, which is `9395241 / 2^27`. -/
def invTemp : EReal := ((134217728 / 9395241 : ℝ) : EReal)
/-- The number of rows, as the f32 word of `8192`. -/
def nRows : EReal := Ideal.ofBits .f32 0x46000000#32

/-- The sum of squares of row `b`. -/
def sq (x : Mat) (b : Fin 8192) : EReal := ∑ d : Fin 512, x b d * x b d
/-- Row `b` scaled to unit length: each entry over `max (√(sum of squares)) ε`. -/
def nrm (x : Mat) (b : Fin 8192) (d : Fin 512) : EReal :=
  Ideal.div (x b d) (max (Ideal.sqrt (sq x b)) epsNorm)
/-- The inner product of unit label row `b` and unit audio row `c`. -/
def dot (a l : Mat) (b c : Fin 8192) : EReal := ∑ d : Fin 512, nrm l b d * nrm a c d
/-- The exponential of the scaled logit of the pair `(b, c)`. -/
def E (a l : Mat) (b c : Fin 8192) : EReal := Ideal.exp (dot a l b c * invTemp)
/-- `E` kept on the pairs with equal labels, zero elsewhere. -/
def Epos (a l : Mat) (lab : Lab) (b c : Fin 8192) : EReal := if lab b = lab c then E a l b c else 0

def rowSum (a l : Mat) (b : Fin 8192) : EReal := ∑ c : Fin 8192, E a l b c
def rowSumPos (a l : Mat) (lab : Lab) (b : Fin 8192) : EReal := ∑ c : Fin 8192, Epos a l lab b c
def colSum (a l : Mat) (c : Fin 8192) : EReal := ∑ b : Fin 8192, E a l b c
def colSumPos (a l : Mat) (lab : Lab) (c : Fin 8192) : EReal := ∑ b : Fin 8192, Epos a l lab b c

/-! The same quantities over rows ALREADY scaled (`L` the label rows, `A` the audio rows) and labels given twice (by
    row and by column): what a stage that receives the scaled rows computes. -/
/-- The inner product of row `b` of `L` and row `c` of `A`. -/
def dotN (L A : Mat) (b c : Fin 8192) : EReal := ∑ d : Fin 512, L b d * A c d
def EN (L A : Mat) (b c : Fin 8192) : EReal := Ideal.exp (dotN L A b c * invTemp)
def EposN (L A : Mat) (rl cl : Lab) (b c : Fin 8192) : EReal := if rl b = cl c then EN L A b c else 0
theorem E_eq_EN (a l : Mat) (b c : Fin 8192) : E a l b c = EN (nrm l) (nrm a) b c := rfl
theorem Epos_eq_EposN (a l : Mat) (lab : Lab) (b c : Fin 8192) : Epos a l lab b c = EposN (nrm l) (nrm a) lab lab b c := rfl

/-- One row's term of the loss, from the four sums at that index. -/
def term (rs rsp cs csp : EReal) : EReal :=
  -(Ideal.log (Ideal.div rsp (rs + epsProb) + epsProb) + Ideal.log (Ideal.div csp (cs + epsProb) + epsProb))
/-- The mean of the terms. -/
def tail (rs rsp cs csp : Fin 8192 → EReal) : EReal :=
  Ideal.div (∑ b : Fin 8192, term (rs b) (rsp b) (cs b) (csp b)) nRows

/-- The loss. -/
def G (a l : Mat) (lab : Lab) : EReal :=
  tail (rowSum a l) (rowSumPos a l lab) (colSum a l) (colSumPos a l lab)

end Cert.Spec

end
-- ==== Proof.KI.Val0.lean ====
/-
  The first kernel region's two result arrays, at the ideal instance: each row of an argument array over
  `max ‖row‖ ε`.
-/
import proofs.«166571_j42013370090174_1_alg».proof.Proof.KI.R0
import proofs.«166571_j42013370090174_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Val

open Cert.KernelIdeal Cert.KernelIdeal.Gen Idealize.ShloMosaic Idealize.ShloMosaic.TcCoe Idealize.SL.Sem
  Idealize.ShloMosaic.ValueIdx
open Idealize.ShloMosaic.Pipeline (Dat)

/-- A feature array read as the specification's matrix: entry `(b, d)`. -/
def mat (x : Vec Ideal S8192x512 .f32) : Cert.Spec.Mat := fun b d => x (ix2 b d)

end Cert.KernelIdeal.Val

namespace Cert.KernelIdeal.Val0

open Cert.KernelIdeal Cert.KernelIdeal.Gen Idealize.ShloMosaic Idealize.ShloMosaic.TcCoe Idealize.SL.Sem
  Idealize.ShloMosaic.ValueIdx
open Idealize.ShloMosaic.Pipeline (Dat)
open Cert.KernelIdeal.Val

/-! ## The keep-dimension column forms, read at an index -/

/-- An `[a]` array cast to the column `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The lane sum of a block's row. -/
theorem row_sum (v : FVec Ideal S1024x512 .f32) (p : Fin 1024) :
    multiReduction .add [1] S1024 v 0x00000000#32 reduces_S1024x512_S1024 (.inl rfl) rfl (ix1 p)
      = ∑ k : Fin 512, v (ix2 p k) :=
  (Ideal.multiReduction_add_single v 0x00000000#32 reduces_S1024x512_S1024 (.inl rfl) rfl (ix1 p)).trans
    (Finset.sum_congr rfl fun k _ => congrArg v (funext fun a => Fin.ext (by
      match a with | ⟨0, _⟩ => rfl | ⟨1, _⟩ => rfl)))

/-! ## The body's two results at an index of the block -/

theorem k0_pay1_at (x0 : Vec Ideal S1024x512 .f32) (p : Fin 1024) (q : Fin 512) :
    k0_pay1 (F := Ideal) x0 (ix2 p q)
      = Ideal.div (x0 (ix2 p q))
          (max (Ideal.sqrt (∑ k : Fin 512, x0 (ix2 p k) * x0 (ix2 p k))) (Ideal.ofBits .f32 0x2B8CBCCC#32)) := by
  unfold k0_pay1
  dsimp only
  refine congrArg (Ideal.div (x0 (ix2 p q))) ?_
  refine (broadcastTo_a1_ab_apply _ broadcasts_S1024x1_S1024x512 p q).trans ?_
  refine congrArg (fun s => max (Ideal.sqrt s) (Ideal.ofBits .f32 0x2B8CBCCC#32)) ?_
  refine (shapeCast_a_a1_apply _ shapeCasts_S1024_S1024x1 p 0).trans ?_
  exact row_sum (mulf x0 x0) p

theorem k0_pay2_at (x1 : Vec Ideal S1024x512 .f32) (p : Fin 1024) (q : Fin 512) :
    k0_pay2 (F := Ideal) x1 (ix2 p q)
      = Ideal.div (x1 (ix2 p q))
          (max (Ideal.sqrt (∑ k : Fin 512, x1 (ix2 p k) * x1 (ix2 p k))) (Ideal.ofBits .f32 0x2B8CBCCC#32)) := by
  unfold k0_pay2
  dsimp only
  refine congrArg (Ideal.div (x1 (ix2 p q))) ?_
  refine (broadcastTo_a1_ab_apply _ broadcasts_S1024x1_S1024x512 p q).trans ?_
  refine congrArg (fun s => max (Ideal.sqrt s) (Ideal.ofBits .f32 0x2B8CBCCC#32)) ?_
  refine (shapeCast_a_a1_apply _ shapeCasts_S1024_S1024x1 p 0).trans ?_
  exact row_sum (mulf x1 x1) p

/-! ## From the blocks to the arrays -/

variable (V : (c : Dev nD) → (b : Ref sig .tc) → Buf (Elt Ideal) ((c : Thread nD τ).loc b))

theorem zero_off : (![0, 0] : Fin 2 → Nat) = fun _ => 0 := funext fun a => by fin_cases a <;> rfl

/-- The four windows' block index at point `t` is `(t, 0)`: decided over the eight points. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- The whole result array: every row of `X` over `max ‖row‖ ε`. -/
def unitRows (X : Vec Ideal S8192x512 .f32) : Vec Ideal S8192x512 .bf16 := fun i => Cert.Spec.nrm (mat X) (i 0) (i 1)

theorem unitRows_apply (X : Vec Ideal S8192x512 .f32) (b : Fin 8192) (d : Fin 512) :
    unitRows X (ix2 b d) = Cert.Spec.nrm (mat X) b d := rfl

/-- The body's first result on block `n` of an array: rows `1024 n … 1024 n + 1023` of `unitRows`. -/
theorem k0_pay1_blk (X : Vec Ideal S8192x512 .f32) (x0 : Vec Ideal S1024x512 .f32) (n : Nat) (hn : n < 8)
    (hx : ∀ (p : Fin 1024) (q : Fin 512), x0 (ix2 p q) = X (ix2 (⟨n * 1024 + p.val, by omega⟩ : Fin 8192) q))
    (p : Fin 1024) (q : Fin 512) :
    k0_pay1 (F := Ideal) x0 (ix2 p q) = unitRows X (ix2 (⟨n * 1024 + p.val, by omega⟩ : Fin 8192) q) := by
  rw [k0_pay1_at, unitRows_apply]
  simp only [hx]
  rfl

theorem k0_pay2_blk (X : Vec Ideal S8192x512 .f32) (x1 : Vec Ideal S1024x512 .f32) (n : Nat) (hn : n < 8)
    (hx : ∀ (p : Fin 1024) (q : Fin 512), x1 (ix2 p q) = X (ix2 (⟨n * 1024 + p.val, by omega⟩ : Fin 8192) q))
    (p : Fin 1024) (q : Fin 512) :
    k0_pay2 (F := Ideal) x1 (ix2 p q) = unitRows X (ix2 (⟨n * 1024 + p.val, by omega⟩ : Fin 8192) q) := by
  rw [k0_pay2_at, unitRows_apply]
  simp only [hx]
  rfl

/-- What point `t` writes back to the first result array is block `t` of `unitRows` of the audio array. -/
theorem flushed0_2_eq (c : Dev nD) (t : Fin cfg0.N) :
    (dat0 (F := Ideal) V c).flushed 2 t = ((cfg0.win 2).blk t).view.read (Elt Ideal) (unitRows (V c main_arg0)) := by
  show (cfg0.win 2).cut (grid0.coords t) ((dat0 V c).after 2 t) = _
  rw [after0_2]
  unfold out0_2
  rw [View.canon_unit_zero zero_off]
  simp only [View.ld_unit_zero (S := S1024x512) zero_off]
  obtain ⟨e00, e01, e10, e11, e20, e21, e30, e31⟩ := idx_facts0 t
  have ht : t.val < 8 := lt_of_lt_of_eq t.isLt N_0
  funext j
  obtain ⟨p, q, rfl⟩ : ∃ (p : Fin 1024) (q : Fin 512), j = ix2 p q := ⟨j 0, j 1, eq_ix2 j⟩
  refine (k0_pay1_blk (V c main_arg0) (iblk0 V c 0 t) t.val ht (fun p q => ?_) p q).trans ?_
  · show V c main_arg0 (((cfg0.win 0).blk t).view.emb (ix2 p q)) = _
    refine congrArg (V c main_arg0) (funext fun a => Fin.ext ?_)
    match a with
    | ⟨0, _⟩ => show win0_0.index t (0 : Fin 2) * 1024 + 1 * p.val = t.val * 1024 + p.val; rw [e00]; omega
    | ⟨1, _⟩ => show win0_0.index t (1 : Fin 2) * 512 + 1 * q.val = q.val; rw [e01]; omega
  · rw [View.read_apply]
    refine congrArg (unitRows (V c main_arg0)) (funext fun a => Fin.ext ?_)
    match a with
    | ⟨0, _⟩ => show t.val * 1024 + p.val = win0_2.index t (0 : Fin 2) * 1024 + 1 * p.val; rw [e20]; omega
    | ⟨1, _⟩ => show q.val = win0_2.index t (1 : Fin 2) * 512 + 1 * q.val; rw [e21]; omega

/-- What point `t` writes back to the second result array is block `t` of `unitRows` of the label array. -/
theorem flushed0_3_eq (c : Dev nD) (t : Fin cfg0.N) :
    (dat0 (F := Ideal) V c).flushed 3 t = ((cfg0.win 3).blk t).view.read (Elt Ideal) (unitRows (V c main_arg1)) := by
  show (cfg0.win 3).cut (grid0.coords t) ((dat0 V c).after 3 t) = _
  rw [after0_3]
  unfold out0_3
  rw [View.canon_unit_zero zero_off]
  simp only [View.ld_unit_zero (S := S1024x512) zero_off]
  obtain ⟨e00, e01, e10, e11, e20, e21, e30, e31⟩ := idx_facts0 t
  have ht : t.val < 8 := lt_of_lt_of_eq t.isLt N_0
  funext j
  obtain ⟨p, q, rfl⟩ : ∃ (p : Fin 1024) (q : Fin 512), j = ix2 p q := ⟨j 0, j 1, eq_ix2 j⟩
  refine (k0_pay2_blk (V c main_arg1) (iblk0 V c 1 t) t.val ht (fun p q => ?_) p q).trans ?_
  · show V c main_arg1 (((cfg0.win 1).blk t).view.emb (ix2 p q)) = _
    refine congrArg (V c main_arg1) (funext fun a => Fin.ext ?_)
    match a with
    | ⟨0, _⟩ => show win0_1.index t (0 : Fin 2) * 1024 + 1 * p.val = t.val * 1024 + p.val; rw [e10]; omega
    | ⟨1, _⟩ => show win0_1.index t (1 : Fin 2) * 512 + 1 * q.val = q.val; rw [e11]; omega
  · rw [View.read_apply]
    refine congrArg (unitRows (V c main_arg1)) (funext fun a => Fin.ext ?_)
    match a with
    | ⟨0, _⟩ => show t.val * 1024 + p.val = win0_3.index t (0 : Fin 2) * 1024 + 1 * p.val; rw [e30]; omega
    | ⟨1, _⟩ => show q.val = win0_3.index t (1 : Fin 2) * 512 + 1 * q.val; rw [e31]; omega

/-- An index of the array is in point `t`'s block iff each coordinate is in the block's range on its axis. -/
theorem mem_blk0_2 (t : Fin cfg0.N) (i : S8192x512.Idx) :
    i ∈ ((cfg0.win 2).blk t).view.set ↔ ∀ a : Fin 2, win0_2.index t a * S1024x512.size a ≤ (i a).val
      ∧ (i a).val < win0_2.index t a * S1024x512.size a + S1024x512.size a := by
  show i ∈ ((View.whole main_v0_0).slice (win0_2.rect t)).set ↔ _
  rw [View.set_slice_whole, Rect.mem_set_unit]
  exact Iff.rfl
theorem mem_blk0_3 (t : Fin cfg0.N) (i : S8192x512.Idx) :
    i ∈ ((cfg0.win 3).blk t).view.set ↔ ∀ a : Fin 2, win0_3.index t a * S1024x512.size a ≤ (i a).val
      ∧ (i a).val < win0_3.index t a * S1024x512.size a + S1024x512.size a := by
  show i ∈ ((View.whole main_v0_1).slice (win0_3.rect t)).set ↔ _
  rw [View.set_slice_whole, Rect.mem_set_unit]
  exact Iff.rfl

/-- Row `r` of a result array is in the block of point `r / 1024`: the eight blocks cover the array. -/
theorem cover0_2 (i : S8192x512.Idx) :
    ∃ t : Fin cfg0.N, (cfg0.win 2).flush t = true ∧ i ∈ ((cfg0.win 2).blk t).view.set := by
  have hi0 : (i 0).val < 8192 := (i 0).isLt
  have hi1 : (i 1).val < 512 := (i 1).isLt
  obtain ⟨t, ht⟩ : ∃ t : Fin cfg0.N, t.val = (i 0).val / 1024 :=
    ⟨⟨(i 0).val / 1024, lt_of_lt_of_eq (by omega : (i 0).val / 1024 < 8) N_0.symm⟩, rfl⟩
  obtain ⟨-, -, -, -, e20, e21, -, -⟩ := idx_facts0 t
  refine ⟨t, flush0_2 t, ?_⟩
  rw [mem_blk0_2]
  intro a
  match a with
  | ⟨0, _⟩ =>
    show win0_2.index t (0 : Fin 2) * 1024 ≤ (i 0).val ∧ (i 0).val < win0_2.index t (0 : Fin 2) * 1024 + 1024
    rw [e20, ht]; omega
  | ⟨1, _⟩ =>
    show win0_2.index t (1 : Fin 2) * 512 ≤ (i 1).val ∧ (i 1).val < win0_2.index t (1 : Fin 2) * 512 + 512
    rw [e21]; omega
theorem cover0_3 (i : S8192x512.Idx) :
    ∃ t : Fin cfg0.N, (cfg0.win 3).flush t = true ∧ i ∈ ((cfg0.win 3).blk t).view.set := by
  have hi0 : (i 0).val < 8192 := (i 0).isLt
  have hi1 : (i 1).val < 512 := (i 1).isLt
  obtain ⟨t, ht⟩ : ∃ t : Fin cfg0.N, t.val = (i 0).val / 1024 :=
    ⟨⟨(i 0).val / 1024, lt_of_lt_of_eq (by omega : (i 0).val / 1024 < 8) N_0.symm⟩, rfl⟩
  obtain ⟨-, -, -, -, -, -, e30, e31⟩ := idx_facts0 t
  refine ⟨t, flush0_3 t, ?_⟩
  rw [mem_blk0_3]
  intro a
  match a with
  | ⟨0, _⟩ =>
    show win0_3.index t (0 : Fin 2) * 1024 ≤ (i 0).val ∧ (i 0).val < win0_3.index t (0 : Fin 2) * 1024 + 1024
    rw [e30, ht]; omega
  | ⟨1, _⟩ =>
    show win0_3.index t (1 : Fin 2) * 512 ≤ (i 1).val ∧ (i 1).val < win0_3.index t (1 : Fin 2) * 512 + 512
    rw [e31]; omega

/-- After the region the first result array is `unitRows` of the audio array as the region found it … -/
theorem final0_2 (c : Dev nD) : (dat0 (F := Ideal) V c).arrAt 2 cfg0.N = unitRows (V c main_arg0) :=
  (dat0 (F := Ideal) V c).arrAt_eq_of_cover 2 (unitRows (V c main_arg0)) (fun t _ => flushed0_2_eq V c t) cover0_2
/-- … and the second `unitRows` of the label array. -/
theorem final0_3 (c : Dev nD) : (dat0 (F := Ideal) V c).arrAt 3 cfg0.N = unitRows (V c main_arg1) :=
  (dat0 (F := Ideal) V c).arrAt_eq_of_cover 3 (unitRows (V c main_arg1)) (fun t _ => flushed0_3_eq V c t) cover0_3

end Cert.KernelIdeal.Val0

namespace Cert.KernelIdeal.Val

open Cert.KernelIdeal Cert.KernelIdeal.Gen Idealize.ShloMosaic Idealize.ShloMosaic.TcCoe Idealize.SL.Sem
  Idealize.ShloMosaic.ValueIdx
open Idealize.ShloMosaic.Pipeline (Dat)

variable (V : (c : Dev nD) → (b : Ref sig .tc) → Buf (Elt Ideal) ((c : Thread nD τ).loc b))

/-- The first result array after the region, as one function: every audio row scaled to unit length. -/
theorem arrAt0_2 (c : Dev nD) :
    (dat0 (F := Ideal) V c).arrAt 2 cfg0.N = fun i => Cert.Spec.nrm (mat (V c main_arg0)) (i 0) (i 1) :=
  Val0.final0_2 V c
/-- The second result array after the region, as one function: every label row scaled to unit length. -/
theorem arrAt0_3 (c : Dev nD) :
    (dat0 (F := Ideal) V c).arrAt 3 cfg0.N = fun i => Cert.Spec.nrm (mat (V c main_arg1)) (i 0) (i 1) :=
  Val0.final0_3 V c

/-- Entry `(b, d)` of the first result array: audio row `b` scaled to unit length, at `d`. -/
theorem arr0_2 (c : Dev nD) (b : Fin 8192) (d : Fin 512) :
    (dat0 (F := Ideal) V c).arrAt 2 cfg0.N (ix2 b d) = Cert.Spec.nrm (mat (V c main_arg0)) b d := by
  rw [Val0.final0_2]; rfl
/-- Entry `(b, d)` of the second result array: label row `b` scaled to unit length, at `d`. -/
theorem arr0_3 (c : Dev nD) (b : Fin 8192) (d : Fin 512) :
    (dat0 (F := Ideal) V c).arrAt 3 cfg0.N (ix2 b d) = Cert.Spec.nrm (mat (V c main_arg1)) b d := by
  rw [Val0.final0_3]; rfl

end Cert.KernelIdeal.Val

end
-- ==== Proof.KI.Pay1.lean ====
/-
  The pairwise kernel's arithmetic at the ideal instance, read at an index.  A tile is the 512×512 matrix
  `T (r, q) = exp ((Σ_k x0 (r, k) · x1 (q, k)) · κ)` of a block `x0` of label rows and a block `x1` of audio rows (the matrix
  unit's product into a zero accumulator is the plain sum; the named constant is the inverse temperature `κ`), `Tp` the
  same kept where the row label equals the column label; a lane sum along either axis is a plain sum; an accumulator's
  update is its old value plus the tile's sum.
-/
import proofs.«166571_j42013370090174_1_alg».proof.Proof.Gen.KernelIdeal.Skeleton
import proofs.«166571_j42013370090174_1_alg».proof.Proof.Spec
import Idealize.ShloMosaic.Lib.ValueIdx
import Idealize.ShloMosaic.Lib.Pipeline.Value
import Idealize.ShloMosaic.Lib.ValueLayout
import Idealize.ShloMosaic.PureOps.Ideal.Laws
import Idealize.ShloMosaic.PureOps.IdealRules

noncomputable section

/-! ## The operations that are not pointwise, each read at an index -/

namespace Cert.KernelIdeal.Pay1

open Cert.KernelIdeal Cert.KernelIdeal.Gen Idealize.ShloMosaic Idealize.ShloMosaic.TcCoe Idealize.SL.Sem
  Idealize.ShloMosaic.ValueIdx

/-- A vector `[a]` cast to the column `[a, 1]` reads, at `(i, u)`, the vector at `i`: both have row-major position `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum along the lanes of row `r` of a 512×512 tile (the reduction over axis 1, from the zero word). -/
theorem rowLane (src : FVec Ideal S512x512 .f32) (h : S512x512.Reduces [1] S512)
    (hacc : (0x00000000#32 : BitVec 32) = 0x00000000#32) (r : Fin 512) :
    multiReduction (F := Ideal) .add [1] S512 src 0x00000000#32 h (.inl rfl) hacc (ix1 r) = ∑ q : Fin 512, src (ix2 r q) := by
  refine (Ideal.multiReduction_add_single src 0x00000000#32 h (.inl rfl) hacc (ix1 r)).trans ?_
  refine Finset.sum_congr rfl fun q _ => congrArg src (funext fun a => ?_)
  match a with
  | ⟨0, _⟩ => rfl
  | ⟨1, _⟩ => rfl

/-- The sum down column `q` of a 512×512 tile (the reduction over axis 0, from the zero word). -/
theorem colLane (src : FVec Ideal S512x512 .f32) (h : S512x512.Reduces [0] S512)
    (hacc : (0x00000000#32 : BitVec 32) = 0x00000000#32) (q : Fin 512) :
    multiReduction (F := Ideal) .add [0] S512 src 0x00000000#32 h (.inl rfl) hacc (ix1 q) = ∑ r : Fin 512, src (ix2 r q) := by
  refine (Ideal.multiReduction_add_single src 0x00000000#32 h (.inl rfl) hacc (ix1 q)).trans ?_
  refine Finset.sum_congr rfl fun r _ => congrArg src (funext fun a => ?_)
  match a with
  | ⟨0, _⟩ => rfl
  | ⟨1, _⟩ => rfl

/-- A select on the equality test of two words is the `if` on their equality. -/
theorem select_cmpi_eq {α : Type} (x y : BitVec 32) (A B : α) :
    Scalar.select (IntOp.cmpi .eq x y) A B = if x = y then A else B := by
  unfold Scalar.select IntOp.cmpi
  by_cases hxy : x = y
  · subst hxy; simp
  · have hb : (x == y) = false := beq_eq_false_iff_ne.mpr hxy
    rw [if_neg hxy]
    show (if BitVec.ofBool (x == y) = 1#1 then A else B) = B
    rw [hb]
    exact if_neg (by decide)

/-! ### The matrix unit's product: the operand indices of output `(r, q)` at contraction coordinate `k` are `(r, k)` and `(q, k)` -/

theorem lhs_0 (i : S512x512.Idx) (q : dot_S512x512_S512x512_S512x512_1_1_0_0_n_n.contr.Idx) :
    (dot_S512x512_S512x512_S512x512_1_1_0_0_n_n.lhsIdx i q 0).val = (i 0).val := by
  unfold DotDims.lhsIdx
  rw [dif_neg (show ¬(0 : Fin S512x512.rank) ∈ dot_S512x512_S512x512_S512x512_1_1_0_0_n_n.lhsBatch by decide), dif_pos (show (0 : Fin S512x512.rank) ∈ dot_S512x512_S512x512_S512x512_1_1_0_0_n_n.lhsNonContracting by decide)]
  rfl
theorem lhs_1 (i : S512x512.Idx) (q : dot_S512x512_S512x512_S512x512_1_1_0_0_n_n.contr.Idx) :
    (dot_S512x512_S512x512_S512x512_1_1_0_0_n_n.lhsIdx i q 1).val = (q ⟨0, by decide⟩).val :=
  dot_S512x512_S512x512_S512x512_1_1_0_0_n_n.lhsIdx_val_of_single rfl i q
theorem rhs_0 (i : S512x512.Idx) (q : dot_S512x512_S512x512_S512x512_1_1_0_0_n_n.contr.Idx) :
    (dot_S512x512_S512x512_S512x512_1_1_0_0_n_n.rhsIdx i q 0).val = (i 1).val := by
  unfold DotDims.rhsIdx
  rw [dif_neg (show ¬(0 : Fin S512x512.rank) ∈ dot_S512x512_S512x512_S512x512_1_1_0_0_n_n.rhsBatch by decide), dif_pos (show (0 : Fin S512x512.rank) ∈ dot_S512x512_S512x512_S512x512_1_1_0_0_n_n.rhsNonContracting by decide)]
  rfl
theorem rhs_1 (i : S512x512.Idx) (q : dot_S512x512_S512x512_S512x512_1_1_0_0_n_n.contr.Idx) :
    (dot_S512x512_S512x512_S512x512_1_1_0_0_n_n.rhsIdx i q 1).val = (q ⟨0, by decide⟩).val :=
  dot_S512x512_S512x512_S512x512_1_1_0_0_n_n.rhsIdx_val_of_single rfl i q

/-- The product of two 512×512 blocks contracting the second axis of both, into the zero accumulator, at `(r, q)`. -/
theorem matmul_at (y0 y1 : FVec Ideal S512x512 .bf16) (r q : Fin 512) :
    matmul (F := Ideal) dot_S512x512_S512x512_S512x512_1_1_0_0_n_n none y0 y1 (constant S512x512 .f32 0x00000000#32) (ix2 r q)
      = ∑ k : Fin 512, y0 (ix2 r k) * y1 (ix2 q k) := by
  simp only [matmul]
  rw [Ideal.matmul_constant_zero_apply, ← Equiv.sum_comp (ValueIdx.contrEquiv1 dot_S512x512_S512x512_S512x512_1_1_0_0_n_n 512 rfl rfl).symm]
  refine Finset.sum_congr rfl fun k _ => ?_
  have hk := ValueIdx.contrEquiv1_symm_val dot_S512x512_S512x512_S512x512_1_1_0_0_n_n 512 rfl rfl k
  have el : dot_S512x512_S512x512_S512x512_1_1_0_0_n_n.lhsIdx (ix2 r q) ((ValueIdx.contrEquiv1 dot_S512x512_S512x512_S512x512_1_1_0_0_n_n 512 rfl rfl).symm k) = ix2 r k := funext fun a => Fin.ext (by
    match a with
    | ⟨0, _⟩ => exact lhs_0 _ _
    | ⟨1, _⟩ => exact (lhs_1 _ _).trans hk)
  have er : dot_S512x512_S512x512_S512x512_1_1_0_0_n_n.rhsIdx (ix2 r q) ((ValueIdx.contrEquiv1 dot_S512x512_S512x512_S512x512_1_1_0_0_n_n 512 rfl rfl).symm k) = ix2 q k := funext fun a => Fin.ext (by
    match a with
    | ⟨0, _⟩ => exact rhs_0 _ _
    | ⟨1, _⟩ => exact (rhs_1 _ _).trans hk)
  rw [el, er]

end Cert.KernelIdeal.Pay1

namespace Cert.KernelIdeal.Val1

open Cert.KernelIdeal Cert.KernelIdeal.Gen Idealize.ShloMosaic Idealize.ShloMosaic.TcCoe Idealize.SL.Sem
  Idealize.ShloMosaic.ValueIdx

/-- The tile of a block of label rows and a block of audio rows. -/
def T (x0 x1 : Vec Ideal S512x512 .bf16) (r q : Fin 512) : EReal :=
  Ideal.exp ((∑ k : Fin 512, x0 (ix2 r k) * x1 (ix2 q k)) * Cert.Spec.invTemp)
/-- The tile kept where the row's label equals the column's. -/
def Tp (x0 x1 : Vec Ideal S512x512 .bf16) (x2 : Vec Ideal S512x1 .i32) (x3 : Vec Ideal S1x512 .i32) (r q : Fin 512) : EReal :=
  if x2 (ix2 r 0) = x3 (ix2 0 q) then T x0 x1 r q else 0
def rowT (x0 x1 : Vec Ideal S512x512 .bf16) (r : Fin 512) : EReal := ∑ q : Fin 512, T x0 x1 r q
def rowTp (x0 x1 : Vec Ideal S512x512 .bf16) (x2 : Vec Ideal S512x1 .i32) (x3 : Vec Ideal S1x512 .i32) (r : Fin 512) : EReal := ∑ q : Fin 512, Tp x0 x1 x2 x3 r q
def colT (x0 x1 : Vec Ideal S512x512 .bf16) (q : Fin 512) : EReal := ∑ r : Fin 512, T x0 x1 r q
def colTp (x0 x1 : Vec Ideal S512x512 .bf16) (x2 : Vec Ideal S512x1 .i32) (x3 : Vec Ideal S1x512 .i32) (q : Fin 512) : EReal := ∑ r : Fin 512, Tp x0 x1 x2 x3 r q

/-- The named constant is the inverse temperature. -/
theorem inv_temp_eq : Named.named (F := Ideal) Cert.KernelIdeal.κ "inv_temp" (φ := .f32) 0x41649249#32 = Cert.Spec.invTemp :=
  IdealRules.named_const.ideal_named_scalar _ _ _ _ rfl

theorem pay5_at (x0 x1 : Vec Ideal S512x512 .bf16) (r q : Fin 512) : k1_pay5 (F := Ideal) x0 x1 (ix2 r q) = T x0 x1 r q := by
  unfold k1_pay5 T
  rw [shapeCast_self, shapeCast_self]
  show Ideal.exp (matmul (F := Ideal) dot_S512x512_S512x512_S512x512_1_1_0_0_n_n none x0 x1 (constant S512x512 .f32 0x00000000#32) (ix2 r q)
      * Named.named (F := Ideal) Cert.KernelIdeal.κ "inv_temp" (φ := .f32) 0x41649249#32) = _
  rw [Cert.KernelIdeal.Pay1.matmul_at, inv_temp_eq]

theorem pay6_at (x0 x1 : Vec Ideal S512x512 .bf16) (x2 : Vec Ideal S512x1 .i32) (x3 : Vec Ideal S1x512 .i32) (r q : Fin 512) :
    k1_pay6 (F := Ideal) x0 x1 x2 x3 (ix2 r q) = Tp x0 x1 x2 x3 r q := by
  unfold k1_pay6 Tp
  rw [shapeCast_self, shapeCast_self, select_apply, broadcast_apply]
  show Scalar.select (IntOp.cmpi .eq (broadcastTo S512x512 x2 broadcasts_S512x1_S512x512 (ix2 r q))
      (broadcastTo S512x512 x3 broadcasts_S1x512_S512x512 (ix2 r q))) (k1_pay5 (F := Ideal) x0 x1 (ix2 r q)) (Ideal.ofBits .f32 0x00000000#32) = _
  rw [Cert.KernelIdeal.Pay1.broadcastTo_a1_ab_apply, broadcastTo_1b_ab_apply, Cert.KernelIdeal.Pay1.select_cmpi_eq, pay5_at,
    Ideal.ofBits_zero_f32]

theorem pay7_at (x0 x1 : Vec Ideal S512x512 .bf16) (s : Vec Ideal S512x1 .f32) (r : Fin 512) :
    k1_pay7 (F := Ideal) x0 x1 s (ix2 r 0) = s (ix2 r 0) + rowT x0 x1 r := by
  unfold k1_pay7 rowT
  rw [shapeCast_self, addf_apply, Cert.KernelIdeal.Pay1.shapeCast_a_a1_apply, Cert.KernelIdeal.Pay1.rowLane]
  exact congrArg (s (ix2 r 0) + ·) (Finset.sum_congr rfl fun q _ => pay5_at x0 x1 r q)

theorem pay8_at (v24 : FVec Ideal S512x512 .f32) (s : Vec Ideal S512x1 .f32) (r : Fin 512) :
    k1_pay8 (F := Ideal) v24 s (ix2 r 0) = s (ix2 r 0) + ∑ q : Fin 512, v24 (ix2 r q) := by
  unfold k1_pay8
  rw [shapeCast_self, addf_apply, Cert.KernelIdeal.Pay1.shapeCast_a_a1_apply, Cert.KernelIdeal.Pay1.rowLane]

theorem pay9_at (v22 : FVec Ideal S512x512 .f32) (s : Vec Ideal S1x512 .f32) (q : Fin 512) :
    k1_pay9 (F := Ideal) v22 s (ix2 0 q) = s (ix2 0 q) + ∑ r : Fin 512, v22 (ix2 r q) := by
  unfold k1_pay9
  rw [shapeCast_self, addf_apply, shapeCast_a_1a_apply, Cert.KernelIdeal.Pay1.colLane]

theorem pay10_at (v24 : FVec Ideal S512x512 .f32) (s : Vec Ideal S1x512 .f32) (q : Fin 512) :
    k1_pay10 (F := Ideal) v24 s (ix2 0 q) = s (ix2 0 q) + ∑ r : Fin 512, v24 (ix2 r q) := by
  unfold k1_pay10
  rw [shapeCast_self, addf_apply, shapeCast_a_1a_apply, Cert.KernelIdeal.Pay1.colLane]

theorem pay1_at (y : Fin 8192) : k1_pay1 (F := Ideal) (ix2 0 y) = 0 := by
  unfold k1_pay1
  rw [shapeCast_self, broadcast_apply]
  exact Ideal.ofBits_zero_f32
theorem pay2_at (y : Fin 8192) : k1_pay2 (F := Ideal) (ix2 0 y) = 0 := by
  unfold k1_pay2
  rw [shapeCast_self, broadcast_apply]
  exact Ideal.ofBits_zero_f32
theorem pay3_at (r : Fin 512) : k1_pay3 (F := Ideal) (ix2 r 0) = 0 := by
  unfold k1_pay3
  rw [shapeCast_self, broadcast_apply]
  exact Ideal.ofBits_zero_f32
theorem pay4_at (r : Fin 512) : k1_pay4 (F := Ideal) (ix2 r 0) = 0 := by
  unfold k1_pay4
  rw [shapeCast_self, broadcast_apply]
  exact Ideal.ofBits_zero_f32

end Cert.KernelIdeal.Val1

end
-- ==== Proof.KI.Pieces1.lean ====
/-
  One grid point of the pairwise region, for any float instance: what each case of the body leaves in the four
  accumulators and in the output buffers, as the body's payload functions applied to the point's four input blocks and to
  the accumulators' previous contents.  A row accumulator (512×1) is stored whole; a column accumulator (1×8192) is
  updated through the slice of 512 columns that starts at column `512 · (t mod 16)`, so a column inside the slice reads the
  update's payload at its position in the tile and any other column reads what was there before.
-/
import proofs.«166571_j42013370090174_1_alg».proof.Proof.KI.Acc1
import Idealize.ShloMosaic.Lib.ValueIdx
import Idealize.ShloMosaic.Lib.Pipeline.Value
import Idealize.ShloMosaic.Lib.ValueLayout
import Idealize.ShloMosaic.Lib.WritesUnit

set_option maxRecDepth 16384

noncomputable section

namespace Cert.KernelIdeal.Step

open Cert.KernelIdeal Cert.KernelIdeal.Gen Idealize.ShloMosaic Idealize.ShloMosaic.TcCoe Idealize.SL.Sem
  Idealize.ShloMosaic.ValueIdx Idealize.ShloMosaic.Tactic
open Idealize.ShloMosaic.Pipeline (Dat)

/-! ## Whole-shape stores and the column slice, over any view -/

theorem hz2 : (![0, 0] : Fin 2 → Nat) = fun _ => 0 := funext fun a => by fin_cases a <;> rfl

section Whole
variable {sig' : RefSig} {κ' : Kind} {sp' : Space} {S : Shape} {e : EltTy} {Val : EltTy → Type} [∀ e, Nonempty (Val e)]
/-- A store through the whole shape, last, leaves its payload, whatever the view, the earlier stores and the prior contents. -/
theorem read_writes_cons_whole (v : View sig' κ' sp' S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w :=
  (View.read_writes_eq_canon v f _ (fun y => ⟨_, List.mem_cons_self, View.mem_set_unit_zero h inb y⟩)).trans
    (View.canon_cons_unit_zero h inb w L)
end Whole

/-- The column accumulators' slice at point `t` starts at column `512 * (t mod 16)`. -/
theorem off1_eq : ∀ t : Fin grid1.N, k1_off1 (grid1.coords t) = ![0, 512 * (t.val % 16)] := by decide +kernel

section Col
variable {sig' : RefSig} {κ' : Kind} {sp' : Space} {e : EltTy} {Val : EltTy → Type}

/-- The position of column `y` inside its tile of 512 columns. -/
abbrev locC (y : Fin 8192) : Fin 512 := ⟨y.val % 512, Nat.mod_lt _ (by norm_num)⟩

/-- A one-row buffer of 8192 columns whose newest store is a slice of 512 columns at column `512 k`: a column of tile `k`
    reads the slice's payload at its position in the tile, -/
theorem col_read_in (v : View sig' κ' sp' S1x8192 e) (f : v.ty.Contents Val) {off : Fin 2 → ℕ} (k : ℕ)
    (inb : ∀ a, off a + S1x512.size a ≤ S1x8192.size a)
    (w : (Rect.unit (s := S1x8192) off S1x512.size inb).shape.Idx → Val e) (L : List (View.Piece Val S1x8192 e)) (y : Fin 8192)
    (heq : off = ![0, 512 * k]) (h : y.val / 512 = k) :
    v.read Val (v.writes Val f ((⟨Rect.unit (s := S1x8192) off S1x512.size inb, w⟩ : View.Piece Val S1x8192 e) :: L)) (ix2 0 y)
      = w (ix2 0 (locC y)) :=
  View.read_writes_cons_unit_of_mem v f inb w L (ix2 0 y) (ix2 0 (locC y)) heq
    (Fin.forall_fin_two.mpr ⟨rfl, by show y.val = 512 * k + y.val % 512; omega⟩)

/-- any other column reads what the earlier stores left. -/
theorem col_read_out (v : View sig' κ' sp' S1x8192 e) (f : v.ty.Contents Val) {off : Fin 2 → ℕ} (k : ℕ)
    (inb : ∀ a, off a + S1x512.size a ≤ S1x8192.size a)
    (w : (Rect.unit (s := S1x8192) off S1x512.size inb).shape.Idx → Val e) (L : List (View.Piece Val S1x8192 e)) (y : Fin 8192)
    (heq : off = ![0, 512 * k]) (h : ¬y.val / 512 = k) :
    v.read Val (v.writes Val f ((⟨Rect.unit (s := S1x8192) off S1x512.size inb, w⟩ : View.Piece Val S1x8192 e) :: L)) (ix2 0 y)
      = v.read Val (v.writes Val f L) (ix2 0 y) :=
  View.read_writes_cons_unit_of_not_mem v f inb w L (ix2 0 y) heq 1
    (by show y.val < 512 * k ∨ 512 * k + 512 ≤ y.val; omega)

/-- A load of that slice reads, at a position of the tile, the buffer's column there. -/
theorem ld_col (X : S1x8192.Idx → Val e) {off : Fin 2 → ℕ} (k : ℕ) (inb : ∀ a, off a + S1x512.size a ≤ S1x8192.size a)
    (y : Fin 8192) (heq : off = ![0, 512 * k]) (h : y.val / 512 = k) :
    View.ld X (Rect.unit (s := S1x8192) off S1x512.size inb) (ix2 0 (locC y)) = X (ix2 0 y) := by
  subst heq
  show X _ = X _
  congr 1
  funext a
  apply Fin.ext
  match a with
  | ⟨0, _⟩ => rfl
  | ⟨1, _⟩ => show 512 * k + 1 * (y.val % 512) = y.val; omega
end Col

variable {F : FTy → Type} [FloatOps F] [Named F]
variable (V : (c : Dev nD) → (b : Ref sig .tc) → Buf (Elt F) ((c : Thread nD τ).loc b)) (c : Dev nD) (t : Fin cfg1.N)

/-! ## A point that is neither first in its row of tiles nor the last -/
section C
variable (h0 : ¬cond1_0 (grid1.coords t)) (h1 : ¬cond1_1 (grid1.coords t)) (h2 : ¬cond1_2 (grid1.coords t)) (p : St1 F)

/-- The row accumulator after a point that is neither first in its row of tiles nor the last: its previous contents with the tile's row sums added. -/
theorem sC_s0 : (stC V c t h0 h1 h2 p).s0 = k1_pay7 (iblk1 V c 0 t) (iblk1 V c 1 t) p.s0 := by
  unfold stC; dsimp only
  unfold rC kernelRun1_C; dsimp only; sl_unfold_words
  rw [read_writes_cons_whole (S := S512x1) _ _ hz2]
  simp only [View.readAt_eq_ld, (hs1_0 t).read_unread, (hs1_1 t).read_unread, (hs1_2 t).read_unread, (hs1_3 t).read_unread, View.ld_unit_zero (S := S512x512) hz2, View.ld_unit_zero (S := S512x1) hz2, View.ld_unit_zero (S := S1x512) hz2, hsc1_0.read_unread]
/-- The masked row accumulator likewise. -/
theorem sC_s1 : (stC V c t h0 h1 h2 p).s1 = k1_pay8 (k1_pay6 (iblk1 V c 0 t) (iblk1 V c 1 t) (iblk1 V c 2 t) (iblk1 V c 3 t)) p.s1 := by
  unfold stC; dsimp only
  unfold rC kernelRun1_C; dsimp only; sl_unfold_words
  rw [read_writes_cons_whole (S := S512x1) _ _ hz2]
  simp only [View.readAt_eq_ld, (hs1_0 t).read_unread, (hs1_1 t).read_unread, (hs1_2 t).read_unread, (hs1_3 t).read_unread, View.ld_unit_zero (S := S512x512) hz2, View.ld_unit_zero (S := S512x1) hz2, View.ld_unit_zero (S := S1x512) hz2, hsc1_1.read_unread]
/-- The row output's buffer holds what the row accumulator holds. -/
theorem sC_o4 : (stC V c t h0 h1 h2 p).o4 = k1_pay7 (iblk1 V c 0 t) (iblk1 V c 1 t) p.s0 := by
  unfold stC; dsimp only
  unfold rC kernelRun1_C; dsimp only; sl_unfold_words
  refine (read_writes_cons_whole (S := S512x1) _ _ hz2 _ _ _).trans ?_
  rw [View.readCov_cons_toLoadRect]
  simp only [View.readAt_eq_ld, (hs1_0 t).read_unread, (hs1_1 t).read_unread, (hs1_2 t).read_unread, (hs1_3 t).read_unread, View.ld_unit_zero (S := S512x512) hz2, View.ld_unit_zero (S := S512x1) hz2, View.ld_unit_zero (S := S1x512) hz2, hsc1_0.read_unread]
theorem sC_o5 : (stC V c t h0 h1 h2 p).o5 = k1_pay8 (k1_pay6 (iblk1 V c 0 t) (iblk1 V c 1 t) (iblk1 V c 2 t) (iblk1 V c 3 t)) p.s1 := by
  unfold stC; dsimp only
  unfold rC kernelRun1_C; dsimp only; sl_unfold_words
  refine (read_writes_cons_whole (S := S512x1) _ _ hz2 _ _ _).trans ?_
  rw [View.readCov_cons_toLoadRect]
  simp only [View.readAt_eq_ld, (hs1_0 t).read_unread, (hs1_1 t).read_unread, (hs1_2 t).read_unread, (hs1_3 t).read_unread, View.ld_unit_zero (S := S512x512) hz2, View.ld_unit_zero (S := S512x1) hz2, View.ld_unit_zero (S := S1x512) hz2, hsc1_1.read_unread]
/-- A column of the tile's 512 columns of the column accumulator: the update's payload at the column's position in the tile. -/
theorem sC_s2_in (y : Fin 8192) (h : y.val / 512 = t.val % 16) : (stC V c t h0 h1 h2 p).s2 (ix2 0 y)
    = k1_pay9 (k1_pay5 (iblk1 V c 0 t) (iblk1 V c 1 t)) (View.ld p.s2 (Rect.unit (s := S1x8192) (k1_off1 (grid1.coords t)) S1x512.size (Facts₀.k1_off1_inb (grid1.coords t)))) (ix2 0 (locC y)) := by
  unfold stC; dsimp only
  unfold rC kernelRun1_C; dsimp only; sl_unfold_words
  refine (col_read_in _ _ (t.val % 16) _ _ _ y (off1_eq t) h).trans ?_
  simp only [View.readAt_eq_ld, (hs1_0 t).read_unread, (hs1_1 t).read_unread, (hs1_2 t).read_unread, (hs1_3 t).read_unread, View.ld_unit_zero (S := S512x512) hz2, View.ld_unit_zero (S := S512x1) hz2, View.ld_unit_zero (S := S1x512) hz2, hsc1_2.read_unread]
/-- Any other column keeps what it held. -/
theorem sC_s2_out (y : Fin 8192) (h : ¬y.val / 512 = t.val % 16) : (stC V c t h0 h1 h2 p).s2 (ix2 0 y) = p.s2 (ix2 0 y) := by
  unfold stC; dsimp only
  unfold rC kernelRun1_C; dsimp only; sl_unfold_words
  refine (col_read_out _ _ (t.val % 16) _ _ _ y (off1_eq t) h).trans ?_
  rw [View.writes_nil, hsc1_2.read_unread]
/-- A column of the tile's 512 columns of the masked column accumulator: the update's payload at the column's position in the tile. -/
theorem sC_s3_in (y : Fin 8192) (h : y.val / 512 = t.val % 16) : (stC V c t h0 h1 h2 p).s3 (ix2 0 y)
    = k1_pay10 (k1_pay6 (iblk1 V c 0 t) (iblk1 V c 1 t) (iblk1 V c 2 t) (iblk1 V c 3 t)) (View.ld p.s3 (Rect.unit (s := S1x8192) (k1_off1 (grid1.coords t)) S1x512.size (Facts₀.k1_off1_inb (grid1.coords t)))) (ix2 0 (locC y)) := by
  unfold stC; dsimp only
  unfold rC kernelRun1_C; dsimp only; sl_unfold_words
  refine (col_read_in _ _ (t.val % 16) _ _ _ y (off1_eq t) h).trans ?_
  simp only [View.readAt_eq_ld, (hs1_0 t).read_unread, (hs1_1 t).read_unread, (hs1_2 t).read_unread, (hs1_3 t).read_unread, View.ld_unit_zero (S := S512x512) hz2, View.ld_unit_zero (S := S512x1) hz2, View.ld_unit_zero (S := S1x512) hz2, hsc1_3.read_unread]
/-- Any other column keeps what it held. -/
theorem sC_s3_out (y : Fin 8192) (h : ¬y.val / 512 = t.val % 16) : (stC V c t h0 h1 h2 p).s3 (ix2 0 y) = p.s3 (ix2 0 y) := by
  unfold stC; dsimp only
  unfold rC kernelRun1_C; dsimp only; sl_unfold_words
  refine (col_read_out _ _ (t.val % 16) _ _ _ y (off1_eq t) h).trans ?_
  rw [View.writes_nil, hsc1_3.read_unread]
end C

/-! ## The last point -/
section D
variable (h0 : ¬cond1_0 (grid1.coords t)) (h1 : ¬cond1_1 (grid1.coords t)) (h2 : cond1_2 (grid1.coords t)) (p : St1 F)

/-- The row accumulator after the last point: its previous contents with the tile's row sums added. -/
theorem sD_s0 : (stD V c t h0 h1 h2 p).s0 = k1_pay7 (iblk1 V c 0 t) (iblk1 V c 1 t) p.s0 := by
  unfold stD; dsimp only
  unfold rD kernelRun1_D; dsimp only; sl_unfold_words
  rw [read_writes_cons_whole (S := S512x1) _ _ hz2]
  simp only [View.readAt_eq_ld, (hs1_0 t).read_unread, (hs1_1 t).read_unread, (hs1_2 t).read_unread, (hs1_3 t).read_unread, View.ld_unit_zero (S := S512x512) hz2, View.ld_unit_zero (S := S512x1) hz2, View.ld_unit_zero (S := S1x512) hz2, hsc1_0.read_unread]
/-- The masked row accumulator likewise. -/
theorem sD_s1 : (stD V c t h0 h1 h2 p).s1 = k1_pay8 (k1_pay6 (iblk1 V c 0 t) (iblk1 V c 1 t) (iblk1 V c 2 t) (iblk1 V c 3 t)) p.s1 := by
  unfold stD; dsimp only
  unfold rD kernelRun1_D; dsimp only; sl_unfold_words
  rw [read_writes_cons_whole (S := S512x1) _ _ hz2]
  simp only [View.readAt_eq_ld, (hs1_0 t).read_unread, (hs1_1 t).read_unread, (hs1_2 t).read_unread, (hs1_3 t).read_unread, View.ld_unit_zero (S := S512x512) hz2, View.ld_unit_zero (S := S512x1) hz2, View.ld_unit_zero (S := S1x512) hz2, hsc1_1.read_unread]
/-- The row output's buffer holds what the row accumulator holds. -/
theorem sD_o4 : (stD V c t h0 h1 h2 p).o4 = k1_pay7 (iblk1 V c 0 t) (iblk1 V c 1 t) p.s0 := by
  unfold stD; dsimp only
  unfold rD kernelRun1_D; dsimp only; sl_unfold_words
  refine (read_writes_cons_whole (S := S512x1) _ _ hz2 _ _ _).trans ?_
  rw [View.readCov_cons_toLoadRect]
  simp only [View.readAt_eq_ld, (hs1_0 t).read_unread, (hs1_1 t).read_unread, (hs1_2 t).read_unread, (hs1_3 t).read_unread, View.ld_unit_zero (S := S512x512) hz2, View.ld_unit_zero (S := S512x1) hz2, View.ld_unit_zero (S := S1x512) hz2, hsc1_0.read_unread]
theorem sD_o5 : (stD V c t h0 h1 h2 p).o5 = k1_pay8 (k1_pay6 (iblk1 V c 0 t) (iblk1 V c 1 t) (iblk1 V c 2 t) (iblk1 V c 3 t)) p.s1 := by
  unfold stD; dsimp only
  unfold rD kernelRun1_D; dsimp only; sl_unfold_words
  refine (read_writes_cons_whole (S := S512x1) _ _ hz2 _ _ _).trans ?_
  rw [View.readCov_cons_toLoadRect]
  simp only [View.readAt_eq_ld, (hs1_0 t).read_unread, (hs1_1 t).read_unread, (hs1_2 t).read_unread, (hs1_3 t).read_unread, View.ld_unit_zero (S := S512x512) hz2, View.ld_unit_zero (S := S512x1) hz2, View.ld_unit_zero (S := S1x512) hz2, hsc1_1.read_unread]
/-- A column of the tile's 512 columns of the column accumulator: the update's payload at the column's position in the tile. -/
theorem sD_s2_in (y : Fin 8192) (h : y.val / 512 = t.val % 16) : (stD V c t h0 h1 h2 p).s2 (ix2 0 y)
    = k1_pay9 (k1_pay5 (iblk1 V c 0 t) (iblk1 V c 1 t)) (View.ld p.s2 (Rect.unit (s := S1x8192) (k1_off1 (grid1.coords t)) S1x512.size (Facts₀.k1_off1_inb (grid1.coords t)))) (ix2 0 (locC y)) := by
  unfold stD; dsimp only
  unfold rD kernelRun1_D; dsimp only; sl_unfold_words
  refine (col_read_in _ _ (t.val % 16) _ _ _ y (off1_eq t) h).trans ?_
  simp only [View.readAt_eq_ld, (hs1_0 t).read_unread, (hs1_1 t).read_unread, (hs1_2 t).read_unread, (hs1_3 t).read_unread, View.ld_unit_zero (S := S512x512) hz2, View.ld_unit_zero (S := S512x1) hz2, View.ld_unit_zero (S := S1x512) hz2, hsc1_2.read_unread]
/-- Any other column keeps what it held. -/
theorem sD_s2_out (y : Fin 8192) (h : ¬y.val / 512 = t.val % 16) : (stD V c t h0 h1 h2 p).s2 (ix2 0 y) = p.s2 (ix2 0 y) := by
  unfold stD; dsimp only
  unfold rD kernelRun1_D; dsimp only; sl_unfold_words
  refine (col_read_out _ _ (t.val % 16) _ _ _ y (off1_eq t) h).trans ?_
  rw [View.writes_nil, hsc1_2.read_unread]
/-- A column of the tile's 512 columns of the masked column accumulator: the update's payload at the column's position in the tile. -/
theorem sD_s3_in (y : Fin 8192) (h : y.val / 512 = t.val % 16) : (stD V c t h0 h1 h2 p).s3 (ix2 0 y)
    = k1_pay10 (k1_pay6 (iblk1 V c 0 t) (iblk1 V c 1 t) (iblk1 V c 2 t) (iblk1 V c 3 t)) (View.ld p.s3 (Rect.unit (s := S1x8192) (k1_off1 (grid1.coords t)) S1x512.size (Facts₀.k1_off1_inb (grid1.coords t)))) (ix2 0 (locC y)) := by
  unfold stD; dsimp only
  unfold rD kernelRun1_D; dsimp only; sl_unfold_words
  refine (col_read_in _ _ (t.val % 16) _ _ _ y (off1_eq t) h).trans ?_
  simp only [View.readAt_eq_ld, (hs1_0 t).read_unread, (hs1_1 t).read_unread, (hs1_2 t).read_unread, (hs1_3 t).read_unread, View.ld_unit_zero (S := S512x512) hz2, View.ld_unit_zero (S := S512x1) hz2, View.ld_unit_zero (S := S1x512) hz2, hsc1_3.read_unread]
/-- Any other column keeps what it held. -/
theorem sD_s3_out (y : Fin 8192) (h : ¬y.val / 512 = t.val % 16) : (stD V c t h0 h1 h2 p).s3 (ix2 0 y) = p.s3 (ix2 0 y) := by
  unfold stD; dsimp only
  unfold rD kernelRun1_D; dsimp only; sl_unfold_words
  refine (col_read_out _ _ (t.val % 16) _ _ _ y (off1_eq t) h).trans ?_
  rw [View.writes_nil, hsc1_3.read_unread]
/-- The column output's buffer is a copy of the whole column accumulator. -/
theorem sD_o6 : (stD V c t h0 h1 h2 p).o6 = (stD V c t h0 h1 h2 p).s2 := by
  unfold stD; dsimp only
  unfold rD kernelRun1_D; dsimp only; sl_unfold_words
  refine (read_writes_cons_whole (S := S1x8192) _ _ hz2 _ _ _).trans ?_
  simp only [View.readAt_eq_ld, View.ld_unit_zero (S := S1x8192) hz2]
/-- The masked column output's buffer is a copy of the whole masked column accumulator. -/
theorem sD_o7 : (stD V c t h0 h1 h2 p).o7 = (stD V c t h0 h1 h2 p).s3 := by
  unfold stD; dsimp only
  unfold rD kernelRun1_D; dsimp only; sl_unfold_words
  refine (read_writes_cons_whole (S := S1x8192) _ _ hz2 _ _ _).trans ?_
  simp only [View.readAt_eq_ld, View.ld_unit_zero (S := S1x8192) hz2]
end D

/-! ## The first tile of a later row of tiles -/
section B
variable (h0 : ¬cond1_0 (grid1.coords t)) (h1 : cond1_1 (grid1.coords t)) (h2 : ¬cond1_2 (grid1.coords t)) (p : St1 F)

/-- The row accumulator after the first tile of a later row of tiles: the tile's row sums added to the zero block it was reset to. -/
theorem sB_s0 : (stB V c t h0 h1 h2 p).s0 = k1_pay7 (iblk1 V c 0 t) (iblk1 V c 1 t) k1_pay3 := by
  unfold stB; dsimp only
  unfold rB kernelRun1_B; dsimp only; sl_unfold_words
  rw [read_writes_cons_whole (S := S512x1) _ _ hz2]
  simp only [View.readAt_eq_ld, (hs1_0 t).read_unread, (hs1_1 t).read_unread, (hs1_2 t).read_unread, (hs1_3 t).read_unread, View.ld_unit_zero (S := S512x512) hz2, View.ld_unit_zero (S := S512x1) hz2, View.ld_unit_zero (S := S1x512) hz2, View.readCov_unit_zero (S := S512x1) _ hz2]
/-- The masked row accumulator likewise. -/
theorem sB_s1 : (stB V c t h0 h1 h2 p).s1 = k1_pay8 (k1_pay6 (iblk1 V c 0 t) (iblk1 V c 1 t) (iblk1 V c 2 t) (iblk1 V c 3 t)) k1_pay4 := by
  unfold stB; dsimp only
  unfold rB kernelRun1_B; dsimp only; sl_unfold_words
  rw [read_writes_cons_whole (S := S512x1) _ _ hz2]
  simp only [View.readAt_eq_ld, (hs1_0 t).read_unread, (hs1_1 t).read_unread, (hs1_2 t).read_unread, (hs1_3 t).read_unread, View.ld_unit_zero (S := S512x512) hz2, View.ld_unit_zero (S := S512x1) hz2, View.ld_unit_zero (S := S1x512) hz2, View.readCov_unit_zero (S := S512x1) _ hz2]
/-- The row output's buffer holds what the row accumulator holds. -/
theorem sB_o4 : (stB V c t h0 h1 h2 p).o4 = k1_pay7 (iblk1 V c 0 t) (iblk1 V c 1 t) k1_pay3 := by
  unfold stB; dsimp only
  unfold rB kernelRun1_B; dsimp only; sl_unfold_words
  refine (read_writes_cons_whole (S := S512x1) _ _ hz2 _ _ _).trans ?_
  rw [View.readCov_cons_toLoadRect]
  simp only [View.readAt_eq_ld, (hs1_0 t).read_unread, (hs1_1 t).read_unread, (hs1_2 t).read_unread, (hs1_3 t).read_unread, View.ld_unit_zero (S := S512x512) hz2, View.ld_unit_zero (S := S512x1) hz2, View.ld_unit_zero (S := S1x512) hz2, View.readCov_unit_zero (S := S512x1) _ hz2]
theorem sB_o5 : (stB V c t h0 h1 h2 p).o5 = k1_pay8 (k1_pay6 (iblk1 V c 0 t) (iblk1 V c 1 t) (iblk1 V c 2 t) (iblk1 V c 3 t)) k1_pay4 := by
  unfold stB; dsimp only
  unfold rB kernelRun1_B; dsimp only; sl_unfold_words
  refine (read_writes_cons_whole (S := S512x1) _ _ hz2 _ _ _).trans ?_
  rw [View.readCov_cons_toLoadRect]
  simp only [View.readAt_eq_ld, (hs1_0 t).read_unread, (hs1_1 t).read_unread, (hs1_2 t).read_unread, (hs1_3 t).read_unread, View.ld_unit_zero (S := S512x512) hz2, View.ld_unit_zero (S := S512x1) hz2, View.ld_unit_zero (S := S1x512) hz2, View.readCov_unit_zero (S := S512x1) _ hz2]
/-- A column of the tile's 512 columns of the column accumulator: the update's payload at the column's position in the tile. -/
theorem sB_s2_in (y : Fin 8192) (h : y.val / 512 = t.val % 16) : (stB V c t h0 h1 h2 p).s2 (ix2 0 y)
    = k1_pay9 (k1_pay5 (iblk1 V c 0 t) (iblk1 V c 1 t)) (View.ld p.s2 (Rect.unit (s := S1x8192) (k1_off1 (grid1.coords t)) S1x512.size (Facts₀.k1_off1_inb (grid1.coords t)))) (ix2 0 (locC y)) := by
  unfold stB; dsimp only
  unfold rB kernelRun1_B; dsimp only; sl_unfold_words
  refine (col_read_in _ _ (t.val % 16) _ _ _ y (off1_eq t) h).trans ?_
  simp only [View.readAt_eq_ld, (hs1_0 t).read_unread, (hs1_1 t).read_unread, (hs1_2 t).read_unread, (hs1_3 t).read_unread, View.ld_unit_zero (S := S512x512) hz2, View.ld_unit_zero (S := S512x1) hz2, View.ld_unit_zero (S := S1x512) hz2, hsc1_2.read_unread]
/-- Any other column keeps what it held. -/
theorem sB_s2_out (y : Fin 8192) (h : ¬y.val / 512 = t.val % 16) : (stB V c t h0 h1 h2 p).s2 (ix2 0 y) = p.s2 (ix2 0 y) := by
  unfold stB; dsimp only
  unfold rB kernelRun1_B; dsimp only; sl_unfold_words
  refine (col_read_out _ _ (t.val % 16) _ _ _ y (off1_eq t) h).trans ?_
  rw [View.writes_nil, hsc1_2.read_unread]
/-- A column of the tile's 512 columns of the masked column accumulator: the update's payload at the column's position in the tile. -/
theorem sB_s3_in (y : Fin 8192) (h : y.val / 512 = t.val % 16) : (stB V c t h0 h1 h2 p).s3 (ix2 0 y)
    = k1_pay10 (k1_pay6 (iblk1 V c 0 t) (iblk1 V c 1 t) (iblk1 V c 2 t) (iblk1 V c 3 t)) (View.ld p.s3 (Rect.unit (s := S1x8192) (k1_off1 (grid1.coords t)) S1x512.size (Facts₀.k1_off1_inb (grid1.coords t)))) (ix2 0 (locC y)) := by
  unfold stB; dsimp only
  unfold rB kernelRun1_B; dsimp only; sl_unfold_words
  refine (col_read_in _ _ (t.val % 16) _ _ _ y (off1_eq t) h).trans ?_
  simp only [View.readAt_eq_ld, (hs1_0 t).read_unread, (hs1_1 t).read_unread, (hs1_2 t).read_unread, (hs1_3 t).read_unread, View.ld_unit_zero (S := S512x512) hz2, View.ld_unit_zero (S := S512x1) hz2, View.ld_unit_zero (S := S1x512) hz2, hsc1_3.read_unread]
/-- Any other column keeps what it held. -/
theorem sB_s3_out (y : Fin 8192) (h : ¬y.val / 512 = t.val % 16) : (stB V c t h0 h1 h2 p).s3 (ix2 0 y) = p.s3 (ix2 0 y) := by
  unfold stB; dsimp only
  unfold rB kernelRun1_B; dsimp only; sl_unfold_words
  refine (col_read_out _ _ (t.val % 16) _ _ _ y (off1_eq t) h).trans ?_
  rw [View.writes_nil, hsc1_3.read_unread]
end B

/-! ## The grid's first point -/
section A
variable (h0 : cond1_0 (grid1.coords t)) (h1 : cond1_1 (grid1.coords t)) (h2 : ¬cond1_2 (grid1.coords t))

/-- The row accumulator after the grid's first point: the tile's row sums added to the zero block it was reset to. -/
theorem sA_s0 : (stA V c t h0 h1 h2).s0 = k1_pay7 (iblk1 V c 0 t) (iblk1 V c 1 t) k1_pay3 := by
  unfold stA; dsimp only
  unfold rA kernelRun1_A; dsimp only; sl_unfold_words
  rw [read_writes_cons_whole (S := S512x1) _ _ hz2]
  simp only [View.readAt_eq_ld, (hs1_0 t).read_unread, (hs1_1 t).read_unread, (hs1_2 t).read_unread, (hs1_3 t).read_unread, View.ld_unit_zero (S := S512x512) hz2, View.ld_unit_zero (S := S512x1) hz2, View.ld_unit_zero (S := S1x512) hz2, View.readCov_unit_zero (S := S512x1) _ hz2]
/-- The masked row accumulator likewise. -/
theorem sA_s1 : (stA V c t h0 h1 h2).s1 = k1_pay8 (k1_pay6 (iblk1 V c 0 t) (iblk1 V c 1 t) (iblk1 V c 2 t) (iblk1 V c 3 t)) k1_pay4 := by
  unfold stA; dsimp only
  unfold rA kernelRun1_A; dsimp only; sl_unfold_words
  rw [read_writes_cons_whole (S := S512x1) _ _ hz2]
  simp only [View.readAt_eq_ld, (hs1_0 t).read_unread, (hs1_1 t).read_unread, (hs1_2 t).read_unread, (hs1_3 t).read_unread, View.ld_unit_zero (S := S512x512) hz2, View.ld_unit_zero (S := S512x1) hz2, View.ld_unit_zero (S := S1x512) hz2, View.readCov_unit_zero (S := S512x1) _ hz2]
/-- The row output's buffer holds what the row accumulator holds. -/
theorem sA_o4 : (stA V c t h0 h1 h2).o4 = k1_pay7 (iblk1 V c 0 t) (iblk1 V c 1 t) k1_pay3 := by
  unfold stA; dsimp only
  unfold rA kernelRun1_A; dsimp only; sl_unfold_words
  refine (read_writes_cons_whole (S := S512x1) _ _ hz2 _ _ _).trans ?_
  rw [View.readCov_cons_toLoadRect]
  simp only [View.readAt_eq_ld, (hs1_0 t).read_unread, (hs1_1 t).read_unread, (hs1_2 t).read_unread, (hs1_3 t).read_unread, View.ld_unit_zero (S := S512x512) hz2, View.ld_unit_zero (S := S512x1) hz2, View.ld_unit_zero (S := S1x512) hz2, View.readCov_unit_zero (S := S512x1) _ hz2]
theorem sA_o5 : (stA V c t h0 h1 h2).o5 = k1_pay8 (k1_pay6 (iblk1 V c 0 t) (iblk1 V c 1 t) (iblk1 V c 2 t) (iblk1 V c 3 t)) k1_pay4 := by
  unfold stA; dsimp only
  unfold rA kernelRun1_A; dsimp only; sl_unfold_words
  refine (read_writes_cons_whole (S := S512x1) _ _ hz2 _ _ _).trans ?_
  rw [View.readCov_cons_toLoadRect]
  simp only [View.readAt_eq_ld, (hs1_0 t).read_unread, (hs1_1 t).read_unread, (hs1_2 t).read_unread, (hs1_3 t).read_unread, View.ld_unit_zero (S := S512x512) hz2, View.ld_unit_zero (S := S512x1) hz2, View.ld_unit_zero (S := S1x512) hz2, View.readCov_unit_zero (S := S512x1) _ hz2]
/-- A column of the tile's 512 columns of the column accumulator: the update's payload at the column's position in the tile. -/
theorem sA_s2_in (y : Fin 8192) (h : y.val / 512 = t.val % 16) : (stA V c t h0 h1 h2).s2 (ix2 0 y)
    = k1_pay9 (k1_pay5 (iblk1 V c 0 t) (iblk1 V c 1 t)) (View.ld k1_pay1 (Rect.unit (s := S1x8192) (k1_off1 (grid1.coords t)) S1x512.size (Facts₀.k1_off1_inb (grid1.coords t)))) (ix2 0 (locC y)) := by
  unfold stA; dsimp only
  unfold rA kernelRun1_A; dsimp only; sl_unfold_words
  refine (col_read_in _ _ (t.val % 16) _ _ _ y (off1_eq t) h).trans ?_
  simp only [View.readAt_eq_ld, (hs1_0 t).read_unread, (hs1_1 t).read_unread, (hs1_2 t).read_unread, (hs1_3 t).read_unread, View.ld_unit_zero (S := S512x512) hz2, View.ld_unit_zero (S := S512x1) hz2, View.ld_unit_zero (S := S1x512) hz2, read_writes_cons_whole (S := S1x8192) _ _ hz2]
/-- Any other column keeps what it held. -/
theorem sA_s2_out (y : Fin 8192) (h : ¬y.val / 512 = t.val % 16) : (stA V c t h0 h1 h2).s2 (ix2 0 y) = k1_pay1 (ix2 0 y) := by
  unfold stA; dsimp only
  unfold rA kernelRun1_A; dsimp only; sl_unfold_words
  refine (col_read_out _ _ (t.val % 16) _ _ _ y (off1_eq t) h).trans ?_
  rw [read_writes_cons_whole (S := S1x8192) _ _ hz2]
/-- A column of the tile's 512 columns of the masked column accumulator: the update's payload at the column's position in the tile. -/
theorem sA_s3_in (y : Fin 8192) (h : y.val / 512 = t.val % 16) : (stA V c t h0 h1 h2).s3 (ix2 0 y)
    = k1_pay10 (k1_pay6 (iblk1 V c 0 t) (iblk1 V c 1 t) (iblk1 V c 2 t) (iblk1 V c 3 t)) (View.ld k1_pay2 (Rect.unit (s := S1x8192) (k1_off1 (grid1.coords t)) S1x512.size (Facts₀.k1_off1_inb (grid1.coords t)))) (ix2 0 (locC y)) := by
  unfold stA; dsimp only
  unfold rA kernelRun1_A; dsimp only; sl_unfold_words
  refine (col_read_in _ _ (t.val % 16) _ _ _ y (off1_eq t) h).trans ?_
  simp only [View.readAt_eq_ld, (hs1_0 t).read_unread, (hs1_1 t).read_unread, (hs1_2 t).read_unread, (hs1_3 t).read_unread, View.ld_unit_zero (S := S512x512) hz2, View.ld_unit_zero (S := S512x1) hz2, View.ld_unit_zero (S := S1x512) hz2, read_writes_cons_whole (S := S1x8192) _ _ hz2]
/-- Any other column keeps what it held. -/
theorem sA_s3_out (y : Fin 8192) (h : ¬y.val / 512 = t.val % 16) : (stA V c t h0 h1 h2).s3 (ix2 0 y) = k1_pay2 (ix2 0 y) := by
  unfold stA; dsimp only
  unfold rA kernelRun1_A; dsimp only; sl_unfold_words
  refine (col_read_out _ _ (t.val % 16) _ _ _ y (off1_eq t) h).trans ?_
  rw [read_writes_cons_whole (S := S1x8192) _ _ hz2]
end A

end Cert.KernelIdeal.Step

end
-- ==== Proof.KI.Step.lean ====
/-
  One grid point of the pairwise region at the ideal instance.  A tile is the 512×512 matrix
  `T (r, q) = exp ((Σ_k x0 (r, k) · x1 (q, k)) · κ)` of a block `x0` of label rows and a block `x1` of audio rows, `Tp` the same
  kept where the row label equals the column label.  Each case of the body adds the tile's row sums into the two row
  accumulators (reset first where the row of tiles begins) and its column sums into the tile's 512 columns of the two column
  accumulators (reset whole at the grid's first point); the row outputs copy the row accumulators, the column outputs
  copy the column accumulators at the last point.
-/
import proofs.«166571_j42013370090174_1_alg».proof.Proof.KI.Acc1
import proofs.«166571_j42013370090174_1_alg».proof.Proof.KI.Pay1
import proofs.«166571_j42013370090174_1_alg».proof.Proof.KI.Pieces1
import Idealize.ShloMosaic.Lib.ValueIdx
import Idealize.ShloMosaic.Lib.Pipeline.Value
import Idealize.ShloMosaic.Lib.ValueLayout
import Idealize.ShloMosaic.Lib.WritesUnit
import Idealize.ShloMosaic.PureOps.Ideal.Laws

noncomputable section

namespace Cert.KernelIdeal.Val1

open Cert.KernelIdeal Cert.KernelIdeal.Gen Idealize.ShloMosaic Idealize.ShloMosaic.TcCoe Idealize.SL.Sem
  Idealize.ShloMosaic.ValueIdx
open Idealize.ShloMosaic.Pipeline (Dat)

/-! ## The accumulator updates at an index: the old entry plus the tile's sum along the other axis -/

theorem step_rowp_at (x0 x1 : Vec Ideal S512x512 .bf16) (x2 : Vec Ideal S512x1 .i32) (x3 : Vec Ideal S1x512 .i32)
    (s : Vec Ideal S512x1 .f32) (r : Fin 512) :
    k1_pay8 (F := Ideal) (k1_pay6 (F := Ideal) x0 x1 x2 x3) s (ix2 r 0) = s (ix2 r 0) + rowTp x0 x1 x2 x3 r :=
  (pay8_at _ s r).trans (congrArg (fun z : EReal => s (ix2 r 0) + z) (Finset.sum_congr rfl fun q _ => pay6_at x0 x1 x2 x3 r q))
theorem step_col_at (x0 x1 : Vec Ideal S512x512 .bf16) (s : Vec Ideal S1x512 .f32) (q : Fin 512) :
    k1_pay9 (F := Ideal) (k1_pay5 (F := Ideal) x0 x1) s (ix2 0 q) = s (ix2 0 q) + colT x0 x1 q :=
  (pay9_at _ s q).trans (congrArg (fun z : EReal => s (ix2 0 q) + z) (Finset.sum_congr rfl fun r _ => pay5_at x0 x1 r q))
theorem step_colp_at (x0 x1 : Vec Ideal S512x512 .bf16) (x2 : Vec Ideal S512x1 .i32) (x3 : Vec Ideal S1x512 .i32)
    (s : Vec Ideal S1x512 .f32) (q : Fin 512) :
    k1_pay10 (F := Ideal) (k1_pay6 (F := Ideal) x0 x1 x2 x3) s (ix2 0 q) = s (ix2 0 q) + colTp x0 x1 x2 x3 q :=
  (pay10_at _ s q).trans (congrArg (fun z : EReal => s (ix2 0 q) + z) (Finset.sum_congr rfl fun r _ => pay6_at x0 x1 x2 x3 r q))

variable (V : (c : Dev nD) → (b : Ref sig .tc) → Buf (Elt Ideal) ((c : Thread nD τ).loc b)) (c : Dev nD) (t : Fin cfg1.N)

/-- The four input blocks at point `t`, at their literal types. -/
abbrev X0 : Vec Ideal S512x512 .bf16 := iblk1 V c 0 t
abbrev X1 : Vec Ideal S512x512 .bf16 := iblk1 V c 1 t
abbrev X2 : Vec Ideal S512x1 .i32 := iblk1 V c 2 t
abbrev X3 : Vec Ideal S1x512 .i32 := iblk1 V c 3 t

/-- Column `y` of the column accumulators lies in the tile's columns at point `t` (tile column `t mod 16`). -/
abbrev inTile (y : Fin 8192) : Prop := y.val / 512 = t.val % 16
/-- Its position inside the tile. -/
abbrev loc (y : Fin 8192) : Fin 512 := ⟨y.val % 512, Nat.mod_lt _ (by norm_num)⟩

/-! ## The first point: every accumulator starts from zero -/
section A
variable (h0 : cond1_0 (grid1.coords t)) (h1 : cond1_1 (grid1.coords t)) (h2 : ¬cond1_2 (grid1.coords t))
theorem stA_s0 (r : Fin 512) : (stA V c t h0 h1 h2).s0 (ix2 r 0) = rowT (X0 V c t) (X1 V c t) r :=
  ((congrFun (Step.sA_s0 (F := Ideal) V c t h0 h1 h2) (ix2 r 0)).trans (pay7_at (X0 V c t) (X1 V c t) (k1_pay3 (F := Ideal)) r)).trans
    ((congrArg (fun z : EReal => z + rowT (X0 V c t) (X1 V c t) r) (pay3_at r)).trans (zero_add _))
theorem stA_s1 (r : Fin 512) : (stA V c t h0 h1 h2).s1 (ix2 r 0) = rowTp (X0 V c t) (X1 V c t) (X2 V c t) (X3 V c t) r :=
  ((congrFun (Step.sA_s1 (F := Ideal) V c t h0 h1 h2) (ix2 r 0)).trans (step_rowp_at (X0 V c t) (X1 V c t) (X2 V c t) (X3 V c t) (k1_pay4 (F := Ideal)) r)).trans
    ((congrArg (fun z : EReal => z + rowTp (X0 V c t) (X1 V c t) (X2 V c t) (X3 V c t) r) (pay4_at r)).trans (zero_add _))
theorem stA_s2 (y : Fin 8192) : (stA V c t h0 h1 h2).s2 (ix2 0 y) = if inTile t y then colT (X0 V c t) (X1 V c t) (loc y) else 0 := by
  by_cases h : inTile t y
  · rw [if_pos h]
    refine ((Step.sA_s2_in (F := Ideal) V c t h0 h1 h2 y h).trans (step_col_at (X0 V c t) (X1 V c t) _ (loc y))).trans ?_
    exact (congrArg (fun z : EReal => z + colT (X0 V c t) (X1 V c t) (loc y))
      ((Step.ld_col (Val := Elt Ideal) (e := .f32) (k1_pay1 (F := Ideal)) (t.val % 16) (Facts₀.k1_off1_inb (grid1.coords t)) y (Step.off1_eq t) h).trans (pay1_at y))).trans (zero_add _)
  · rw [if_neg h]
    exact (Step.sA_s2_out (F := Ideal) V c t h0 h1 h2 y h).trans (pay1_at y)
theorem stA_s3 (y : Fin 8192) : (stA V c t h0 h1 h2).s3 (ix2 0 y) = if inTile t y then colTp (X0 V c t) (X1 V c t) (X2 V c t) (X3 V c t) (loc y) else 0 := by
  by_cases h : inTile t y
  · rw [if_pos h]
    refine ((Step.sA_s3_in (F := Ideal) V c t h0 h1 h2 y h).trans (step_colp_at (X0 V c t) (X1 V c t) (X2 V c t) (X3 V c t) _ (loc y))).trans ?_
    exact (congrArg (fun z : EReal => z + colTp (X0 V c t) (X1 V c t) (X2 V c t) (X3 V c t) (loc y))
      ((Step.ld_col (Val := Elt Ideal) (e := .f32) (k1_pay2 (F := Ideal)) (t.val % 16) (Facts₀.k1_off1_inb (grid1.coords t)) y (Step.off1_eq t) h).trans (pay2_at y))).trans (zero_add _)
  · rw [if_neg h]
    exact (Step.sA_s3_out (F := Ideal) V c t h0 h1 h2 y h).trans (pay2_at y)
theorem stA_o4 : (stA V c t h0 h1 h2).o4 = (stA V c t h0 h1 h2).s0 :=
  (Step.sA_o4 (F := Ideal) V c t h0 h1 h2).trans (Step.sA_s0 (F := Ideal) V c t h0 h1 h2).symm
theorem stA_o5 : (stA V c t h0 h1 h2).o5 = (stA V c t h0 h1 h2).s1 :=
  (Step.sA_o5 (F := Ideal) V c t h0 h1 h2).trans (Step.sA_s1 (F := Ideal) V c t h0 h1 h2).symm
end A

/-! ## The first tile of a later row of tiles: the row accumulators start from zero -/
section B
variable (h0 : ¬cond1_0 (grid1.coords t)) (h1 : cond1_1 (grid1.coords t)) (h2 : ¬cond1_2 (grid1.coords t)) (p : St1 Ideal)
theorem stB_s0 (r : Fin 512) : (stB V c t h0 h1 h2 p).s0 (ix2 r 0) = rowT (X0 V c t) (X1 V c t) r :=
  ((congrFun (Step.sB_s0 (F := Ideal) V c t h0 h1 h2 p) (ix2 r 0)).trans (pay7_at (X0 V c t) (X1 V c t) (k1_pay3 (F := Ideal)) r)).trans
    ((congrArg (fun z : EReal => z + rowT (X0 V c t) (X1 V c t) r) (pay3_at r)).trans (zero_add _))
theorem stB_s1 (r : Fin 512) : (stB V c t h0 h1 h2 p).s1 (ix2 r 0) = rowTp (X0 V c t) (X1 V c t) (X2 V c t) (X3 V c t) r :=
  ((congrFun (Step.sB_s1 (F := Ideal) V c t h0 h1 h2 p) (ix2 r 0)).trans (step_rowp_at (X0 V c t) (X1 V c t) (X2 V c t) (X3 V c t) (k1_pay4 (F := Ideal)) r)).trans
    ((congrArg (fun z : EReal => z + rowTp (X0 V c t) (X1 V c t) (X2 V c t) (X3 V c t) r) (pay4_at r)).trans (zero_add _))
theorem stB_s2 (y : Fin 8192) : (stB V c t h0 h1 h2 p).s2 (ix2 0 y) = if inTile t y then p.s2 (ix2 0 y) + colT (X0 V c t) (X1 V c t) (loc y) else p.s2 (ix2 0 y) := by
  by_cases h : inTile t y
  · rw [if_pos h]
    refine ((Step.sB_s2_in (F := Ideal) V c t h0 h1 h2 p y h).trans (step_col_at (X0 V c t) (X1 V c t) _ (loc y))).trans ?_
    exact congrArg (fun z : EReal => z + colT (X0 V c t) (X1 V c t) (loc y))
      (Step.ld_col (Val := Elt Ideal) (e := .f32) p.s2 (t.val % 16) (Facts₀.k1_off1_inb (grid1.coords t)) y (Step.off1_eq t) h)
  · rw [if_neg h]
    exact Step.sB_s2_out (F := Ideal) V c t h0 h1 h2 p y h
theorem stB_s3 (y : Fin 8192) : (stB V c t h0 h1 h2 p).s3 (ix2 0 y) = if inTile t y then p.s3 (ix2 0 y) + colTp (X0 V c t) (X1 V c t) (X2 V c t) (X3 V c t) (loc y) else p.s3 (ix2 0 y) := by
  by_cases h : inTile t y
  · rw [if_pos h]
    refine ((Step.sB_s3_in (F := Ideal) V c t h0 h1 h2 p y h).trans (step_colp_at (X0 V c t) (X1 V c t) (X2 V c t) (X3 V c t) _ (loc y))).trans ?_
    exact congrArg (fun z : EReal => z + colTp (X0 V c t) (X1 V c t) (X2 V c t) (X3 V c t) (loc y))
      (Step.ld_col (Val := Elt Ideal) (e := .f32) p.s3 (t.val % 16) (Facts₀.k1_off1_inb (grid1.coords t)) y (Step.off1_eq t) h)
  · rw [if_neg h]
    exact Step.sB_s3_out (F := Ideal) V c t h0 h1 h2 p y h
theorem stB_o4 : (stB V c t h0 h1 h2 p).o4 = (stB V c t h0 h1 h2 p).s0 :=
  (Step.sB_o4 (F := Ideal) V c t h0 h1 h2 p).trans (Step.sB_s0 (F := Ideal) V c t h0 h1 h2 p).symm
theorem stB_o5 : (stB V c t h0 h1 h2 p).o5 = (stB V c t h0 h1 h2 p).s1 :=
  (Step.sB_o5 (F := Ideal) V c t h0 h1 h2 p).trans (Step.sB_s1 (F := Ideal) V c t h0 h1 h2 p).symm
end B

/-! ## Any other point but the last: everything adds on -/
section C
variable (h0 : ¬cond1_0 (grid1.coords t)) (h1 : ¬cond1_1 (grid1.coords t)) (h2 : ¬cond1_2 (grid1.coords t)) (p : St1 Ideal)
theorem stC_s0 (r : Fin 512) : (stC V c t h0 h1 h2 p).s0 (ix2 r 0) = p.s0 (ix2 r 0) + rowT (X0 V c t) (X1 V c t) r :=
  (congrFun (Step.sC_s0 (F := Ideal) V c t h0 h1 h2 p) (ix2 r 0)).trans (pay7_at (X0 V c t) (X1 V c t) p.s0 r)
theorem stC_s1 (r : Fin 512) : (stC V c t h0 h1 h2 p).s1 (ix2 r 0) = p.s1 (ix2 r 0) + rowTp (X0 V c t) (X1 V c t) (X2 V c t) (X3 V c t) r :=
  (congrFun (Step.sC_s1 (F := Ideal) V c t h0 h1 h2 p) (ix2 r 0)).trans (step_rowp_at (X0 V c t) (X1 V c t) (X2 V c t) (X3 V c t) p.s1 r)
theorem stC_s2 (y : Fin 8192) : (stC V c t h0 h1 h2 p).s2 (ix2 0 y) = if inTile t y then p.s2 (ix2 0 y) + colT (X0 V c t) (X1 V c t) (loc y) else p.s2 (ix2 0 y) := by
  by_cases h : inTile t y
  · rw [if_pos h]
    refine ((Step.sC_s2_in (F := Ideal) V c t h0 h1 h2 p y h).trans (step_col_at (X0 V c t) (X1 V c t) _ (loc y))).trans ?_
    exact congrArg (fun z : EReal => z + colT (X0 V c t) (X1 V c t) (loc y))
      (Step.ld_col (Val := Elt Ideal) (e := .f32) p.s2 (t.val % 16) (Facts₀.k1_off1_inb (grid1.coords t)) y (Step.off1_eq t) h)
  · rw [if_neg h]
    exact Step.sC_s2_out (F := Ideal) V c t h0 h1 h2 p y h
theorem stC_s3 (y : Fin 8192) : (stC V c t h0 h1 h2 p).s3 (ix2 0 y) = if inTile t y then p.s3 (ix2 0 y) + colTp (X0 V c t) (X1 V c t) (X2 V c t) (X3 V c t) (loc y) else p.s3 (ix2 0 y) := by
  by_cases h : inTile t y
  · rw [if_pos h]
    refine ((Step.sC_s3_in (F := Ideal) V c t h0 h1 h2 p y h).trans (step_colp_at (X0 V c t) (X1 V c t) (X2 V c t) (X3 V c t) _ (loc y))).trans ?_
    exact congrArg (fun z : EReal => z + colTp (X0 V c t) (X1 V c t) (X2 V c t) (X3 V c t) (loc y))
      (Step.ld_col (Val := Elt Ideal) (e := .f32) p.s3 (t.val % 16) (Facts₀.k1_off1_inb (grid1.coords t)) y (Step.off1_eq t) h)
  · rw [if_neg h]
    exact Step.sC_s3_out (F := Ideal) V c t h0 h1 h2 p y h
theorem stC_o4 : (stC V c t h0 h1 h2 p).o4 = (stC V c t h0 h1 h2 p).s0 :=
  (Step.sC_o4 (F := Ideal) V c t h0 h1 h2 p).trans (Step.sC_s0 (F := Ideal) V c t h0 h1 h2 p).symm
theorem stC_o5 : (stC V c t h0 h1 h2 p).o5 = (stC V c t h0 h1 h2 p).s1 :=
  (Step.sC_o5 (F := Ideal) V c t h0 h1 h2 p).trans (Step.sC_s1 (F := Ideal) V c t h0 h1 h2 p).symm
end C

/-! ## The last point: as any other, and the column accumulators are copied out -/
section D
variable (h0 : ¬cond1_0 (grid1.coords t)) (h1 : ¬cond1_1 (grid1.coords t)) (h2 : cond1_2 (grid1.coords t)) (p : St1 Ideal)
theorem stD_s0 (r : Fin 512) : (stD V c t h0 h1 h2 p).s0 (ix2 r 0) = p.s0 (ix2 r 0) + rowT (X0 V c t) (X1 V c t) r :=
  (congrFun (Step.sD_s0 (F := Ideal) V c t h0 h1 h2 p) (ix2 r 0)).trans (pay7_at (X0 V c t) (X1 V c t) p.s0 r)
theorem stD_s1 (r : Fin 512) : (stD V c t h0 h1 h2 p).s1 (ix2 r 0) = p.s1 (ix2 r 0) + rowTp (X0 V c t) (X1 V c t) (X2 V c t) (X3 V c t) r :=
  (congrFun (Step.sD_s1 (F := Ideal) V c t h0 h1 h2 p) (ix2 r 0)).trans (step_rowp_at (X0 V c t) (X1 V c t) (X2 V c t) (X3 V c t) p.s1 r)
theorem stD_s2 (y : Fin 8192) : (stD V c t h0 h1 h2 p).s2 (ix2 0 y) = if inTile t y then p.s2 (ix2 0 y) + colT (X0 V c t) (X1 V c t) (loc y) else p.s2 (ix2 0 y) := by
  by_cases h : inTile t y
  · rw [if_pos h]
    refine ((Step.sD_s2_in (F := Ideal) V c t h0 h1 h2 p y h).trans (step_col_at (X0 V c t) (X1 V c t) _ (loc y))).trans ?_
    exact congrArg (fun z : EReal => z + colT (X0 V c t) (X1 V c t) (loc y))
      (Step.ld_col (Val := Elt Ideal) (e := .f32) p.s2 (t.val % 16) (Facts₀.k1_off1_inb (grid1.coords t)) y (Step.off1_eq t) h)
  · rw [if_neg h]
    exact Step.sD_s2_out (F := Ideal) V c t h0 h1 h2 p y h
theorem stD_s3 (y : Fin 8192) : (stD V c t h0 h1 h2 p).s3 (ix2 0 y) = if inTile t y then p.s3 (ix2 0 y) + colTp (X0 V c t) (X1 V c t) (X2 V c t) (X3 V c t) (loc y) else p.s3 (ix2 0 y) := by
  by_cases h : inTile t y
  · rw [if_pos h]
    refine ((Step.sD_s3_in (F := Ideal) V c t h0 h1 h2 p y h).trans (step_colp_at (X0 V c t) (X1 V c t) (X2 V c t) (X3 V c t) _ (loc y))).trans ?_
    exact congrArg (fun z : EReal => z + colTp (X0 V c t) (X1 V c t) (X2 V c t) (X3 V c t) (loc y))
      (Step.ld_col (Val := Elt Ideal) (e := .f32) p.s3 (t.val % 16) (Facts₀.k1_off1_inb (grid1.coords t)) y (Step.off1_eq t) h)
  · rw [if_neg h]
    exact Step.sD_s3_out (F := Ideal) V c t h0 h1 h2 p y h
theorem stD_o4 : (stD V c t h0 h1 h2 p).o4 = (stD V c t h0 h1 h2 p).s0 :=
  (Step.sD_o4 (F := Ideal) V c t h0 h1 h2 p).trans (Step.sD_s0 (F := Ideal) V c t h0 h1 h2 p).symm
theorem stD_o5 : (stD V c t h0 h1 h2 p).o5 = (stD V c t h0 h1 h2 p).s1 :=
  (Step.sD_o5 (F := Ideal) V c t h0 h1 h2 p).trans (Step.sD_s1 (F := Ideal) V c t h0 h1 h2 p).symm
theorem stD_o6 : (stD V c t h0 h1 h2 p).o6 = (stD V c t h0 h1 h2 p).s2 := Step.sD_o6 (F := Ideal) V c t h0 h1 h2 p
theorem stD_o7 : (stD V c t h0 h1 h2 p).o7 = (stD V c t h0 h1 h2 p).s3 := Step.sD_o7 (F := Ideal) V c t h0 h1 h2 p
end D

end Cert.KernelIdeal.Val1

end
-- ==== Proof.KI.Val1.lean ====
/-
  The pairwise region's four result arrays at the ideal instance, in closed form.  With `L` the scaled label rows and
  `A` the scaled audio rows as the region finds them, and `E (b, c) = exp ((Σ_d L b d · A c d) · κ)`: the first array
  holds the row sums `Σ_c E (b, c)`, the second the row sums kept where the row's label equals the column's, the third
  the column sums `Σ_b E (b, c)`, the fourth the column sums so kept.

  Point `t` of the 16×16 grid is the 512×512 tile `(t / 16, t % 16)` of `E`.  The row accumulators restart at the first
  tile of each row of tiles and gain one tile's row sums per point, so at the last tile of a row of tiles they hold that
  tile row's full row sums, which is what is written back there.  Column `y` of the column accumulators gains a tile's
  column sum at every point whose column tile is `y / 512`, so after the last point it has gained all sixteen row tiles.
  Only the commutative-monoid laws of addition on the extended reals are used.
-/
import proofs.«166571_j42013370090174_1_alg».proof.Proof.KI.Step
import Mathlib.Algebra.BigOperators.Fin

noncomputable section

namespace Cert.KernelIdeal.Val1Aux

open Finset

/-- Summing tile by tile is summing over the whole range: `Σ_{j<a} Σ_{q<b} h (b j + q) = Σ_{k<ab} h k`. -/
theorem sum_tiles {M : Type} [AddCommMonoid M] (h : ℕ → M) (b : ℕ) : ∀ a : ℕ,
    ∑ j ∈ range a, ∑ q ∈ range b, h (b * j + q) = ∑ k ∈ range (a * b), h k
  | 0 => by simp
  | a + 1 => by
    rw [Finset.sum_range_succ, sum_tiles h b a, Nat.succ_mul, Finset.sum_range_add, Nat.mul_comm b a]

/-- A function of two row numbers, zero outside the 8192 rows. -/
def ext2 (f : Fin 8192 → Fin 8192 → EReal) (b c : ℕ) : EReal :=
  if h : b < 8192 ∧ c < 8192 then f ⟨b, h.1⟩ ⟨c, h.2⟩ else 0

theorem ext2_val (f : Fin 8192 → Fin 8192 → EReal) (b c : Fin 8192) : ext2 f b.val c.val = f b c := by
  unfold ext2; rw [dif_pos ⟨b.isLt, c.isLt⟩]

theorem ext2_mk (f : Fin 8192 → Fin 8192 → EReal) (b c : ℕ) (hb : b < 8192) (hc : c < 8192) :
    ext2 f b c = f ⟨b, hb⟩ ⟨c, hc⟩ := by
  unfold ext2; rw [dif_pos ⟨hb, hc⟩]

/-- Sixteen tiles of 512 columns are all the columns. -/
theorem sum_cols (f : Fin 8192 → Fin 8192 → EReal) (b : Fin 8192) :
    ∑ j ∈ range 16, ∑ q ∈ range 512, ext2 f b.val (512 * j + q) = ∑ c : Fin 8192, f b c := by
  rw [sum_tiles (fun k => ext2 f b.val k) 512 16, Finset.sum_range]
  exact Finset.sum_congr rfl fun c _ => ext2_val f b c

/-- Sixteen tiles of 512 rows are all the rows. -/
theorem sum_rows (f : Fin 8192 → Fin 8192 → EReal) (c : Fin 8192) :
    ∑ i ∈ range 16, ∑ r ∈ range 512, ext2 f (512 * i + r) c.val = ∑ b : Fin 8192, f b c := by
  rw [sum_tiles (fun k => ext2 f k c.val) 512 16, Finset.sum_range]
  exact Finset.sum_congr rfl fun b _ => ext2_val f b c

/-! ### The accumulators' recurrences, on numbers

Point `m` of the 16×16 grid is tile `(m / 16, m % 16)`.  A row accumulator restarts at the first tile of each row of
tiles and then adds one tile's row sums per point; column `y` of a column accumulator gains a tile's column sum at the
points whose column tile is `y / 512`. -/

/-- The number of row tiles already added into column `y` after point `m`. -/
def cnt (m y : ℕ) : ℕ := if y / 512 ≤ m % 16 then m / 16 + 1 else m / 16

theorem row_first (e : ℕ → ℕ → EReal) (m b : ℕ) (h16 : m % 16 = 0) :
    ∑ q ∈ range 512, e b (512 * (m % 16) + q) = ∑ j ∈ range (m % 16 + 1), ∑ q ∈ range 512, e b (512 * j + q) := by
  rw [h16, Nat.zero_add, Finset.sum_range_one]

theorem row_next (e : ℕ → ℕ → EReal) (m n r : ℕ) (hm : m = n + 1) (h16 : ¬m % 16 = 0) (p : EReal)
    (hp : p = ∑ j ∈ range (n % 16 + 1), ∑ q ∈ range 512, e (512 * (n / 16) + r) (512 * j + q)) :
    p + ∑ q ∈ range 512, e (512 * (m / 16) + r) (512 * (m % 16) + q)
      = ∑ j ∈ range (m % 16 + 1), ∑ q ∈ range 512, e (512 * (m / 16) + r) (512 * j + q) := by
  subst hm hp
  have d : (n + 1) / 16 = n / 16 := by omega
  have md : (n + 1) % 16 = n % 16 + 1 := by omega
  rw [d, md, Finset.sum_range_succ _ (n % 16 + 1)]

theorem col_first (e : ℕ → ℕ → EReal) (m y qv : ℕ) (hm : m = 0) (hq : qv = y % 512) :
    (if y / 512 = m % 16 then ∑ r ∈ range 512, e (512 * (m / 16) + r) (512 * (m % 16) + qv) else 0)
      = ∑ i ∈ range (cnt m y), ∑ r ∈ range 512, e (512 * i + r) y := by
  subst hm hq
  by_cases h : y / 512 = 0 % 16
  · have hy : 512 * (0 % 16) + y % 512 = y := by omega
    have c1 : cnt 0 y = 1 := by unfold cnt; rw [if_pos (by omega)]
    rw [if_pos h, hy, c1, Finset.sum_range_one]
  · have c0 : cnt 0 y = 0 := by unfold cnt; rw [if_neg (by omega)]
    rw [if_neg h, c0, Finset.sum_range_zero]

theorem col_next (e : ℕ → ℕ → EReal) (m n y qv : ℕ) (hm : m = n + 1) (hlt : m < 256) (hy : y < 8192)
    (hq : qv = y % 512) (p : EReal) (hp : p = ∑ i ∈ range (cnt n y), ∑ r ∈ range 512, e (512 * i + r) y) :
    (if y / 512 = m % 16 then p + ∑ r ∈ range 512, e (512 * (m / 16) + r) (512 * (m % 16) + qv) else p)
      = ∑ i ∈ range (cnt m y), ∑ r ∈ range 512, e (512 * i + r) y := by
  subst hm hq hp
  by_cases h : y / 512 = (n + 1) % 16
  · have hy' : 512 * ((n + 1) % 16) + y % 512 = y := by omega
    have c0 : cnt n y = (n + 1) / 16 := by unfold cnt; split_ifs <;> omega
    have c1 : cnt (n + 1) y = (n + 1) / 16 + 1 := by unfold cnt; split_ifs <;> omega
    rw [if_pos h, hy', c0, c1, Finset.sum_range_succ _ ((n + 1) / 16)]
  · have c : cnt (n + 1) y = cnt n y := by unfold cnt; split_ifs <;> omega
    rw [if_neg h, c]

/-- After a row of tiles' last point every column has been added. -/
theorem row_last (m : ℕ) (h15 : m % 16 = 15) : m % 16 + 1 = 16 := by omega
/-- After the grid's last point every row tile has been added into every column. -/
theorem cnt_last (y : ℕ) (hy : y < 8192) : cnt 255 y = 16 := by unfold cnt; rw [if_pos (by omega)]

end Cert.KernelIdeal.Val1Aux

namespace Cert.KernelIdeal.Val1

open Cert.KernelIdeal Cert.KernelIdeal.Gen Idealize.ShloMosaic Idealize.ShloMosaic.TcCoe Idealize.SL.Sem
  Idealize.ShloMosaic.ValueIdx
open Idealize.ShloMosaic.Pipeline (Dat)
open Cert.KernelIdeal.Val1Aux Finset

/-- A scaled feature array read as the specification's matrix: entry `(b, d)`. -/
def matb (x : Vec Ideal S8192x512 .bf16) : Cert.Spec.Mat := fun b d => x (ix2 b d)
/-- The labels held as a column, read one per row. -/
def labr (y : Vec Ideal S8192x1 .i32) : Cert.Spec.Lab := fun b => y (ix2 b 0)
/-- The labels held as a row, read one per column. -/
def labc (y : Vec Ideal S1x8192 .i32) : Cert.Spec.Lab := fun b => y (ix2 0 b)

/-! ## A tile of the blocks is a tile of the whole matrix -/

/-- A block of label rows from row `bi` and a block of audio rows from row `ci`: the tile is `E` there. -/
theorem T_of (L A : Cert.Spec.Mat) (x0 x1 : Vec Ideal S512x512 .bf16) (bi ci : ℕ) (hb : bi + 512 ≤ 8192)
    (hc : ci + 512 ≤ 8192)
    (h0 : ∀ r k : Fin 512, x0 (ix2 r k) = L (⟨bi + r.val, by omega⟩ : Fin 8192) k)
    (h1 : ∀ q k : Fin 512, x1 (ix2 q k) = A (⟨ci + q.val, by omega⟩ : Fin 8192) k) (r q : Fin 512) :
    T x0 x1 r q = ext2 (Cert.Spec.EN L A) (bi + r.val) (ci + q.val) := by
  rw [ext2_mk _ _ _ (by omega) (by omega)]
  unfold T Cert.Spec.EN Cert.Spec.dotN
  simp only [h0, h1]

/-- The same with the labels: the kept tile is the kept `E`. -/
theorem Tp_of (L A : Cert.Spec.Mat) (rl cl : Cert.Spec.Lab) (x0 x1 : Vec Ideal S512x512 .bf16)
    (x2 : Vec Ideal S512x1 .i32) (x3 : Vec Ideal S1x512 .i32) (bi ci : ℕ) (hb : bi + 512 ≤ 8192)
    (hc : ci + 512 ≤ 8192)
    (h0 : ∀ r k : Fin 512, x0 (ix2 r k) = L (⟨bi + r.val, by omega⟩ : Fin 8192) k)
    (h1 : ∀ q k : Fin 512, x1 (ix2 q k) = A (⟨ci + q.val, by omega⟩ : Fin 8192) k)
    (h2 : ∀ r : Fin 512, x2 (ix2 r 0) = rl (⟨bi + r.val, by omega⟩ : Fin 8192))
    (h3 : ∀ q : Fin 512, x3 (ix2 0 q) = cl (⟨ci + q.val, by omega⟩ : Fin 8192)) (r q : Fin 512) :
    Tp x0 x1 x2 x3 r q = ext2 (Cert.Spec.EposN L A rl cl) (bi + r.val) (ci + q.val) := by
  rw [ext2_mk _ _ _ (by omega) (by omega)]
  unfold Tp Cert.Spec.EposN
  rw [h2, h3, T_of L A x0 x1 bi ci hb hc h0 h1 r q, ext2_mk _ _ _ (by omega) (by omega)]

theorem rowT_of (L A : Cert.Spec.Mat) (x0 x1 : Vec Ideal S512x512 .bf16) (bi ci : ℕ) (hb : bi + 512 ≤ 8192)
    (hc : ci + 512 ≤ 8192)
    (h0 : ∀ r k : Fin 512, x0 (ix2 r k) = L (⟨bi + r.val, by omega⟩ : Fin 8192) k)
    (h1 : ∀ q k : Fin 512, x1 (ix2 q k) = A (⟨ci + q.val, by omega⟩ : Fin 8192) k) (r : Fin 512) :
    rowT x0 x1 r = ∑ q ∈ range 512, ext2 (Cert.Spec.EN L A) (bi + r.val) (ci + q) := by
  rw [Finset.sum_range]
  exact Finset.sum_congr rfl fun q _ => T_of L A x0 x1 bi ci hb hc h0 h1 r q

theorem colT_of (L A : Cert.Spec.Mat) (x0 x1 : Vec Ideal S512x512 .bf16) (bi ci : ℕ) (hb : bi + 512 ≤ 8192)
    (hc : ci + 512 ≤ 8192)
    (h0 : ∀ r k : Fin 512, x0 (ix2 r k) = L (⟨bi + r.val, by omega⟩ : Fin 8192) k)
    (h1 : ∀ q k : Fin 512, x1 (ix2 q k) = A (⟨ci + q.val, by omega⟩ : Fin 8192) k) (q : Fin 512) :
    colT x0 x1 q = ∑ r ∈ range 512, ext2 (Cert.Spec.EN L A) (bi + r) (ci + q.val) := by
  rw [Finset.sum_range]
  exact Finset.sum_congr rfl fun r _ => T_of L A x0 x1 bi ci hb hc h0 h1 r q

theorem rowTp_of (L A : Cert.Spec.Mat) (rl cl : Cert.Spec.Lab) (x0 x1 : Vec Ideal S512x512 .bf16)
    (x2 : Vec Ideal S512x1 .i32) (x3 : Vec Ideal S1x512 .i32) (bi ci : ℕ) (hb : bi + 512 ≤ 8192)
    (hc : ci + 512 ≤ 8192)
    (h0 : ∀ r k : Fin 512, x0 (ix2 r k) = L (⟨bi + r.val, by omega⟩ : Fin 8192) k)
    (h1 : ∀ q k : Fin 512, x1 (ix2 q k) = A (⟨ci + q.val, by omega⟩ : Fin 8192) k)
    (h2 : ∀ r : Fin 512, x2 (ix2 r 0) = rl (⟨bi + r.val, by omega⟩ : Fin 8192))
    (h3 : ∀ q : Fin 512, x3 (ix2 0 q) = cl (⟨ci + q.val, by omega⟩ : Fin 8192)) (r : Fin 512) :
    rowTp x0 x1 x2 x3 r = ∑ q ∈ range 512, ext2 (Cert.Spec.EposN L A rl cl) (bi + r.val) (ci + q) := by
  rw [Finset.sum_range]
  exact Finset.sum_congr rfl fun q _ => Tp_of L A rl cl x0 x1 x2 x3 bi ci hb hc h0 h1 h2 h3 r q

theorem colTp_of (L A : Cert.Spec.Mat) (rl cl : Cert.Spec.Lab) (x0 x1 : Vec Ideal S512x512 .bf16)
    (x2 : Vec Ideal S512x1 .i32) (x3 : Vec Ideal S1x512 .i32) (bi ci : ℕ) (hb : bi + 512 ≤ 8192)
    (hc : ci + 512 ≤ 8192)
    (h0 : ∀ r k : Fin 512, x0 (ix2 r k) = L (⟨bi + r.val, by omega⟩ : Fin 8192) k)
    (h1 : ∀ q k : Fin 512, x1 (ix2 q k) = A (⟨ci + q.val, by omega⟩ : Fin 8192) k)
    (h2 : ∀ r : Fin 512, x2 (ix2 r 0) = rl (⟨bi + r.val, by omega⟩ : Fin 8192))
    (h3 : ∀ q : Fin 512, x3 (ix2 0 q) = cl (⟨ci + q.val, by omega⟩ : Fin 8192)) (q : Fin 512) :
    colTp x0 x1 x2 x3 q = ∑ r ∈ range 512, ext2 (Cert.Spec.EposN L A rl cl) (bi + r) (ci + q.val) := by
  rw [Finset.sum_range]
  exact Finset.sum_congr rfl fun r _ => Tp_of L A rl cl x0 x1 x2 x3 bi ci hb hc h0 h1 h2 h3 r q

/-! ## The blocks at a point, read off the arrays -/

variable (V : (c : Dev nD) → (b : Ref sig .tc) → Buf (Elt Ideal) ((c : Thread nD τ).loc b))

/-- The windows' block indices at point `t`: row tile `t / 16`, column tile `t % 16`; the column outputs' one block. -/
theorem idx_facts1 : ∀ t : Fin cfg1.N,
    win1_0.index t (0 : Fin 2) = t.val / 16 ∧ win1_0.index t (1 : Fin 2) = 0
    ∧ win1_1.index t (0 : Fin 2) = t.val % 16 ∧ win1_1.index t (1 : Fin 2) = 0
    ∧ win1_2.index t (0 : Fin 2) = t.val / 16 ∧ win1_2.index t (1 : Fin 2) = 0
    ∧ win1_3.index t (0 : Fin 2) = 0 ∧ win1_3.index t (1 : Fin 2) = t.val % 16
    ∧ win1_4.index t (0 : Fin 2) = t.val / 16 ∧ win1_4.index t (1 : Fin 2) = 0
    ∧ win1_5.index t (0 : Fin 2) = t.val / 16 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0 :=
  (by decide +kernel : ∀ t : Fin grid1.N, _)

theorem lt256 (t : Fin cfg1.N) : t.val < 256 := lt_of_lt_of_eq t.isLt N_1'

/-- The scaled label rows, the scaled audio rows, and the labels by row and by column, as the region finds them. -/
abbrev LL (c : Dev nD) : Cert.Spec.Mat := matb (V c main_v0_1)
abbrev AA (c : Dev nD) : Cert.Spec.Mat := matb (V c main_v0_0)
abbrev RL (c : Dev nD) : Cert.Spec.Lab := labr (V c main_v1)
abbrev CL (c : Dev nD) : Cert.Spec.Lab := labc (V c main_v2)

theorem X0_at (c : Dev nD) (t : Fin cfg1.N) (hb : 512 * (t.val / 16) + 512 ≤ 8192) (r k : Fin 512) :
    X0 V c t (ix2 r k) = LL V c (⟨512 * (t.val / 16) + r.val, by omega⟩ : Fin 8192) k := by
  obtain ⟨e00, e01, -⟩ := idx_facts1 t
  show V c main_v0_1 (((cfg1.win 0).blk t).view.emb (ix2 r k)) = V c main_v0_1 _
  refine congrArg (V c main_v0_1) (funext fun a => Fin.ext ?_)
  match a with
  | ⟨0, _⟩ => show win1_0.index t (0 : Fin 2) * 512 + 1 * r.val = 512 * (t.val / 16) + r.val; rw [e00]; omega
  | ⟨1, _⟩ => show win1_0.index t (1 : Fin 2) * 512 + 1 * k.val = k.val; rw [e01]; omega

theorem X1_at (c : Dev nD) (t : Fin cfg1.N) (hc : 512 * (t.val % 16) + 512 ≤ 8192) (q k : Fin 512) :
    X1 V c t (ix2 q k) = AA V c (⟨512 * (t.val % 16) + q.val, by omega⟩ : Fin 8192) k := by
  obtain ⟨-, -, e10, e11, -⟩ := idx_facts1 t
  show V c main_v0_0 (((cfg1.win 1).blk t).view.emb (ix2 q k)) = V c main_v0_0 _
  refine congrArg (V c main_v0_0) (funext fun a => Fin.ext ?_)
  match a with
  | ⟨0, _⟩ => show win1_1.index t (0 : Fin 2) * 512 + 1 * q.val = 512 * (t.val % 16) + q.val; rw [e10]; omega
  | ⟨1, _⟩ => show win1_1.index t (1 : Fin 2) * 512 + 1 * k.val = k.val; rw [e11]; omega

theorem X2_at (c : Dev nD) (t : Fin cfg1.N) (hb : 512 * (t.val / 16) + 512 ≤ 8192) (r : Fin 512) :
    X2 V c t (ix2 r 0) = RL V c (⟨512 * (t.val / 16) + r.val, by omega⟩ : Fin 8192) := by
  obtain ⟨-, -, -, -, e20, e21, -⟩ := idx_facts1 t
  show V c main_v1 (((cfg1.win 2).blk t).view.emb (ix2 r 0)) = V c main_v1 _
  refine congrArg (V c main_v1) (funext fun a => Fin.ext ?_)
  match a with
  | ⟨0, _⟩ => show win1_2.index t (0 : Fin 2) * 512 + 1 * r.val = 512 * (t.val / 16) + r.val; rw [e20]; omega
  | ⟨1, _⟩ => show win1_2.index t (1 : Fin 2) * 1 + 1 * 0 = 0; rw [e21]

theorem X3_at (c : Dev nD) (t : Fin cfg1.N) (hc : 512 * (t.val % 16) + 512 ≤ 8192) (q : Fin 512) :
    X3 V c t (ix2 0 q) = CL V c (⟨512 * (t.val % 16) + q.val, by omega⟩ : Fin 8192) := by
  obtain ⟨-, -, -, -, -, -, e30, e31, -⟩ := idx_facts1 t
  show V c main_v2 (((cfg1.win 3).blk t).view.emb (ix2 0 q)) = V c main_v2 _
  refine congrArg (V c main_v2) (funext fun a => Fin.ext ?_)
  match a with
  | ⟨0, _⟩ => show win1_3.index t (0 : Fin 2) * 1 + 1 * 0 = 0; rw [e30]
  | ⟨1, _⟩ => show win1_3.index t (1 : Fin 2) * 512 + 1 * q.val = 512 * (t.val % 16) + q.val; rw [e31]; omega

/-! ## The tile sums at a point, on row numbers -/

/-- `E` and the kept `E` on row numbers (zero outside the 8192 rows). -/
abbrev eN (c : Dev nD) : ℕ → ℕ → EReal := ext2 (Cert.Spec.EN (LL V c) (AA V c))
abbrev eP (c : Dev nD) : ℕ → ℕ → EReal := ext2 (Cert.Spec.EposN (LL V c) (AA V c) (RL V c) (CL V c))

theorem rowT_at (c : Dev nD) (t : Fin cfg1.N) (r : Fin 512) :
    rowT (X0 V c t) (X1 V c t) r
      = ∑ q ∈ range 512, eN V c (512 * (t.val / 16) + r.val) (512 * (t.val % 16) + q) := by
  have := lt256 t
  exact rowT_of (LL V c) (AA V c) (X0 V c t) (X1 V c t) (512 * (t.val / 16)) (512 * (t.val % 16)) (by omega) (by omega)
    (X0_at V c t (by omega)) (X1_at V c t (by omega)) r

theorem colT_at (c : Dev nD) (t : Fin cfg1.N) (q : Fin 512) :
    colT (X0 V c t) (X1 V c t) q
      = ∑ r ∈ range 512, eN V c (512 * (t.val / 16) + r) (512 * (t.val % 16) + q.val) := by
  have := lt256 t
  exact colT_of (LL V c) (AA V c) (X0 V c t) (X1 V c t) (512 * (t.val / 16)) (512 * (t.val % 16)) (by omega) (by omega)
    (X0_at V c t (by omega)) (X1_at V c t (by omega)) q

theorem rowTp_at (c : Dev nD) (t : Fin cfg1.N) (r : Fin 512) :
    rowTp (X0 V c t) (X1 V c t) (X2 V c t) (X3 V c t) r
      = ∑ q ∈ range 512, eP V c (512 * (t.val / 16) + r.val) (512 * (t.val % 16) + q) := by
  have := lt256 t
  exact rowTp_of (LL V c) (AA V c) (RL V c) (CL V c) (X0 V c t) (X1 V c t) (X2 V c t) (X3 V c t)
    (512 * (t.val / 16)) (512 * (t.val % 16)) (by omega) (by omega)
    (X0_at V c t (by omega)) (X1_at V c t (by omega)) (X2_at V c t (by omega)) (X3_at V c t (by omega)) r

theorem colTp_at (c : Dev nD) (t : Fin cfg1.N) (q : Fin 512) :
    colTp (X0 V c t) (X1 V c t) (X2 V c t) (X3 V c t) q
      = ∑ r ∈ range 512, eP V c (512 * (t.val / 16) + r) (512 * (t.val % 16) + q.val) := by
  have := lt256 t
  exact colTp_of (LL V c) (AA V c) (RL V c) (CL V c) (X0 V c t) (X1 V c t) (X2 V c t) (X3 V c t)
    (512 * (t.val / 16)) (512 * (t.val % 16)) (by omega) (by omega)
    (X0_at V c t (by omega)) (X1_at V c t (by omega)) (X2_at V c t (by omega)) (X3_at V c t (by omega)) q

/-! ## What the accumulators hold after each point -/

/-- After point `m` (tile `(m / 16, m % 16)`): the row accumulators hold, for the rows of tile row `m / 16`, the sums over
    the column tiles up to `m % 16`; column `y` of the column accumulators holds the sums over the row tiles that have
    passed column tile `y / 512`; the row outputs copy the row accumulators, and at the last point the column outputs
    copy the column accumulators. -/
structure Inv (c : Dev nD) (m : ℕ) (S : St1 Ideal) : Prop where
  s0 : ∀ r : Fin 512, S.s0 (ix2 r 0)
    = ∑ j ∈ range (m % 16 + 1), ∑ q ∈ range 512, eN V c (512 * (m / 16) + r.val) (512 * j + q)
  s1 : ∀ r : Fin 512, S.s1 (ix2 r 0)
    = ∑ j ∈ range (m % 16 + 1), ∑ q ∈ range 512, eP V c (512 * (m / 16) + r.val) (512 * j + q)
  s2 : ∀ y : Fin 8192, S.s2 (ix2 0 y) = ∑ i ∈ range (cnt m y.val), ∑ r ∈ range 512, eN V c (512 * i + r) y.val
  s3 : ∀ y : Fin 8192, S.s3 (ix2 0 y) = ∑ i ∈ range (cnt m y.val), ∑ r ∈ range 512, eP V c (512 * i + r) y.val
  o4 : S.o4 = S.s0
  o5 : S.o5 = S.s1
  o6 : m = 255 → S.o6 = S.s2
  o7 : m = 255 → S.o7 = S.s3

theorem inv_A (c : Dev nD) (t : Fin cfg1.N) (h0 : cond1_0 (grid1.coords t)) (h1 : cond1_1 (grid1.coords t))
    (h2 : ¬cond1_2 (grid1.coords t)) (hz : t.val = 0) : Inv V c t.val (stA V c t h0 h1 h2) where
  s0 r := (stA_s0 V c t h0 h1 h2 r).trans ((rowT_at V c t r).trans
    (row_first (eN V c) t.val (512 * (t.val / 16) + r.val) (by omega)))
  s1 r := (stA_s1 V c t h0 h1 h2 r).trans ((rowTp_at V c t r).trans
    (row_first (eP V c) t.val (512 * (t.val / 16) + r.val) (by omega)))
  s2 y := by
    refine (stA_s2 V c t h0 h1 h2 y).trans ?_
    rw [colT_at V c t (loc y)]
    exact col_first (eN V c) t.val y.val (loc y).val hz rfl
  s3 y := by
    refine (stA_s3 V c t h0 h1 h2 y).trans ?_
    rw [colTp_at V c t (loc y)]
    exact col_first (eP V c) t.val y.val (loc y).val hz rfl
  o4 := stA_o4 V c t h0 h1 h2
  o5 := stA_o5 V c t h0 h1 h2
  o6 h := by omega
  o7 h := by omega

theorem inv_B (c : Dev nD) (t : Fin cfg1.N) (h0 : ¬cond1_0 (grid1.coords t)) (h1 : cond1_1 (grid1.coords t))
    (h2 : ¬cond1_2 (grid1.coords t)) (p : St1 Ideal) (n : ℕ) (hm : t.val = n + 1) (h16 : t.val % 16 = 0)
    (hp : Inv V c n p) : Inv V c t.val (stB V c t h0 h1 h2 p) where
  s0 r := (stB_s0 V c t h0 h1 h2 p r).trans ((rowT_at V c t r).trans
    (row_first (eN V c) t.val (512 * (t.val / 16) + r.val) h16))
  s1 r := (stB_s1 V c t h0 h1 h2 p r).trans ((rowTp_at V c t r).trans
    (row_first (eP V c) t.val (512 * (t.val / 16) + r.val) h16))
  s2 y := by
    refine (stB_s2 V c t h0 h1 h2 p y).trans ?_
    rw [colT_at V c t (loc y)]
    exact col_next (eN V c) t.val n y.val (loc y).val hm (lt256 t) y.isLt rfl (p.s2 (ix2 0 y)) (hp.s2 y)
  s3 y := by
    refine (stB_s3 V c t h0 h1 h2 p y).trans ?_
    rw [colTp_at V c t (loc y)]
    exact col_next (eP V c) t.val n y.val (loc y).val hm (lt256 t) y.isLt rfl (p.s3 (ix2 0 y)) (hp.s3 y)
  o4 := stB_o4 V c t h0 h1 h2 p
  o5 := stB_o5 V c t h0 h1 h2 p
  o6 h := by omega
  o7 h := by omega

theorem inv_C (c : Dev nD) (t : Fin cfg1.N) (h0 : ¬cond1_0 (grid1.coords t)) (h1 : ¬cond1_1 (grid1.coords t))
    (h2 : ¬cond1_2 (grid1.coords t)) (p : St1 Ideal) (n : ℕ) (hm : t.val = n + 1) (h16 : ¬t.val % 16 = 0)
    (hl : ¬t.val = 255) (hp : Inv V c n p) : Inv V c t.val (stC V c t h0 h1 h2 p) where
  s0 r := by
    refine (stC_s0 V c t h0 h1 h2 p r).trans ?_
    rw [rowT_at V c t r]
    exact row_next (eN V c) t.val n r.val hm h16 (p.s0 (ix2 r 0)) (hp.s0 r)
  s1 r := by
    refine (stC_s1 V c t h0 h1 h2 p r).trans ?_
    rw [rowTp_at V c t r]
    exact row_next (eP V c) t.val n r.val hm h16 (p.s1 (ix2 r 0)) (hp.s1 r)
  s2 y := by
    refine (stC_s2 V c t h0 h1 h2 p y).trans ?_
    rw [colT_at V c t (loc y)]
    exact col_next (eN V c) t.val n y.val (loc y).val hm (lt256 t) y.isLt rfl (p.s2 (ix2 0 y)) (hp.s2 y)
  s3 y := by
    refine (stC_s3 V c t h0 h1 h2 p y).trans ?_
    rw [colTp_at V c t (loc y)]
    exact col_next (eP V c) t.val n y.val (loc y).val hm (lt256 t) y.isLt rfl (p.s3 (ix2 0 y)) (hp.s3 y)
  o4 := stC_o4 V c t h0 h1 h2 p
  o5 := stC_o5 V c t h0 h1 h2 p
  o6 h := absurd h hl
  o7 h := absurd h hl

theorem inv_D (c : Dev nD) (t : Fin cfg1.N) (h0 : ¬cond1_0 (grid1.coords t)) (h1 : ¬cond1_1 (grid1.coords t))
    (h2 : cond1_2 (grid1.coords t)) (p : St1 Ideal) (n : ℕ) (hm : t.val = n + 1) (h16 : ¬t.val % 16 = 0)
    (hp : Inv V c n p) : Inv V c t.val (stD V c t h0 h1 h2 p) where
  s0 r := by
    refine (stD_s0 V c t h0 h1 h2 p r).trans ?_
    rw [rowT_at V c t r]
    exact row_next (eN V c) t.val n r.val hm h16 (p.s0 (ix2 r 0)) (hp.s0 r)
  s1 r := by
    refine (stD_s1 V c t h0 h1 h2 p r).trans ?_
    rw [rowTp_at V c t r]
    exact row_next (eP V c) t.val n r.val hm h16 (p.s1 (ix2 r 0)) (hp.s1 r)
  s2 y := by
    refine (stD_s2 V c t h0 h1 h2 p y).trans ?_
    rw [colT_at V c t (loc y)]
    exact col_next (eN V c) t.val n y.val (loc y).val hm (lt256 t) y.isLt rfl (p.s2 (ix2 0 y)) (hp.s2 y)
  s3 y := by
    refine (stD_s3 V c t h0 h1 h2 p y).trans ?_
    rw [colTp_at V c t (loc y)]
    exact col_next (eP V c) t.val n y.val (loc y).val hm (lt256 t) y.isLt rfl (p.s3 (ix2 0 y)) (hp.s3 y)
  o4 := stD_o4 V c t h0 h1 h2 p
  o5 := stD_o5 V c t h0 h1 h2 p
  o6 _ := stD_o6 V c t h0 h1 h2 p
  o7 _ := stD_o7 V c t h0 h1 h2 p

/-- The invariant after every point, by induction on the point. -/
theorem inv_all (c : Dev nD) : ∀ (n : ℕ) (hn : n < cfg1.N), Inv V c n (outsAt1 V c n hn)
  | 0, hn => by
    rw [show outsAt1 V c 0 hn = _ from outsAt1_A V c ⟨0, hn⟩ (Nat.zero_mod _)]
    exact inv_A V c ⟨0, hn⟩ _ _ _ rfl
  | n + 1, hn => by
    have ih := inv_all c n (Nat.lt_of_succ_lt hn)
    have hN : n + 1 < 256 := lt_of_lt_of_eq hn N_1'
    by_cases h16 : (n + 1) % 16 = 0
    · have hz : ¬(n + 1) % 256 = 0 := by omega
      rw [show outsAt1 V c (n + 1) hn = _ from outsAt1_B V c ⟨n + 1, hn⟩ hz h16]
      exact inv_B V c ⟨n + 1, hn⟩ _ _ _ _ n rfl h16 ih
    by_cases hl : (n + 1) % 256 = 255
    · rw [show outsAt1 V c (n + 1) hn = _ from outsAt1_D V c ⟨n + 1, hn⟩ h16 hl]
      exact inv_D V c ⟨n + 1, hn⟩ _ _ _ _ n rfl h16 ih
    · rw [show outsAt1 V c (n + 1) hn = _ from outsAt1_C V c ⟨n + 1, hn⟩ h16 hl]
      exact inv_C V c ⟨n + 1, hn⟩ _ _ _ _ n rfl h16 (by show ¬(n + 1) = 255; omega) ih

/-! ## From the blocks to the arrays -/

/-- The four result arrays, each as one function of its index. -/
def G4 (c : Dev nD) : Vec Ideal S8192x1 .f32 := fun i => ∑ c' : Fin 8192, Cert.Spec.EN (LL V c) (AA V c) (i 0) c'
def G5 (c : Dev nD) : Vec Ideal S8192x1 .f32 :=
  fun i => ∑ c' : Fin 8192, Cert.Spec.EposN (LL V c) (AA V c) (RL V c) (CL V c) (i 0) c'
def G6 (c : Dev nD) : Vec Ideal S1x8192 .f32 := fun i => ∑ b : Fin 8192, Cert.Spec.EN (LL V c) (AA V c) b (i 1)
def G7 (c : Dev nD) : Vec Ideal S1x8192 .f32 :=
  fun i => ∑ b : Fin 8192, Cert.Spec.EposN (LL V c) (AA V c) (RL V c) (CL V c) b (i 1)

/-- What a last point of a row of tiles writes back to the first result array: its 512 rows of the row sums. -/
theorem flushed1_4_eq (c : Dev nD) (t : Fin cfg1.N) (hf : (cfg1.win 4).flush t = true) :
    (dat1 (F := Ideal) V c).flushed 4 t = ((cfg1.win 4).blk t).view.read (Elt Ideal) (G4 V c) := by
  have h15 : t.val % 16 = 15 := (flush1_4 t).mp hf
  have hlt := lt256 t
  obtain ⟨-, -, -, -, -, -, -, -, e40, e41, -⟩ := idx_facts1 t
  have I := inv_all V c t.val t.isLt
  show (cfg1.win 4).cut (grid1.coords t) ((dat1 V c).after 4 t) = _
  rw [after1_4]
  funext j
  obtain ⟨r, u, rfl⟩ : ∃ (r : Fin 512) (u : Fin 1), j = ix2 r u := ⟨j 0, j 1, eq_ix2 j⟩
  obtain rfl : u = 0 := Subsingleton.elim _ _
  rw [View.read_apply]
  show (outsAt1 V c t.val t.isLt).o4 (ix2 r 0) = G4 V c (((cfg1.win 4).blk t).view.emb (ix2 r 0))
  rw [I.o4, I.s0 r, row_last t.val h15]
  refine (sum_cols (Cert.Spec.EN (LL V c) (AA V c)) (⟨512 * (t.val / 16) + r.val, by omega⟩ : Fin 8192)).trans ?_
  show _ = ∑ c' : Fin 8192, Cert.Spec.EN (LL V c) (AA V c) ((((cfg1.win 4).blk t).view.emb (ix2 r 0)) 0) c'
  refine Finset.sum_congr rfl fun c' _ => congrArg (fun b => Cert.Spec.EN (LL V c) (AA V c) b c') (Fin.ext ?_)
  show 512 * (t.val / 16) + r.val = win1_4.index t (0 : Fin 2) * 512 + 1 * r.val
  rw [e40]; omega

/-- The same for the second result array: the kept row sums. -/
theorem flushed1_5_eq (c : Dev nD) (t : Fin cfg1.N) (hf : (cfg1.win 5).flush t = true) :
    (dat1 (F := Ideal) V c).flushed 5 t = ((cfg1.win 5).blk t).view.read (Elt Ideal) (G5 V c) := by
  have h15 : t.val % 16 = 15 := (flush1_5 t).mp hf
  have hlt := lt256 t
  obtain ⟨-, -, -, -, -, -, -, -, -, -, e50, e51, -⟩ := idx_facts1 t
  have I := inv_all V c t.val t.isLt
  show (cfg1.win 5).cut (grid1.coords t) ((dat1 V c).after 5 t) = _
  rw [after1_5]
  funext j
  obtain ⟨r, u, rfl⟩ : ∃ (r : Fin 512) (u : Fin 1), j = ix2 r u := ⟨j 0, j 1, eq_ix2 j⟩
  obtain rfl : u = 0 := Subsingleton.elim _ _
  rw [View.read_apply]
  show (outsAt1 V c t.val t.isLt).o5 (ix2 r 0) = G5 V c (((cfg1.win 5).blk t).view.emb (ix2 r 0))
  rw [I.o5, I.s1 r, row_last t.val h15]
  refine (sum_cols (Cert.Spec.EposN (LL V c) (AA V c) (RL V c) (CL V c))
    (⟨512 * (t.val / 16) + r.val, by omega⟩ : Fin 8192)).trans ?_
  show _ = ∑ c' : Fin 8192, Cert.Spec.EposN (LL V c) (AA V c) (RL V c) (CL V c)
    ((((cfg1.win 5).blk t).view.emb (ix2 r 0)) 0) c'
  refine Finset.sum_congr rfl fun c' _ =>
    congrArg (fun b => Cert.Spec.EposN (LL V c) (AA V c) (RL V c) (CL V c) b c') (Fin.ext ?_)
  show 512 * (t.val / 16) + r.val = win1_5.index t (0 : Fin 2) * 512 + 1 * r.val
  rw [e50]; omega

/-- What the last point writes back to the third result array: all the column sums. -/
theorem flushed1_6_eq (c : Dev nD) (t : Fin cfg1.N) (hf : (cfg1.win 6).flush t = true) :
    (dat1 (F := Ideal) V c).flushed 6 t = ((cfg1.win 6).blk t).view.read (Elt Ideal) (G6 V c) := by
  have hl : t.val % 256 = 255 := (flush1_6 t).mp hf
  have hlt := lt256 t
  have h255 : t.val = 255 := by omega
  obtain ⟨-, -, -, -, -, -, -, -, -, -, -, -, e60, e61, -⟩ := idx_facts1 t
  have I := inv_all V c t.val t.isLt
  show (cfg1.win 6).cut (grid1.coords t) ((dat1 V c).after 6 t) = _
  rw [after1_6]
  funext j
  obtain ⟨u, y, rfl⟩ : ∃ (u : Fin 1) (y : Fin 8192), j = ix2 u y := ⟨j 0, j 1, eq_ix2 j⟩
  obtain rfl : u = 0 := Subsingleton.elim _ _
  rw [View.read_apply]
  show (outsAt1 V c t.val t.isLt).o6 (ix2 0 y) = G6 V c (((cfg1.win 6).blk t).view.emb (ix2 0 y))
  rw [I.o6 h255, I.s2 y, h255, cnt_last y.val y.isLt]
  refine (sum_rows (Cert.Spec.EN (LL V c) (AA V c)) y).trans ?_
  show _ = ∑ b : Fin 8192, Cert.Spec.EN (LL V c) (AA V c) b ((((cfg1.win 6).blk t).view.emb (ix2 0 y)) 1)
  refine Finset.sum_congr rfl fun b _ => congrArg (fun y' => Cert.Spec.EN (LL V c) (AA V c) b y') (Fin.ext ?_)
  show y.val = win1_6.index t (1 : Fin 2) * 8192 + 1 * y.val
  rw [e61]; omega

/-- The same for the fourth result array: the kept column sums. -/
theorem flushed1_7_eq (c : Dev nD) (t : Fin cfg1.N) (hf : (cfg1.win 7).flush t = true) :
    (dat1 (F := Ideal) V c).flushed 7 t = ((cfg1.win 7).blk t).view.read (Elt Ideal) (G7 V c) := by
  have hl : t.val % 256 = 255 := (flush1_7 t).mp hf
  have hlt := lt256 t
  have h255 : t.val = 255 := by omega
  obtain ⟨-, -, -, -, -, -, -, -, -, -, -, -, -, -, e70, e71⟩ := idx_facts1 t
  have I := inv_all V c t.val t.isLt
  show (cfg1.win 7).cut (grid1.coords t) ((dat1 V c).after 7 t) = _
  rw [after1_7]
  funext j
  obtain ⟨u, y, rfl⟩ : ∃ (u : Fin 1) (y : Fin 8192), j = ix2 u y := ⟨j 0, j 1, eq_ix2 j⟩
  obtain rfl : u = 0 := Subsingleton.elim _ _
  rw [View.read_apply]
  show (outsAt1 V c t.val t.isLt).o7 (ix2 0 y) = G7 V c (((cfg1.win 7).blk t).view.emb (ix2 0 y))
  rw [I.o7 h255, I.s3 y, h255, cnt_last y.val y.isLt]
  refine (sum_rows (Cert.Spec.EposN (LL V c) (AA V c) (RL V c) (CL V c)) y).trans ?_
  show _ = ∑ b : Fin 8192, Cert.Spec.EposN (LL V c) (AA V c) (RL V c) (CL V c) b
    ((((cfg1.win 7).blk t).view.emb (ix2 0 y)) 1)
  refine Finset.sum_congr rfl fun b _ =>
    congrArg (fun y' => Cert.Spec.EposN (LL V c) (AA V c) (RL V c) (CL V c) b y') (Fin.ext ?_)
  show y.val = win1_7.index t (1 : Fin 2) * 8192 + 1 * y.val
  rw [e71]; omega

/-- An index of a result array is in point `t`'s block iff each coordinate is in the block's range on its axis. -/
theorem mem_blk1_4 (t : Fin cfg1.N) (i : S8192x1.Idx) :
    i ∈ ((cfg1.win 4).blk t).view.set ↔ ∀ a : Fin 2, win1_4.index t a * S512x1.size a ≤ (i a).val
      ∧ (i a).val < win1_4.index t a * S512x1.size a + S512x1.size a := by
  show i ∈ ((View.whole main_v3_0).slice (win1_4.rect t)).set ↔ _
  rw [View.set_slice_whole, Rect.mem_set_unit]
  exact Iff.rfl
theorem mem_blk1_5 (t : Fin cfg1.N) (i : S8192x1.Idx) :
    i ∈ ((cfg1.win 5).blk t).view.set ↔ ∀ a : Fin 2, win1_5.index t a * S512x1.size a ≤ (i a).val
      ∧ (i a).val < win1_5.index t a * S512x1.size a + S512x1.size a := by
  show i ∈ ((View.whole main_v3_1).slice (win1_5.rect t)).set ↔ _
  rw [View.set_slice_whole, Rect.mem_set_unit]
  exact Iff.rfl
theorem mem_blk1_6 (t : Fin cfg1.N) (i : S1x8192.Idx) :
    i ∈ ((cfg1.win 6).blk t).view.set ↔ ∀ a : Fin 2, win1_6.index t a * S1x8192.size a ≤ (i a).val
      ∧ (i a).val < win1_6.index t a * S1x8192.size a + S1x8192.size a := by
  show i ∈ ((View.whole main_v3_2).slice (win1_6.rect t)).set ↔ _
  rw [View.set_slice_whole, Rect.mem_set_unit]
  exact Iff.rfl
theorem mem_blk1_7 (t : Fin cfg1.N) (i : S1x8192.Idx) :
    i ∈ ((cfg1.win 7).blk t).view.set ↔ ∀ a : Fin 2, win1_7.index t a * S1x8192.size a ≤ (i a).val
      ∧ (i a).val < win1_7.index t a * S1x8192.size a + S1x8192.size a := by
  show i ∈ ((View.whole main_v3_3).slice (win1_7.rect t)).set ↔ _
  rw [View.set_slice_whole, Rect.mem_set_unit]
  exact Iff.rfl

/-- Row `b` of a row-sum array is written back by the last point of tile row `b / 512`. -/
theorem cover1_4 (i : S8192x1.Idx) :
    ∃ t : Fin cfg1.N, (cfg1.win 4).flush t = true ∧ i ∈ ((cfg1.win 4).blk t).view.set := by
  have hi0 : (i 0).val < 8192 := (i 0).isLt
  have hi1 : (i 1).val < 1 := (i 1).isLt
  obtain ⟨t, ht⟩ : ∃ t : Fin cfg1.N, t.val = 16 * ((i 0).val / 512) + 15 :=
    ⟨⟨16 * ((i 0).val / 512) + 15, lt_of_lt_of_eq (by omega : 16 * ((i 0).val / 512) + 15 < 256) N_1'.symm⟩, rfl⟩
  obtain ⟨-, -, -, -, -, -, -, -, e40, e41, -⟩ := idx_facts1 t
  refine ⟨t, (flush1_4 t).mpr (by omega), ?_⟩
  rw [mem_blk1_4]
  intro a
  match a with
  | ⟨0, _⟩ =>
    show win1_4.index t (0 : Fin 2) * 512 ≤ (i 0).val ∧ (i 0).val < win1_4.index t (0 : Fin 2) * 512 + 512
    rw [e40, ht]; omega
  | ⟨1, _⟩ =>
    show win1_4.index t (1 : Fin 2) * 1 ≤ (i 1).val ∧ (i 1).val < win1_4.index t (1 : Fin 2) * 1 + 1
    rw [e41]; omega
theorem cover1_5 (i : S8192x1.Idx) :
    ∃ t : Fin cfg1.N, (cfg1.win 5).flush t = true ∧ i ∈ ((cfg1.win 5).blk t).view.set := by
  have hi0 : (i 0).val < 8192 := (i 0).isLt
  have hi1 : (i 1).val < 1 := (i 1).isLt
  obtain ⟨t, ht⟩ : ∃ t : Fin cfg1.N, t.val = 16 * ((i 0).val / 512) + 15 :=
    ⟨⟨16 * ((i 0).val / 512) + 15, lt_of_lt_of_eq (by omega : 16 * ((i 0).val / 512) + 15 < 256) N_1'.symm⟩, rfl⟩
  obtain ⟨-, -, -, -, -, -, -, -, -, -, e50, e51, -⟩ := idx_facts1 t
  refine ⟨t, (flush1_5 t).mpr (by omega), ?_⟩
  rw [mem_blk1_5]
  intro a
  match a with
  | ⟨0, _⟩ =>
    show win1_5.index t (0 : Fin 2) * 512 ≤ (i 0).val ∧ (i 0).val < win1_5.index t (0 : Fin 2) * 512 + 512
    rw [e50, ht]; omega
  | ⟨1, _⟩ =>
    show win1_5.index t (1 : Fin 2) * 1 ≤ (i 1).val ∧ (i 1).val < win1_5.index t (1 : Fin 2) * 1 + 1
    rw [e51]; omega
/-- The column-sum arrays are one block, written back by the last point. -/
theorem cover1_6 (i : S1x8192.Idx) :
    ∃ t : Fin cfg1.N, (cfg1.win 6).flush t = true ∧ i ∈ ((cfg1.win 6).blk t).view.set := by
  have hi0 : (i 0).val < 1 := (i 0).isLt
  have hi1 : (i 1).val < 8192 := (i 1).isLt
  obtain ⟨t, ht⟩ : ∃ t : Fin cfg1.N, t.val = 255 := ⟨⟨255, lt_of_lt_of_eq (by omega : 255 < 256) N_1'.symm⟩, rfl⟩
  obtain ⟨-, -, -, -, -, -, -, -, -, -, -, -, e60, e61, -⟩ := idx_facts1 t
  refine ⟨t, (flush1_6 t).mpr (by omega), ?_⟩
  rw [mem_blk1_6]
  intro a
  match a with
  | ⟨0, _⟩ =>
    show win1_6.index t (0 : Fin 2) * 1 ≤ (i 0).val ∧ (i 0).val < win1_6.index t (0 : Fin 2) * 1 + 1
    rw [e60]; omega
  | ⟨1, _⟩ =>
    show win1_6.index t (1 : Fin 2) * 8192 ≤ (i 1).val ∧ (i 1).val < win1_6.index t (1 : Fin 2) * 8192 + 8192
    rw [e61]; omega
theorem cover1_7 (i : S1x8192.Idx) :
    ∃ t : Fin cfg1.N, (cfg1.win 7).flush t = true ∧ i ∈ ((cfg1.win 7).blk t).view.set := by
  have hi0 : (i 0).val < 1 := (i 0).isLt
  have hi1 : (i 1).val < 8192 := (i 1).isLt
  obtain ⟨t, ht⟩ : ∃ t : Fin cfg1.N, t.val = 255 := ⟨⟨255, lt_of_lt_of_eq (by omega : 255 < 256) N_1'.symm⟩, rfl⟩
  obtain ⟨-, -, -, -, -, -, -, -, -, -, -, -, -, -, e70, e71⟩ := idx_facts1 t
  refine ⟨t, (flush1_7 t).mpr (by omega), ?_⟩
  rw [mem_blk1_7]
  intro a
  match a with
  | ⟨0, _⟩ =>
    show win1_7.index t (0 : Fin 2) * 1 ≤ (i 0).val ∧ (i 0).val < win1_7.index t (0 : Fin 2) * 1 + 1
    rw [e70]; omega
  | ⟨1, _⟩ =>
    show win1_7.index t (1 : Fin 2) * 8192 ≤ (i 1).val ∧ (i 1).val < win1_7.index t (1 : Fin 2) * 8192 + 8192
    rw [e71]; omega

/-- After the region each result array is its closed form. -/
theorem final1_4 (c : Dev nD) : (dat1 (F := Ideal) V c).arrAt 4 cfg1.N = G4 V c :=
  (dat1 (F := Ideal) V c).arrAt_eq_of_cover 4 (G4 V c) (fun t hf => flushed1_4_eq V c t hf) cover1_4
theorem final1_5 (c : Dev nD) : (dat1 (F := Ideal) V c).arrAt 5 cfg1.N = G5 V c :=
  (dat1 (F := Ideal) V c).arrAt_eq_of_cover 5 (G5 V c) (fun t hf => flushed1_5_eq V c t hf) cover1_5
theorem final1_6 (c : Dev nD) : (dat1 (F := Ideal) V c).arrAt 6 cfg1.N = G6 V c :=
  (dat1 (F := Ideal) V c).arrAt_eq_of_cover 6 (G6 V c) (fun t hf => flushed1_6_eq V c t hf) cover1_6
theorem final1_7 (c : Dev nD) : (dat1 (F := Ideal) V c).arrAt 7 cfg1.N = G7 V c :=
  (dat1 (F := Ideal) V c).arrAt_eq_of_cover 7 (G7 V c) (fun t hf => flushed1_7_eq V c t hf) cover1_7

/-- Entry `b` of the first result array: the sum of `E (b, ·)` over all columns. -/
theorem arr1_4 (c : Dev nD) (b : Fin 8192) :
    (Gen.dat1 (F := Ideal) V c).arrAt 4 cfg1.N (ix2 b 0)
      = ∑ c' : Fin 8192, Cert.Spec.EN (matb (V c main_v0_1)) (matb (V c main_v0_0)) b c' := by
  rw [final1_4]; rfl
/-- Entry `b` of the second result array: the same sum kept on the columns whose label equals row `b`'s. -/
theorem arr1_5 (c : Dev nD) (b : Fin 8192) :
    (Gen.dat1 (F := Ideal) V c).arrAt 5 cfg1.N (ix2 b 0)
      = ∑ c' : Fin 8192, Cert.Spec.EposN (matb (V c main_v0_1)) (matb (V c main_v0_0)) (labr (V c main_v1)) (labc (V c main_v2)) b c' := by
  rw [final1_5]; rfl
/-- Entry `c'` of the third result array: the sum of `E (·, c')` over all rows. -/
theorem arr1_6 (c : Dev nD) (c' : Fin 8192) :
    (Gen.dat1 (F := Ideal) V c).arrAt 6 cfg1.N (ix2 0 c')
      = ∑ b : Fin 8192, Cert.Spec.EN (matb (V c main_v0_1)) (matb (V c main_v0_0)) b c' := by
  rw [final1_6]; rfl
/-- Entry `c'` of the fourth result array: the same sum kept on the rows whose label equals column `c'`'s. -/
theorem arr1_7 (c : Dev nD) (c' : Fin 8192) :
    (Gen.dat1 (F := Ideal) V c).arrAt 7 cfg1.N (ix2 0 c')
      = ∑ b : Fin 8192, Cert.Spec.EposN (matb (V c main_v0_1)) (matb (V c main_v0_0)) (labr (V c main_v1)) (labc (V c main_v2)) b c' := by
  rw [final1_7]; rfl

end Cert.KernelIdeal.Val1

end
-- ==== Proof.KI.ValHost.lean ====
/-
  The two stretches of host operations around the second kernel region, at the ideal instance, over any buffer
  contents: the label vector laid out as a column and as a row, and the tail of the loss (two quotients, two
  logarithms, a negated sum, the mean over the rows) as a function of the region's four sum arrays.
-/
import proofs.«166571_j42013370090174_1_alg».proof.Proof.Gen.KernelIdeal.Launch
import proofs.«166571_j42013370090174_1_alg».proof.Proof.Spec
import Idealize.ShloMosaic.Lib.StableHlo.Run
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.ValHost

open Cert.KernelIdeal Cert.KernelIdeal.Gen Idealize.ShloMosaic Idealize.ShloMosaic.TcCoe Idealize.SL.Sem
  Idealize.ShloMosaic.StableHlo Idealize.ShloMosaic.ValueIdx

/-! ## Columns and vectors: the unit-axis casts read at an index -/

/-- An `[a]` array cast to the column `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to `[a]` reads, at `i`, the operand at `(i, 0)`. -/
theorem shapeCast_a1_a_apply {α : Type} {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

variable (W : Valuation τ sig (Elt Ideal))

/-! ## The labels as a column and as a row -/

theorem v1_term : (StableHlo.after (hostOps1 (F := Ideal)) W (Proc.devRef .tc main_v1) : Vec Ideal S8192x1 .i32)
    = shapeCast S8192x1 (W (Proc.devRef .tc main_arg2) : Vec Ideal S8192 .i32) shapeCasts_S8192_S8192x1 := by
  after_results
  rfl
theorem v2_term : (StableHlo.after (hostOps1 (F := Ideal)) W (Proc.devRef .tc main_v2) : Vec Ideal S1x8192 .i32)
    = shapeCast S1x8192 (W (Proc.devRef .tc main_arg2) : Vec Ideal S8192 .i32) shapeCasts_S8192_S1x8192 := by
  after_results
  rfl

/-- The column of labels: entry `(b, 0)` is label `b`. -/
theorem labels_row' (b : Fin 8192) (z : Fin 1) :
    (StableHlo.after (hostOps1 (F := Ideal)) W (Proc.devRef .tc main_v1) : Vec Ideal S8192x1 .i32) (ix2 b z)
      = (W (Proc.devRef .tc main_arg2) : Vec Ideal S8192 .i32) (ix1 b) := by
  rw [v1_term]
  exact shapeCast_a_a1_apply _ shapeCasts_S8192_S8192x1 b z

/-- The row of labels: entry `(0, b)` is label `b`. -/
theorem labels_col' (z : Fin 1) (b : Fin 8192) :
    (StableHlo.after (hostOps1 (F := Ideal)) W (Proc.devRef .tc main_v2) : Vec Ideal S1x8192 .i32) (ix2 z b)
      = (W (Proc.devRef .tc main_arg2) : Vec Ideal S8192 .i32) (ix1 b) := by
  rw [v2_term]
  exact shapeCast_a_1a_apply _ shapeCasts_S8192_S1x8192 z b

/-! ## The tail of the loss -/

/-- The guard splat over the rows reads the guard everywhere. -/
def epsVec : FVec Ideal S8192 .f32 := broadcastInDim S8192 ![] bcast_S_S8192 (constant (F := Ideal) S_ .f32 0x322BCC77#32)

/-- The rows' terms as a vector: `-(log (rsp / (rs + ε) + ε) + log (csp / (cs + ε) + ε))`. -/
def termVec (rs rsp cs csp : FVec Ideal S8192 .f32) : FVec Ideal S8192 .f32 :=
  Host.negf (F := Ideal) (addf (Host.log (F := Ideal) (addf (Host.divf (F := Ideal) rsp (addf rs epsVec)) epsVec))
    (Host.log (F := Ideal) (addf (Host.divf (F := Ideal) csp (addf cs epsVec)) epsVec)))

/-- The mean of a vector over the 8192 rows: the sum from the zero word, over the word of `8192`. -/
def meanVec (v : FVec Ideal S8192 .f32) : FVec Ideal S_ .f32 :=
  Host.divf (F := Ideal) (Host.reduceAdd (F := Ideal) v (constant (F := Ideal) S_ .f32 0x00000000#32) reducesTo_S8192_S_d0 h_S_)
    (constant (F := Ideal) S_ .f32 0x46000000#32)

theorem v23_term : (StableHlo.after (hostOps2 (F := Ideal)) W (Proc.devRef .tc main_v23) : Vec Ideal S_ .f32)
    = meanVec (termVec
        (shapeCast S8192 (W (Proc.devRef .tc main_v3_0) : FVec Ideal S8192x1 .f32) shapeCasts_S8192x1_S8192)
        (shapeCast S8192 (W (Proc.devRef .tc main_v3_1) : FVec Ideal S8192x1 .f32) shapeCasts_S8192x1_S8192)
        (shapeCast S8192 (W (Proc.devRef .tc main_v3_2) : FVec Ideal S1x8192 .f32) shapeCasts_S1x8192_S8192)
        (shapeCast S8192 (W (Proc.devRef .tc main_v3_3) : FVec Ideal S1x8192 .f32) shapeCasts_S1x8192_S8192)) := by
  after_results
  rfl

theorem epsVec_apply (i : S8192.Idx) : epsVec i = Cert.Spec.epsProb := rfl

theorem termVec_apply (rs rsp cs csp : FVec Ideal S8192 .f32) (i : S8192.Idx) :
    termVec rs rsp cs csp i = Cert.Spec.term (rs i) (rsp i) (cs i) (csp i) := rfl

/-- A rank-one index set is its coordinate range … -/
def idxEquiv1 : S8192.Idx ≃ Fin 8192 where
  toFun i := i 0
  invFun := ix1
  left_inv i := (eq_ix1 i).symm
  right_inv _ := rfl

/-- … so a sum over it is the sum over the coordinate. -/
theorem sum_idx1 (f : S8192.Idx → EReal) : ∑ i, f i = ∑ b : Fin 8192, f (ix1 b) := by
  rw [← Equiv.sum_comp idxEquiv1.symm f]
  rfl

/-- The total sum from the zero word is the sum over the rows. -/
theorem sumVec_apply (v : FVec Ideal S8192 .f32) (i : S_.Idx) :
    Host.reduceAdd (F := Ideal) v (constant (F := Ideal) S_ .f32 0x00000000#32) reducesTo_S8192_S_d0 h_S_ i
      = ∑ b : Fin 8192, v (ix1 b) := by
  simp only [Host.reduceAdd, Ideal.hostReduceAdd_def]
  rw [Ideal.hostReduceAdd_total reducesTo_S8192_S_d0 (fun b => b.elim0) v _ i, sum_idx1]
  show Ideal.ofBits .f32 0x00000000#32 + _ = _
  rw [Ideal.ofBits_zero_f32, zero_add]

theorem meanVec_apply (v : FVec Ideal S8192 .f32) (i : S_.Idx) :
    meanVec v i = Ideal.div (∑ b : Fin 8192, v (ix1 b)) Cert.Spec.nRows := by
  unfold meanVec
  show Ideal.div (Host.reduceAdd (F := Ideal) v (constant (F := Ideal) S_ .f32 0x00000000#32) reducesTo_S8192_S_d0 h_S_ i)
    (Ideal.ofBits .f32 0x46000000#32) = _
  rw [sumVec_apply]
  rfl

/-- The last host value is the specification's tail of the four sum arrays, read as functions of the row. -/
theorem tail_eq' :
    (StableHlo.after (hostOps2 (F := Ideal)) W (Proc.devRef .tc main_v23) : Vec Ideal S_ .f32)
      = fun _ => Cert.Spec.tail
          (fun b => (W (Proc.devRef .tc main_v3_0) : Vec Ideal S8192x1 .f32) (ix2 b (0 : Fin 1)))
          (fun b => (W (Proc.devRef .tc main_v3_1) : Vec Ideal S8192x1 .f32) (ix2 b (0 : Fin 1)))
          (fun b => (W (Proc.devRef .tc main_v3_2) : Vec Ideal S1x8192 .f32) (ix2 (0 : Fin 1) b))
          (fun b => (W (Proc.devRef .tc main_v3_3) : Vec Ideal S1x8192 .f32) (ix2 (0 : Fin 1) b)) := by
  rw [v23_term]
  funext i
  rw [meanVec_apply]
  simp only [termVec_apply, shapeCast_a1_a_apply, shapeCast_1a_a_apply]
  rfl

end Cert.KernelIdeal.ValHost

namespace Cert.KernelIdeal.Val

open Cert.KernelIdeal Cert.KernelIdeal.Gen Idealize.ShloMosaic Idealize.ShloMosaic.TcCoe Idealize.SL.Sem
  Idealize.ShloMosaic.StableHlo Idealize.ShloMosaic.ValueIdx

variable (W : Valuation τ sig (Elt Ideal))

/-- After the first host stretch the column of labels holds, at `(b, 0)`, label `b`. -/
theorem labels_row (b : Fin 8192) :
    (StableHlo.after (hostOps1 (F := Ideal)) W (Proc.devRef .tc main_v1) : Vec Ideal S8192x1 .i32) (ix2 b (0 : Fin 1))
      = (W (Proc.devRef .tc main_arg2) : Vec Ideal S8192 .i32) (ix1 b) :=
  ValHost.labels_row' W b 0

/-- After the first host stretch the row of labels holds, at `(0, b)`, label `b`. -/
theorem labels_col (b : Fin 8192) :
    (StableHlo.after (hostOps1 (F := Ideal)) W (Proc.devRef .tc main_v2) : Vec Ideal S1x8192 .i32) (ix2 (0 : Fin 1) b)
      = (W (Proc.devRef .tc main_arg2) : Vec Ideal S8192 .i32) (ix1 b) :=
  ValHost.labels_col' W 0 b

/-- After the second host stretch the result is the specification's tail of the four sum arrays: the row sums
    and masked row sums read down their columns, the column sums and masked column sums along their rows. -/
theorem tail_eq :
    (StableHlo.after (hostOps2 (F := Ideal)) W (Proc.devRef .tc main_v23) : Vec Ideal S_ .f32)
      = fun _ => Cert.Spec.tail
          (fun b => (W (Proc.devRef .tc main_v3_0) : Vec Ideal S8192x1 .f32) (ix2 b (0 : Fin 1)))
          (fun b => (W (Proc.devRef .tc main_v3_1) : Vec Ideal S8192x1 .f32) (ix2 b (0 : Fin 1)))
          (fun b => (W (Proc.devRef .tc main_v3_2) : Vec Ideal S1x8192 .f32) (ix2 (0 : Fin 1) b))
          (fun b => (W (Proc.devRef .tc main_v3_3) : Vec Ideal S1x8192 .f32) (ix2 (0 : Fin 1) b)) :=
  ValHost.tail_eq' W

end Cert.KernelIdeal.Val

end
-- ==== Proof.KI.Value.lean ====
/-
  The idealized kernel program's result.  After the first region the two scaled arrays hold each argument row over
  `max ‖row‖ ε`; the second region's four arrays are then the four sums of `E` over those scaled rows, with the labels
  read through the two reshapes; the host tail turns the four sums into the loss: the program ends with the
  specification's `G` of its three arguments in its result buffer, and its arguments as launched.
-/
import proofs.«166571_j42013370090174_1_alg».proof.Proof.KI.Run
import proofs.«166571_j42013370090174_1_alg».proof.Proof.KI.Val0
import proofs.«166571_j42013370090174_1_alg».proof.Proof.KI.Val1
import proofs.«166571_j42013370090174_1_alg».proof.Proof.KI.ValHost
import proofs.«166571_j42013370090174_1_alg».proof.Proof.Spec

noncomputable section

namespace Cert.KernelIdeal.Val

open Cert.KernelIdeal Cert.KernelIdeal.Gen Idealize.ShloMosaic Idealize.ShloMosaic.TcCoe Idealize.SL.Sem
  Idealize.ShloMosaic.ValueIdx
open Idealize.ShloMosaic.Pipeline (Dat)

variable (m : (ℓ : Loc nD τ sig) → Buf (Elt Ideal) ℓ) (ρ : Dev nD → PrngReg)

/-- The class labels read as the specification's: entry `b`. -/
def lab (y : Vec Ideal S8192 .i32) : Cert.Spec.Lab := fun b => y (ix1 b)

/-- The three arguments as the first region finds them are the launch memory's. -/
theorem U0_arg0 (c : Dev nD) : U0 m ρ c main_arg0 = m ((c.tc : Thread nD τ).loc main_arg0) := rfl
theorem U0_arg1 (c : Dev nD) : U0 m ρ c main_arg1 = m ((c.tc : Thread nD τ).loc main_arg1) := rfl

/-- What the second region finds in the scaled-audio array: what the first region's write-backs left. -/
theorem v0_0_eq (c : Dev nD) : U2 m ρ c main_v0_0 = (dat0 (U0 m ρ) c).arrAt 2 cfg0.N :=
  (hostOps1_keeps main_v0_0 (by decide) _).trans (W1_arr m ρ c 2)
theorem v0_1_eq (c : Dev nD) : U2 m ρ c main_v0_1 = (dat0 (U0 m ρ) c).arrAt 3 cfg0.N :=
  (hostOps1_keeps main_v0_1 (by decide) _).trans (W1_arr m ρ c 3)

/-- The scaled rows the second region reads are the unit rows of the arguments. -/
theorem A_eq (c : Dev nD) : Val1.matb (U2 m ρ c main_v0_0) = Cert.Spec.nrm (mat (m ((c.tc : Thread nD τ).loc main_arg0))) := by
  funext b d
  show (U2 m ρ c main_v0_0) (ix2 b d) = _
  rw [v0_0_eq, arr0_2]
theorem L_eq (c : Dev nD) : Val1.matb (U2 m ρ c main_v0_1) = Cert.Spec.nrm (mat (m ((c.tc : Thread nD τ).loc main_arg1))) := by
  funext b d
  show (U2 m ρ c main_v0_1) (ix2 b d) = _
  rw [v0_1_eq, arr0_3]

/-- The labels are untouched by the first region. -/
theorem W1_arg2 (c : Dev nD) : W1 m ρ c (Proc.devRef .tc main_arg2) = m ((c.tc : Thread nD τ).loc main_arg2) :=
  W1_of_ne m ρ c main_arg2 (by decide)
/-- The row labels and the column labels the second region reads are the argument's labels. -/
theorem rl_eq (c : Dev nD) : Val1.labr (U2 m ρ c main_v1) = lab (m ((c.tc : Thread nD τ).loc main_arg2)) := by
  funext b
  show (StableHlo.after (hostOps1 (F := Ideal)) (W1 m ρ c) (Proc.devRef .tc main_v1) : Vec Ideal S8192x1 .i32) (ix2 b (0 : Fin 1)) = _
  rw [labels_row, W1_arg2]; rfl
theorem cl_eq (c : Dev nD) : Val1.labc (U2 m ρ c main_v2) = lab (m ((c.tc : Thread nD τ).loc main_arg2)) := by
  funext b
  show (StableHlo.after (hostOps1 (F := Ideal)) (W1 m ρ c) (Proc.devRef .tc main_v2) : Vec Ideal S1x8192 .i32) (ix2 (0 : Fin 1) b) = _
  rw [labels_col, W1_arg2]; rfl

/-- The four arrays after the second region are the four sums. -/
theorem rs_eq (c : Dev nD) : (fun b : Fin 8192 => (W3 m ρ c (Proc.devRef .tc main_v3_0) : Vec Ideal S8192x1 .f32) (ix2 b (0 : Fin 1)))
    = Cert.Spec.rowSum (mat (m ((c.tc : Thread nD τ).loc main_arg0))) (mat (m ((c.tc : Thread nD τ).loc main_arg1))) := by
  funext b
  rw [show W3 m ρ c (Proc.devRef .tc main_v3_0) = (dat1 (U2 m ρ) c).arrAt 4 cfg1.N from W3_arr m ρ c 4, Val1.arr1_4, L_eq, A_eq]
  rfl
theorem rsp_eq (c : Dev nD) : (fun b : Fin 8192 => (W3 m ρ c (Proc.devRef .tc main_v3_1) : Vec Ideal S8192x1 .f32) (ix2 b (0 : Fin 1)))
    = Cert.Spec.rowSumPos (mat (m ((c.tc : Thread nD τ).loc main_arg0))) (mat (m ((c.tc : Thread nD τ).loc main_arg1))) (lab (m ((c.tc : Thread nD τ).loc main_arg2))) := by
  funext b
  rw [show W3 m ρ c (Proc.devRef .tc main_v3_1) = (dat1 (U2 m ρ) c).arrAt 5 cfg1.N from W3_arr m ρ c 5, Val1.arr1_5, L_eq, A_eq, rl_eq, cl_eq]
  rfl
theorem cs_eq (c : Dev nD) : (fun b : Fin 8192 => (W3 m ρ c (Proc.devRef .tc main_v3_2) : Vec Ideal S1x8192 .f32) (ix2 (0 : Fin 1) b))
    = Cert.Spec.colSum (mat (m ((c.tc : Thread nD τ).loc main_arg0))) (mat (m ((c.tc : Thread nD τ).loc main_arg1))) := by
  funext b
  rw [show W3 m ρ c (Proc.devRef .tc main_v3_2) = (dat1 (U2 m ρ) c).arrAt 6 cfg1.N from W3_arr m ρ c 6, Val1.arr1_6, L_eq, A_eq]
  rfl
theorem csp_eq (c : Dev nD) : (fun b : Fin 8192 => (W3 m ρ c (Proc.devRef .tc main_v3_3) : Vec Ideal S1x8192 .f32) (ix2 (0 : Fin 1) b))
    = Cert.Spec.colSumPos (mat (m ((c.tc : Thread nD τ).loc main_arg0))) (mat (m ((c.tc : Thread nD τ).loc main_arg1))) (lab (m ((c.tc : Thread nD τ).loc main_arg2))) := by
  funext b
  rw [show W3 m ρ c (Proc.devRef .tc main_v3_3) = (dat1 (U2 m ρ) c).arrAt 7 cfg1.N from W3_arr m ρ c 7, Val1.arr1_7, L_eq, A_eq, rl_eq, cl_eq]
  rfl

/-- The result buffer at the end: the loss of the three arguments. -/
theorem result_eq (c : Dev nD) : W4 m ρ c (Proc.devRef .tc main_v23)
    = fun _ => Cert.Spec.G (mat (m ((c.tc : Thread nD τ).loc main_arg0))) (mat (m ((c.tc : Thread nD τ).loc main_arg1))) (lab (m ((c.tc : Thread nD τ).loc main_arg2))) := by
  show (StableHlo.after (hostOps2 (F := Ideal)) (W3 m ρ c) (Proc.devRef .tc main_v23) : Vec Ideal S_ .f32) = _
  rw [tail_eq, rs_eq, rsp_eq, cs_eq, csp_eq]
  rfl

/-- THE VALUE RUN: every weakly fair execution terminates with the loss in the result buffer and the arguments as launched. -/
theorem run : θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v23)
        = (fun _ => Cert.Spec.G (mat (m ((c.tc : Thread nD τ).loc main_arg0))) (mat (m ((c.tc : Thread nD τ).loc main_arg1))) (lab (m ((c.tc : Thread nD τ).loc main_arg2))))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)) :=
  (θ_run Cert.KernelIdeal.defs _ _).mono (fun _ h c =>
    ⟨(h c _ (mem_uc main_v23 (by decide))).trans (result_eq m ρ c),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c)⟩) (run_main m ρ)

end Cert.KernelIdeal.Val

end
-- ==== Proof.RefValue.lean ====
/-
  The reference program's result, at the ideal instance, is the loss `Cert.Spec.G` of its three argument arrays.

  Read one entry at a time. Each feature array divided by `max (√(row's sum of squares)) ε` is the specification's
  unit-length rows; entry `(b, c)` of the product of the unit label rows with the unit audio rows is `dot`; dividing
  by the temperature `9395241 / 2^27` is multiplying by its reciprocal on every extended real, so the exponential is
  `E`. The label-equality bit converted to a float is `1` or `0`, and `x · 1 = x`, `x · 0 = 0`, so the masked products
  are `Epos`. The row sums of the exponentials of the transposed logits are the column sums, label equality being
  symmetric. Each reduction starts from the zero word, which is `0`. The tail (two quotients, two logarithms, a
  negated sum, the mean over the rows) is the specification's `term` and `tail` as they stand.
-/
import proofs.«166571_j42013370090174_1_alg».proof.Proof.Gen.ReferenceIdeal.Run
import proofs.«166571_j42013370090174_1_alg».proof.Proof.Gen.ReferenceIdeal.Read
import proofs.«166571_j42013370090174_1_alg».proof.Proof.Spec
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-- A feature array read as the specification's matrix: entry `(b, d)`. -/
def mat (x : FVec Ideal S8192x512 .f32) : Cert.Spec.Mat := fun b d => x (ix2 b d)
/-- The label array read as the specification's label function. -/
def lab (y : IVec S8192 32) : Cert.Spec.Lab := fun b => y (ix1 b)

/-! ## The index maps of the layout operations, at coordinates -/

theorem idx_v1 (b : Fin 8192) (k : Fin 512) : idx_main_v1 (ix1 b) k = ix2 b k :=
  funext fun a => Fin.ext (by match a with | ⟨0, _⟩ => rfl | ⟨1, _⟩ => rfl)
theorem idx_v2 (b : Fin 8192) (z : Fin 1) : idx_main_v2 (ix2 b z) = ix1 b :=
  funext fun a => Fin.ext (by match a with | ⟨0, _⟩ => rfl)
theorem idx_v6 (b : Fin 8192) (d : Fin 512) : idx_main_v6 (ix2 b d) = ix2 b (⟨0, Nat.one_pos⟩ : Fin 1) :=
  funext fun a => Fin.ext (by match a with | ⟨0, _⟩ => rfl | ⟨1, _⟩ => rfl)
theorem idx_v9 (b : Fin 8192) (k : Fin 512) : idx_main_v9 (ix1 b) k = ix2 b k :=
  funext fun a => Fin.ext (by match a with | ⟨0, _⟩ => rfl | ⟨1, _⟩ => rfl)
theorem idx_v10 (b : Fin 8192) (z : Fin 1) : idx_main_v10 (ix2 b z) = ix1 b :=
  funext fun a => Fin.ext (by match a with | ⟨0, _⟩ => rfl)
theorem idx_v14 (b : Fin 8192) (d : Fin 512) : idx_main_v14 (ix2 b d) = ix2 b (⟨0, Nat.one_pos⟩ : Fin 1) :=
  funext fun a => Fin.ext (by match a with | ⟨0, _⟩ => rfl | ⟨1, _⟩ => rfl)

/-! ## Rows scaled to unit length -/

/-- The first reduction: the sum of squares of a row of the audio array. -/
theorem sq_a (x : FVec Ideal S8192x512 .f32) (b : Fin 8192) :
    val_main_v1 (F := Ideal) x (ix1 b) = Cert.Spec.sq (mat x) b := by
  rw [val_main_v1_apply, val_main_cst_apply]
  simp only [val_main_v0_apply, idx_v1, Ideal.ofBits_def, Ideal.ofBits_zero_f32, zero_add, Ideal.mulf_def]
  rfl

/-- The same for the label array. -/
theorem sq_l (x : FVec Ideal S8192x512 .f32) (b : Fin 8192) :
    val_main_v9 (F := Ideal) x (ix1 b) = Cert.Spec.sq (mat x) b := by
  rw [val_main_v9_apply, val_main_cst_1_apply]
  simp only [val_main_v8_apply, idx_v9, Ideal.ofBits_def, Ideal.ofBits_zero_f32, zero_add, Ideal.mulf_def]
  rfl

/-- The audio array with each row over `max ‖row‖ ε`. -/
theorem nrm_a (x : FVec Ideal S8192x512 .f32) (c : Fin 8192) (d : Fin 512) :
    val_main_v7 (F := Ideal) x (ix2 c d) = Cert.Spec.nrm (mat x) c d := by
  rw [val_main_v7_apply, val_main_v6_apply, val_main_v5_apply, val_main_v3_apply, val_main_v2_apply,
    val_main_v4_apply, val_main_cst_0_apply, idx_v6, idx_v2, sq_a]
  rfl

/-- The label array likewise. -/
theorem nrm_l (x : FVec Ideal S8192x512 .f32) (c : Fin 8192) (d : Fin 512) :
    val_main_v15 (F := Ideal) x (ix2 c d) = Cert.Spec.nrm (mat x) c d := by
  rw [val_main_v15_apply, val_main_v14_apply, val_main_v13_apply, val_main_v11_apply, val_main_v10_apply,
    val_main_v12_apply, val_main_cst_2_apply, idx_v14, idx_v10, sq_l]
  rfl

/-! ## The logits and their exponentials -/

theorem lidx_v22 (b c : Fin 8192) (k : Fin 512) : lidx_main_v22 (ix2 b c) k = ix2 b k :=
  funext fun a => Fin.ext (by match a with | ⟨0, _⟩ => rfl | ⟨1, _⟩ => rfl)
theorem ridx_v22 (b c : Fin 8192) (k : Fin 512) : ridx_main_v22 (ix2 b c) k = ix2 c k :=
  funext fun a => Fin.ext (by match a with | ⟨0, _⟩ => rfl | ⟨1, _⟩ => rfl)
theorem idx_v25 (b c : Fin 8192) : idx_main_v25 (ix2 b c) = ix2 c b :=
  funext fun a => Fin.ext (by match a with | ⟨0, _⟩ => rfl | ⟨1, _⟩ => rfl)

/-- Entry `(b, c)` of the product: unit label row `b` against unit audio row `c`. -/
theorem dot_at (a l : FVec Ideal S8192x512 .f32) (b c : Fin 8192) :
    val_main_v22 (F := Ideal) a l (ix2 b c) = Cert.Spec.dot (mat a) (mat l) b c := by
  rw [val_main_v22_apply]
  simp only [lidx_v22, ridx_v22, nrm_a, nrm_l]
  rfl

/-- The temperature's word is `9395241 / 2^27`. -/
theorem ofBits_temp : Ideal.ofBits .f32 0x3D8F5C29#32 = ((9395241 / 134217728 : ℝ) : EReal) := by
  simp [Ideal.ofBits, Ideal.ieee, -EReal.coe_mul]; norm_num

/-- Dividing by the temperature is multiplying by its reciprocal, on every extended real. -/
theorem div_temp (x : EReal) : Ideal.div x (Ideal.ofBits .f32 0x3D8F5C29#32) = x * Cert.Spec.invTemp := by
  rw [ofBits_temp, Ideal.div_coe (by norm_num : (9395241 / 134217728 : ℝ) ≠ 0)]
  unfold Cert.Spec.invTemp
  norm_num

/-- The scaled logit of the pair `(b, c)`. -/
theorem logit_at (a l : FVec Ideal S8192x512 .f32) (b c : Fin 8192) :
    val_main_v24 (F := Ideal) a l (ix2 b c) = Cert.Spec.dot (mat a) (mat l) b c * Cert.Spec.invTemp := by
  rw [val_main_v24_apply, val_main_v23_apply, val_main_cst_3_apply, dot_at]
  exact div_temp _

/-- The exponential of the logits at `(b, c)` … -/
theorem exp_at (a l : FVec Ideal S8192x512 .f32) (b c : Fin 8192) :
    val_main_v26 (F := Ideal) a l (ix2 b c) = Cert.Spec.E (mat a) (mat l) b c := by
  rw [val_main_v26_apply, logit_at]
  rfl

/-- … and of the transposed logits: the pair `(c, b)`. -/
theorem expT_at (a l : FVec Ideal S8192x512 .f32) (b c : Fin 8192) :
    val_main_v27 (F := Ideal) a l (ix2 b c) = Cert.Spec.E (mat a) (mat l) c b := by
  rw [val_main_v27_apply, val_main_v25_apply, idx_v25, logit_at]
  rfl

/-! ## The label-equality mask -/

theorem idx_v18 (b c : Fin 8192) : idx_main_v18 (ix2 b c) = ix2 b (⟨0, Nat.one_pos⟩ : Fin 1) :=
  funext fun a => Fin.ext (by match a with | ⟨0, _⟩ => rfl | ⟨1, _⟩ => rfl)
theorem idx_v16 (b : Fin 8192) (z : Fin 1) : idx_main_v16 (ix2 b z) = ix1 b :=
  funext fun a => Fin.ext (by match a with | ⟨0, _⟩ => rfl)
theorem idx_v19 (b c : Fin 8192) : idx_main_v19 (ix2 b c) = ix2 (⟨0, Nat.one_pos⟩ : Fin 1) c :=
  funext fun a => Fin.ext (by match a with | ⟨0, _⟩ => rfl | ⟨1, _⟩ => rfl)
theorem idx_v17 (z : Fin 1) (c : Fin 8192) : idx_main_v17 (ix2 z c) = ix1 c :=
  funext fun a => Fin.ext (by match a with | ⟨0, _⟩ => rfl)

/-- The equality bit of two words, converted to a float, is `1` where they are equal and `0` elsewhere. -/
theorem mask_word (u v : BitVec 32) :
    FloatOps.uitofp (F := Ideal) .f32 (IntOp.cmpi .eq u v) = if u = v then (1 : EReal) else 0 := by
  show (((IntOp.cmpi .eq u v).toNat : ℝ) : EReal) = _
  by_cases h : u = v
  · subst h; simp [IntOp.cmpi]
  · simp [IntOp.cmpi, h]

/-- The mask at `(b, c)`: are the labels of rows `b` and `c` equal. -/
theorem mask_at (y : IVec S8192 32) (b c : Fin 8192) :
    val_main_v21 (F := Ideal) y (ix2 b c) = if lab y b = lab y c then (1 : EReal) else 0 := by
  rw [val_main_v21_apply, val_main_v20_apply, val_main_v18_apply, val_main_v19_apply, val_main_v16_apply,
    val_main_v17_apply, idx_v18, idx_v19, idx_v16, idx_v17]
  exact mask_word _ _

/-- A value times the mask is the value kept where the labels agree. -/
theorem mul_mask (x : EReal) (p : Prop) [Decidable p] : x * (if p then (1 : EReal) else 0) = if p then x else 0 := by
  split
  · exact mul_one x
  · exact mul_zero x

/-! ## The four sums -/

theorem idx_v29 (b k : Fin 8192) : idx_main_v29 (ix1 b) k = ix2 b k :=
  funext fun a => Fin.ext (by match a with | ⟨0, _⟩ => rfl | ⟨1, _⟩ => rfl)
theorem idx_v30 (b k : Fin 8192) : idx_main_v30 (ix1 b) k = ix2 b k :=
  funext fun a => Fin.ext (by match a with | ⟨0, _⟩ => rfl | ⟨1, _⟩ => rfl)
theorem idx_v35 (b k : Fin 8192) : idx_main_v35 (ix1 b) k = ix2 b k :=
  funext fun a => Fin.ext (by match a with | ⟨0, _⟩ => rfl | ⟨1, _⟩ => rfl)
theorem idx_v36 (b k : Fin 8192) : idx_main_v36 (ix1 b) k = ix2 b k :=
  funext fun a => Fin.ext (by match a with | ⟨0, _⟩ => rfl | ⟨1, _⟩ => rfl)

/-- The sum of a row of exponentials. -/
theorem rowSum_at (a l : FVec Ideal S8192x512 .f32) (b : Fin 8192) :
    val_main_v30 (F := Ideal) a l (ix1 b) = Cert.Spec.rowSum (mat a) (mat l) b := by
  rw [val_main_v30_apply, val_main_cst_5_apply]
  simp only [idx_v30, exp_at, Ideal.ofBits_def, Ideal.ofBits_zero_f32, zero_add]
  rfl

/-- The sum of a row over the pairs with equal labels. -/
theorem rowSumPos_at (a l : FVec Ideal S8192x512 .f32) (y : IVec S8192 32) (b : Fin 8192) :
    val_main_v29 (F := Ideal) a l y (ix1 b) = Cert.Spec.rowSumPos (mat a) (mat l) (lab y) b := by
  rw [val_main_v29_apply, val_main_cst_4_apply]
  simp only [idx_v29, val_main_v28_apply, exp_at, mask_at, Ideal.mulf_def, mul_mask, Ideal.ofBits_def,
    Ideal.ofBits_zero_f32, zero_add]
  rfl

/-- The sum of a row of the transposed exponentials: a column sum. -/
theorem colSum_at (a l : FVec Ideal S8192x512 .f32) (b : Fin 8192) :
    val_main_v36 (F := Ideal) a l (ix1 b) = Cert.Spec.colSum (mat a) (mat l) b := by
  rw [val_main_v36_apply, val_main_cst_8_apply]
  simp only [idx_v36, expT_at, Ideal.ofBits_def, Ideal.ofBits_zero_f32, zero_add]
  rfl

/-- The masked column sum; label equality is symmetric. -/
theorem colSumPos_at (a l : FVec Ideal S8192x512 .f32) (y : IVec S8192 32) (b : Fin 8192) :
    val_main_v35 (F := Ideal) a l y (ix1 b) = Cert.Spec.colSumPos (mat a) (mat l) (lab y) b := by
  rw [val_main_v35_apply, val_main_cst_7_apply]
  simp only [idx_v35, val_main_v34_apply, expT_at, mask_at, Ideal.mulf_def, mul_mask, Ideal.ofBits_def,
    Ideal.ofBits_zero_f32, zero_add]
  unfold Cert.Spec.colSumPos Cert.Spec.Epos
  exact Finset.sum_congr rfl fun k _ => if_congr eq_comm rfl rfl

/-! ## The tail: the quotients, the logarithms and the mean -/

/-- Row `b`'s term of the loss, from the four sums at `b`. -/
theorem term_at (a l : FVec Ideal S8192x512 .f32) (y : IVec S8192 32) (b : Fin 8192) :
    val_main_v47 (F := Ideal) a l y (ix1 b)
      = Cert.Spec.term (Cert.Spec.rowSum (mat a) (mat l) b) (Cert.Spec.rowSumPos (mat a) (mat l) (lab y) b)
          (Cert.Spec.colSum (mat a) (mat l) b) (Cert.Spec.colSumPos (mat a) (mat l) (lab y) b) := by
  rw [val_main_v47_apply, val_main_v46_apply, val_main_v42_apply, val_main_v45_apply, val_main_v41_apply,
    val_main_v44_apply, val_main_v33_apply, val_main_v39_apply, val_main_v40_apply, val_main_v43_apply,
    val_main_v32_apply, val_main_v38_apply, val_main_v31_apply, val_main_v37_apply, val_main_cst_6_apply,
    val_main_cst_9_apply, val_main_cst_10_apply, val_main_cst_11_apply, rowSum_at, rowSumPos_at, colSum_at,
    colSumPos_at]
  rfl

/-- A rank-one index set is its coordinate range … -/
def idxEquiv1 : S8192.Idx ≃ Fin 8192 where
  toFun i := i 0
  invFun := ix1
  left_inv i := (eq_ix1 i).symm
  right_inv _ := rfl

/-- … so a sum over it is the sum over the coordinate. -/
theorem sum_idx1 (f : S8192.Idx → EReal) : ∑ i, f i = ∑ b : Fin 8192, f (ix1 b) := by
  rw [← Equiv.sum_comp idxEquiv1.symm f]
  rfl

/-- The reference's result: the mean over the rows of their terms, which is the loss. -/
theorem result_eq (a l : FVec Ideal S8192x512 .f32) (y : IVec S8192 32) :
    val_main_v49 (F := Ideal) a l y = fun _ => Cert.Spec.G (mat a) (mat l) (lab y) := by
  funext i
  rw [val_main_v49_apply, val_main_v48_apply, val_main_cst_12_apply, val_main_cst_13_apply, sum_idx1]
  simp only [term_at, Ideal.ofBits_def, Ideal.ofBits_zero_f32, zero_add]
  rfl

/-- Every weakly fair execution of the reference terminates with its result at the loss of its arguments, the arguments unchanged. -/
theorem run (m : (ℓ : Loc nD τ sig) → Buf (Elt Ideal) ℓ) (ρ : Dev nD → PrngReg) :
    θ_run (Cert.ReferenceIdeal.defs (F := Ideal)) (onTc (τ := Cert.ReferenceIdeal.τ) (Cert.ReferenceIdeal.main (F := Ideal))) ⟨m, fun _ => 0, ρ⟩
      (fun r => ∀ c : Dev Cert.ReferenceIdeal.nD,
        r.2.mem ((c.tc : Thread Cert.ReferenceIdeal.nD Cert.ReferenceIdeal.τ).loc Cert.ReferenceIdeal.main_v49)
          = (fun _ => Cert.Spec.G
              (mat (m ((c.tc : Thread Cert.ReferenceIdeal.nD Cert.ReferenceIdeal.τ).loc Cert.ReferenceIdeal.main_arg0)))
              (mat (m ((c.tc : Thread Cert.ReferenceIdeal.nD Cert.ReferenceIdeal.τ).loc Cert.ReferenceIdeal.main_arg1)))
              (lab (m ((c.tc : Thread Cert.ReferenceIdeal.nD Cert.ReferenceIdeal.τ).loc Cert.ReferenceIdeal.main_arg2))))
        ∧ r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
            = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2)
            = m ((c.tc : Thread Cert.ReferenceIdeal.nD Cert.ReferenceIdeal.τ).loc Cert.ReferenceIdeal.main_arg2)) :=
  (θ_run Cert.ReferenceIdeal.defs _ _).mono
    (fun _ h c => ⟨(h c).1.trans ((val_main_v49_eq m c).trans (result_eq _ _ _)), (h c).2⟩)
    (Cert.ReferenceIdeal.Value.run (F := Ideal) m ρ)

end Cert.ReferenceIdeal.RefValue

end
-- ==== Proof.lean ====
/-
  The certificate's five claims for the contrastive (InfoNCE) loss kernel against its reference.

  Both kernel programs (the word-level one and its idealization) are two kernel regions and a host tail; their
  frames are the run of those segments read at the three arguments.  The idealization names one constant: the folded
  reciprocal of the temperature, which is exactly `1 / f32(0.07) = 134217728 / 9395241`.  At the ideal instance the
  kernel program ends with the loss `Cert.Spec.G` of its arguments in its result buffer — unit rows, tile by tile the
  exponentials of the scaled inner products, their row and column sums accumulated over the grid, the mean of the
  log terms — and so does the reference, which forms the whole 8192×8192 matrix at once and divides by the
  temperature where the kernel multiplies by its reciprocal; sums over tiles are sums over the whole axis because
  addition of extended reals is commutative and associative, so no finiteness of the inputs is used.
-/
import proofs.«166571_j42013370090174_1_alg».proof.Defs
import proofs.«166571_j42013370090174_1_alg».proof.Proof.Gen.Kernel
import proofs.«166571_j42013370090174_1_alg».proof.Proof.Gen.KernelIdeal
import proofs.«166571_j42013370090174_1_alg».proof.Proof.Gen.ReferenceIdeal
import proofs.«166571_j42013370090174_1_alg».proof.Proof.Gen.Pre_finite_inputs
import proofs.«166571_j42013370090174_1_alg».proof.Proof.K.Run
import proofs.«166571_j42013370090174_1_alg».proof.Proof.KI.Run
import proofs.«166571_j42013370090174_1_alg».proof.Proof.KI.Value
import proofs.«166571_j42013370090174_1_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame (F := Bits) m ρ
theorem frame_ki : Cert.frame_KernelIdeal := fun m ρ _ => Cert.KernelIdeal.Gen.frame (F := Ideal) m ρ
theorem frame_ri : Cert.frame_ReferenceIdeal := fun m ρ _ =>
  (θ_run Cert.ReferenceIdeal.defs _ _).mono (fun _ h c => (h c).2) (Cert.ReferenceIdeal.RefValue.run m ρ)

/-- The one named constant: the table gives `"inv_temp"` the value `134217728 / 9395241`. -/
theorem preserves : Cert.preserves_Kernel_KernelIdeal :=
  IdealRules.named_const.statement Cert.KernelIdeal.κ "inv_temp" .f32 0x41649249#32 ((134217728 / 9395241 : ℝ) : EReal) rfl

/-- Both idealized programs end with the loss of arguments that agree. -/
theorem algebraic : Cert.algebraic_KernelIdeal_ReferenceIdeal := by
  intro m ρ m' ρ' _ hagree
  refine ⟨_, Cert.KernelIdeal.Val.run m ρ, ?_⟩
  refine (θ_run Cert.ReferenceIdeal.defs _ _).mono (fun _ h c => ⟨(h c).1.trans ?_, (h c).2⟩)
    (Cert.ReferenceIdeal.RefValue.run m' ρ')
  rw [(hagree c).1, (hagree c).2.1, (hagree c).2.2]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
